-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S2048x64x64 : Shape := ⟨3, ![2048, 64, 64]⟩
abbrev S128x256 : Shape := ⟨2, ![128, 256]⟩
abbrev S128 : Shape := ⟨1, ![128]⟩
abbrev S128x128 : Shape := ⟨2, ![128, 128]⟩
abbrev S128x320 : Shape := ⟨2, ![128, 320]⟩
abbrev S64x256 : Shape := ⟨2, ![64, 256]⟩
abbrev S1x64 : Shape := ⟨2, ![1, 64]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S2048x64x64 : S_.BroadcastsInDim S2048x64x64 (![] : Fin 0 → Fin S2048x64x64.rank)
  reducesTo_S2048x64x64_S_d0_1_2 : S2048x64x64.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x320 : S_.BroadcastsInDim S128x320 (![] : Fin 0 → Fin S128x320.rank)
  reducesTo_S128x320_S_d0_1 : S128x320.ReducesTo [0, 1] S_
  bcast_S_S64x256 : S_.BroadcastsInDim S64x256 (![] : Fin 0 → Fin S64x256.rank)
  reducesTo_S64x256_S_d0_1 : S64x256.ReducesTo [0, 1] S_
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_arg14 : FVec F S1x64 .f32) (main_v63 : IVec S_ 1) (main_v67 : IVec S_ 1) : IVec S_ 1 :=
  let main_v68 : IVec S_ 1 := andi main_v63 main_v67
  let main_v69 : FVec F S1x64 .f32 := Host.absf main_arg14
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S64x256 .f32) (main_arg14 : FVec F S1x64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x256 .f32 := Host.absf main_arg13
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_arg14 main_v63 main_v67

def fn_part2 {F : FTy → Type} [FloatOps F] (main_arg7 : FVec F S128 .f32) (main_arg8 : FVec F S128x320 .f32) (main_arg9 : FVec F S128 .f32) (main_arg10 : FVec F S128x128 .f32) (main_arg11 : FVec F S128x128 .f32) (main_arg12 : FVec F S128 .f32) (main_arg13 : FVec F S64x256 .f32) (main_arg14 : FVec F S1x64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x320 .f32 := Host.absf main_arg8
  let main_cst_14 : FVec F S_ .f32 := constant S_ .f32 0x7F800000#32
  let main_v40 : FVec F S128x320 .f32 := broadcastInDim S128x320 ![] bcast_S_S128x320 main_cst_14
  let main_v41 : IVec S128x320 1 := cmpf .olt main_v39 main_v40
  let main_c_15 : IVec S_ 1 := constantI S_ 1 1#1
  let main_v42 : IVec S_ 1 := (fun x v => Host.reduce IntOp.andi x v reducesTo_S128x320_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128x128 .f32) (main_arg6 : FVec F S128x128 .f32) (main_arg7 : FVec F S128 .f32) (main_arg8 : FVec F S128x320 .f32) (main_arg9 : FVec F S128 .f32) (main_arg10 : FVec F S128x128 .f32) (main_arg11 : FVec F S128x128 .f32) (main_arg12 : FVec F S128 .f32) (main_arg13 : FVec F S64x256 .f32) (main_arg14 : FVec F S1x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x64x256 .f32) (main_arg1 : FVec F S2048x64x64 .f32) (main_arg2 : FVec F S128x256 .f32) (main_arg3 : FVec F S128 .f32) (main_arg4 : FVec F S128x128 .f32) (main_arg5 : FVec F S128x128 .f32) (main_arg6 : FVec F S128x128 .f32) (main_arg7 : FVec F S128 .f32) (main_arg8 : FVec F S128x320 .f32) (main_arg9 : FVec F S128 .f32) (main_arg10 : FVec F S128x128 .f32) (main_arg11 : FVec F S128x128 .f32) (main_arg12 : FVec F S128 .f32) (main_arg13 : FVec F S64x256 .f32) (main_arg14 : FVec F S1x64 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S2048x64x64 .f32 := Host.absf main_arg1
  let main_cst_0 : FVec F S_ .f32 := constant S_ .f32 0x7F800000#32
  let main_v5 : FVec F S2048x64x64 .f32 := broadcastInDim S2048x64x64 ![] bcast_S_S2048x64x64 main_cst_0
  let main_v6 : IVec S2048x64x64 1 := cmpf .olt main_v4 main_v5
  let main_c_1 : IVec S_ 1 := constantI S_ 1 1#1
  let main_v7 : IVec S_ 1 := (fun x v => Host.reduce IntOp.andi x v reducesTo_S2048x64x64_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x64x256 : Shape := ⟨3, ![2048, 64, 256]⟩
abbrev S2048x64x64 : Shape := ⟨3, ![2048, 64, 64]⟩
abbrev S128x256 : Shape := ⟨2, ![128, 256]⟩
abbrev S128 : Shape := ⟨1, ![128]⟩
abbrev S128x128 : Shape := ⟨2, ![128, 128]⟩
abbrev S128x320 : Shape := ⟨2, ![128, 320]⟩
abbrev S64x256 : Shape := ⟨2, ![64, 256]⟩
abbrev S1x64 : Shape := ⟨2, ![1, 64]⟩
abbrev S128x64 : Shape := ⟨2, ![128, 64]⟩
abbrev S64x128 : Shape := ⟨2, ![64, 128]⟩
abbrev S256x256 : Shape := ⟨2, ![256, 256]⟩
abbrev S256x128 : Shape := ⟨2, ![256, 128]⟩
abbrev S1x1x128 : Shape := ⟨3, ![1, 1, 128]⟩
abbrev S1x1x64 : Shape := ⟨3, ![1, 1, 64]⟩
abbrev S2048x64 : Shape := ⟨2, ![2048, 64]⟩
abbrev S32x64x256 : Shape := ⟨3, ![32, 64, 256]⟩
abbrev S32x64x64 : Shape := ⟨3, ![32, 64, 64]⟩
abbrev S32x64 : Shape := ⟨2, ![32, 64]⟩
abbrev S2048x256 : Shape := ⟨2, ![2048, 256]⟩
abbrev S32x64x128 : Shape := ⟨3, ![32, 64, 128]⟩
abbrev S2048x128 : Shape := ⟨2, ![2048, 128]⟩
abbrev S32x64x1 : Shape := ⟨3, ![32, 64, 1]⟩
abbrev S2048x64x1 : Shape := ⟨3, ![2048, 64, 1]⟩

abbrev nBuf : Space → Nat
  | .hbm => 31
  | .vmem => 22
  | .smem => 0
  | _ => 0

abbrev bufTy : (tb : Table) → Fin (tcTables nBuf tb) → BufTy
  | .hbm, ⟨0, _⟩ => ⟨S2048x64x256, .f32⟩
  | .hbm, ⟨1, _⟩ => ⟨S2048x64x64, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x320, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S64x256, .f32⟩
  | .hbm, ⟨14, _⟩ => ⟨S1x64, .f32⟩
  | .hbm, ⟨15, _⟩ => ⟨S128x256, .f32⟩
  | .hbm, ⟨16, _⟩ => ⟨S128x64, .f32⟩
  | .hbm, ⟨17, _⟩ => ⟨S64x128, .f32⟩
  | .hbm, ⟨18, _⟩ => ⟨S64x128, .f32⟩
  | .hbm, ⟨19, _⟩ => ⟨S256x256, .f32⟩
  | .hbm, ⟨20, _⟩ => ⟨S256x128, .f32⟩
  | .hbm, ⟨21, _⟩ => ⟨S256x128, .f32⟩
  | .hbm, ⟨22, _⟩ => ⟨S1x1x128, .f32⟩
  | .hbm, ⟨23, _⟩ => ⟨S1x1x128, .f32⟩
  | .hbm, ⟨24, _⟩ => ⟨S1x1x128, .f32⟩
  | .hbm, ⟨25, _⟩ => ⟨S1x1x128, .f32⟩
  | .hbm, ⟨26, _⟩ => ⟨S1x1x64, .f32⟩
  | .hbm, ⟨27, _⟩ => ⟨S2048x64, .f32⟩
  | .hbm, ⟨28, _⟩ => ⟨S2048x64x64, .f32⟩
  | .hbm, ⟨29, _⟩ => ⟨S2048x64x64, .f32⟩
  | .hbm, ⟨30, _⟩ => ⟨S2048x64x1, .f32⟩
  | .local _ .vmem, ⟨0, _⟩ => ⟨S32x64x256, .f32⟩
  | .local _ .vmem, ⟨1, _⟩ => ⟨S32x64x256, .f32⟩
  | .local _ .vmem, ⟨2, _⟩ => ⟨S32x64x64, .f32⟩
  | .local _ .vmem, ⟨3, _⟩ => ⟨S32x64x64, .f32⟩
  | .local _ .vmem, ⟨4, _⟩ => ⟨S256x256, .f32⟩
  | .local _ .vmem, ⟨5, _⟩ => ⟨S1x1x128, .f32⟩
  | .local _ .vmem, ⟨6, _⟩ => ⟨S256x128, .f32⟩
  | .local _ .vmem, ⟨7, _⟩ => ⟨S256x128, .f32⟩
  | .local _ .vmem, ⟨8, _⟩ => ⟨S1x1x128, .f32⟩
  | .local _ .vmem, ⟨9, _⟩ => ⟨S1x1x128, .f32⟩
  | .local _ .vmem, ⟨10, _⟩ => ⟨S128x64, .f32⟩
  | .local _ .vmem, ⟨11, _⟩ => ⟨S1x1x128, .f32⟩
  | .local _ .vmem, ⟨12, _⟩ => ⟨S128x128, .f32⟩
  | .local _ .vmem, ⟨13, _⟩ => ⟨S64x128, .f32⟩
  | .local _ .vmem, ⟨14, _⟩ => ⟨S64x128, .f32⟩
  | .local _ .vmem, ⟨15, _⟩ => ⟨S1x1x64, .f32⟩
  | .local _ .vmem, ⟨16, _⟩ => ⟨S32x64, .f32⟩
  | .local _ .vmem, ⟨17, _⟩ => ⟨S32x64, .f32⟩
  | .local _ .vmem, ⟨18, _⟩ => ⟨S32x64x64, .f32⟩
  | .local _ .vmem, ⟨19, _⟩ => ⟨S32x64x64, .f32⟩
  | .local _ .vmem, ⟨20, _⟩ => ⟨S32x64x64, .f32⟩
  | .local _ .vmem, ⟨21, _⟩ => ⟨S32x64x64, .f32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x64x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S128x320_S128x256_0_0 : S128x320.Slices ![0, 0] S128x256
  slices_S128x320_S128x64_0_256 : S128x320.Slices ![0, 256] S128x64
  slices_S64x256_S64x128_0_0 : S64x256.Slices ![0, 0] S64x128
  slices_S64x256_S64x128_0_128 : S64x256.Slices ![0, 128] S64x128
  concatenates_S128x256_S128x256_S256x256_d0 : Shape.Concatenates [S128x256, S128x256] S256x256 0
  concatenates_S128x128_S128x128_S256x128_d0 : Shape.Concatenates [S128x128, S128x128] S256x128 0
  shapeCasts_S128_S1x1x128 : S128.ShapeCasts S1x1x128
  shapeCasts_S1x64_S1x1x64 : S1x64.ShapeCasts S1x1x64
  inb_S32x64x256_S32x64x256_0_0_0 : ∀ a, (![0, 0, 0] : Fin 3 → Nat) a + S32x64x256.size a ≤ S32x64x256.size a
  h_S32x64x256 : 0 < S32x64x256.numel
  inb_S32x64x64_S32x64x64_0_0_0 : ∀ a, (![0, 0, 0] : Fin 3 → Nat) a + S32x64x64.size a ≤ S32x64x64.size a
  h_S32x64x64 : 0 < S32x64x64.numel
  bitsLt_bf16_f32 : FTy.bits .bf16 < FTy.bits .f32
  shapeCasts_S32x64x256_S2048x256 : S32x64x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S32x64x256 : S2048x256.ShapeCasts S32x64x256
  slices_S32x64x256_o0_0_0_S32x64x128 : S32x64x256.Slices ![0, 0, 0] S32x64x128
  slices_S32x64x256_o0_0_128_S32x64x128 : S32x64x256.Slices ![0, 0, 128] S32x64x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S32x64x128 : S1x1x128.Broadcasts S32x64x128
  shapeCasts_S32x64x128_S2048x128 : S32x64x128.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S32x64x64_S32x64 : S32x64x64.Reduces [2] S32x64
  shapeCasts_S32x64_S32x64x1 : S32x64.ShapeCasts S32x64x1
  broadcasts_S32x64x1_S32x64x64 : S32x64x1.Broadcasts S32x64x64
  shapeCasts_S32x64x64_S2048x64 : S32x64x64.ShapeCasts S2048x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S2048x128_S32x64x128 : S2048x128.ShapeCasts S32x64x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S2048x64_S32x64x64 : S2048x64.ShapeCasts S32x64x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S32x64x64 : S1x1x64.Broadcasts S32x64x64
  inb_S32x64_S32x64_0_0 : ∀ a, (![0, 0] : Fin 2 → Nat) a + S32x64.size a ≤ S32x64.size a
  h_S32x64 : 0 < S32x64.numel
  shapeCasts_S2048x64_S2048x64x1 : S2048x64.ShapeCasts S2048x64x1
  dot_S2048x256_S256x256_S2048x256_1_1_0_0_n_n_wf : DotDims.WF S2048x256 S256x256 S2048x256 [1] [1] [0] [0] [] []
  dot_S2048x128_S256x128_S2048x256_1_1_0_0_n_n_wf : DotDims.WF S2048x128 S256x128 S2048x256 [1] [1] [0] [0] [] []
  dot_S32x64x128_S32x64x128_S32x64x64_2_2_1_1_0_0_wf : DotDims.WF S32x64x128 S32x64x128 S32x64x64 [2] [2] [1] [1] [0] [0]
  dot_S32x64x64_S32x64x128_S32x64x128_2_1_1_2_0_0_wf : DotDims.WF S32x64x64 S32x64x128 S32x64x128 [2] [1] [1] [2] [0] [0]
  dot_S2048x64_S128x64_S2048x128_1_1_0_0_n_n_wf : DotDims.WF S2048x64 S128x64 S2048x128 [1] [1] [0] [0] [] []
  dot_S2048x128_S128x128_S2048x128_1_1_0_0_n_n_wf : DotDims.WF S2048x128 S128x128 S2048x128 [1] [1] [0] [0] [] []
  dot_S2048x128_S64x128_S2048x64_1_1_0_0_n_n_wf : DotDims.WF S2048x128 S64x128 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S2048x64x256.size a
  hwx0_0 : ∀ i : grid0.Coords, EltTy.bits .f32 = 32 ∨ (Rect.block (s := S2048x64x256) S32x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x64.size a ≤ S2048x64x64.size a
  hwx0_1 : ∀ i : grid0.Coords, EltTy.bits .f32 = 32 ∨ (Rect.block (s := S2048x64x64) S32x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x128.size a
  hwx0_3 : ∀ i : grid0.Coords, EltTy.bits .f32 = 32 ∨ (Rect.block (s := S1x1x128) S1x1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S1x1x128.size a
  hwx0_6 : ∀ i : grid0.Coords, EltTy.bits .f32 = 32 ∨ (Rect.block (s := S1x1x128) S1x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S1x1x128.size a
  hwx0_7 : ∀ i : grid0.Coords, EltTy.bits .f32 = 32 ∨ (Rect.block (s := S1x1x128) S1x1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S1x1x128.size a
  hwx0_9 : ∀ i : grid0.Coords, EltTy.bits .f32 = 32 ∨ (Rect.block (s := S1x1x128) S1x1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x128.size a ≤ S64x128.size a
  hwx0_12 : ∀ i : grid0.Coords, EltTy.bits .f32 = 32 ∨ (Rect.block (s := S64x128) S64x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1x64.size a ≤ S1x1x64.size a
  hwx0_13 : ∀ i : grid0.Coords, EltTy.bits .f32 = 32 ∨ (Rect.block (s := S1x1x64) S1x1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x64.size a ≤ S2048x64.size a
  hwx0_14 : ∀ i : grid0.Coords, EltTy.bits .f32 = 32 ∨ (Rect.block (s := S2048x64) S32x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x64x64.size a ≤ S2048x64x64.size a
  hwx0_15 : ∀ i : grid0.Coords, EltTy.bits .f32 = 32 ∨ (Rect.block (s := S2048x64x64) S32x64x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x64x64.size a ≤ S2048x64x64.size a
  hwx0_16 : ∀ i : grid0.Coords, EltTy.bits .f32 = 32 ∨ (Rect.block (s := S2048x64x64) S32x64x64.size (cc0_transform_16 i) (hinb0_16 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S32x64x128_S32x64x128_S32x64x64_2_2_1_1_0_0 : DotDims S32x64x128 S32x64x128 S32x64x64 where
  lhsContracting := [2]
  rhsContracting := [2]
  lhsNonContracting := [1]
  rhsNonContracting := [1]
  lhsBatch := [0]
  rhsBatch := [0]
  wf := dot_S32x64x128_S32x64x128_S32x64x64_2_2_1_1_0_0_wf
def dot_S32x64x64_S32x64x128_S32x64x128_2_1_1_2_0_0 : DotDims S32x64x64 S32x64x128 S32x64x128 where
  lhsContracting := [2]
  rhsContracting := [1]
  lhsNonContracting := [1]
  rhsNonContracting := [2]
  lhsBatch := [0]
  rhsBatch := [0]
  wf := dot_S32x64x64_S32x64x128_S32x64x128_2_1_1_2_0_0_wf
def dot_S2048x64_S128x64_S2048x128_1_1_0_0_n_n : DotDims S2048x64 S128x64 S2048x128 where
  lhsContracting := [1]
  rhsContracting := [1]
  lhsNonContracting := [0]
  rhsNonContracting := [0]
  lhsBatch := []
  rhsBatch := []
  wf := dot_S2048x64_S128x64_S2048x128_1_1_0_0_n_n_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf

abbrev win0_0 : Pipeline.Window sig grid0 :=
  Pipeline.Window.ofSpec (Memref.whole main_arg0) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S64x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12_0) S32x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_1) S32x64x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_2) S32x64x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2048x64x256 : Shape := ⟨3, ![2048, 64, 256]⟩
abbrev S2048x64x64 : Shape := ⟨3, ![2048, 64, 64]⟩
abbrev S128x256 : Shape := ⟨2, ![128, 256]⟩
abbrev S128 : Shape := ⟨1, ![128]⟩
abbrev S128x128 : Shape := ⟨2, ![128, 128]⟩
abbrev S128x320 : Shape := ⟨2, ![128, 320]⟩
abbrev S64x256 : Shape := ⟨2, ![64, 256]⟩
abbrev S1x64 : Shape := ⟨2, ![1, 64]⟩
abbrev S2048x64x128 : Shape := ⟨3, ![2048, 64, 128]⟩
abbrev S1x1x128 : Shape := ⟨3, ![1, 1, 128]⟩
abbrev S_ : Shape := ⟨0, ![]⟩
abbrev S2048x64 : Shape := ⟨2, ![2048, 64]⟩
abbrev S2048x64x1 : Shape := ⟨3, ![2048, 64, 1]⟩
abbrev S2048x64x320 : Shape := ⟨3, ![2048, 64, 320]⟩

abbrev nBuf : Space → Nat
  | .hbm => 113
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S2048x64x64, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x320, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S64x256, .f32⟩
  | .hbm, ⟨14, _⟩ => ⟨S1x64, .f32⟩
  | .hbm, ⟨15, _⟩ => ⟨S2048x64x128, .f32⟩
  | .hbm, ⟨16, _⟩ => ⟨S1x1x128, .f32⟩
  | .hbm, ⟨17, _⟩ => ⟨S2048x64x128, .f32⟩
  | .hbm, ⟨18, _⟩ => ⟨S2048x64x128, .f32⟩
  | .hbm, ⟨19, _⟩ => ⟨S_, .f32⟩
  | .hbm, ⟨20, _⟩ => ⟨S2048x64x128, .f32⟩
  | .hbm, ⟨21, _⟩ => ⟨S2048x64x128, .i1⟩
  | .hbm, ⟨22, _⟩ => ⟨S_, .f32⟩
  | .hbm, ⟨23, _⟩ => ⟨S2048x64x128, .f32⟩
  | .hbm, ⟨24, _⟩ => ⟨S2048x64x128, .f32⟩
  | .hbm, ⟨25, _⟩ => ⟨S2048x64x128, .f32⟩
  | .hbm, ⟨26, _⟩ => ⟨S2048x64x128, .f32⟩
  | .hbm, ⟨27, _⟩ => ⟨S2048x64x128, .f32⟩
  | .hbm, ⟨28, _⟩ => ⟨S2048x64x64, .f32⟩
  | .hbm, ⟨29, _⟩ => ⟨S_, .f32⟩
  | .hbm, ⟨30, _⟩ => ⟨S2048x64x64, .f32⟩
  | .hbm, ⟨31, _⟩ => ⟨S2048x64x64, .f32⟩
  | .hbm, ⟨32, _⟩ => ⟨S_, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S2048x64x1, .f32⟩
  | .hbm, ⟨38, _⟩ => ⟨S2048x64x64, .f32⟩
  | .hbm, ⟨39, _⟩ => ⟨S2048x64x64, .f32⟩
  | .hbm, ⟨40, _⟩ => ⟨S2048x64x64, .f32⟩
  | .hbm, ⟨41, _⟩ => ⟨S_, .f32⟩
  | .hbm, ⟨42, _⟩ => ⟨S2048x64, .f32⟩
  | .hbm, ⟨43, _⟩ => ⟨S2048x64x1, .f32⟩
  | .hbm, ⟨44, _⟩ => ⟨S2048x64x64, .f32⟩
  | .hbm, ⟨45, _⟩ => ⟨S2048x64x64, .f32⟩
  | .hbm, ⟨46, _⟩ => ⟨S2048x64x128, .f32⟩
  | .hbm, ⟨47, _⟩ => ⟨S2048x64x128, .f32⟩
  | .hbm, ⟨48, _⟩ => ⟨S1x1x128, .f32⟩
  | .hbm, ⟨49, _⟩ => ⟨S2048x64x128, .f32⟩
  | .hbm, ⟨50, _⟩ => ⟨S2048x64x128, .f32⟩
  | .hbm, ⟨51, _⟩ => ⟨S_, .f32⟩
  | .hbm, ⟨52, _⟩ => ⟨S2048x64x128, .f32⟩
  | .hbm, ⟨53, _⟩ => ⟨S2048x64x128, .i1⟩
  | .hbm, ⟨54, _⟩ => ⟨S_, .f32⟩
  | .hbm, ⟨55, _⟩ => ⟨S2048x64x128, .f32⟩
  | .hbm, ⟨56, _⟩ => ⟨S2048x64x128, .f32⟩
  | .hbm, ⟨57, _⟩ => ⟨S2048x64x128, .f32⟩
  | .hbm, ⟨58, _⟩ => ⟨S2048x64x128, .f32⟩
  | .hbm, ⟨59, _⟩ => ⟨S2048x64x128, .f32⟩
  | .hbm, ⟨60, _⟩ => ⟨S2048x64x64, .f32⟩
  | .hbm, ⟨61, _⟩ => ⟨S_, .f32⟩
  | .hbm, ⟨62, _⟩ => ⟨S2048x64x64, .f32⟩
  | .hbm, ⟨63, _⟩ => ⟨S2048x64x64, .f32⟩
  | .hbm, ⟨64, _⟩ => ⟨S_, .f32⟩
  | .hbm, ⟨65, _⟩ => ⟨S2048x64, .f32⟩
  | .hbm, ⟨66, _⟩ => ⟨S_, .f32⟩
  | .hbm, ⟨67, _⟩ => ⟨S2048x64, .f32⟩
  | .hbm, ⟨68, _⟩ => ⟨S2048x64, .f32⟩
  | .hbm, ⟨69, _⟩ => ⟨S2048x64x1, .f32⟩
  | .hbm, ⟨70, _⟩ => ⟨S2048x64x64, .f32⟩
  | .hbm, ⟨71, _⟩ => ⟨S2048x64x64, .f32⟩
  | .hbm, ⟨72, _⟩ => ⟨S2048x64x64, .f32⟩
  | .hbm, ⟨73, _⟩ => ⟨S_, .f32⟩
  | .hbm, ⟨74, _⟩ => ⟨S2048x64, .f32⟩
  | .hbm, ⟨75, _⟩ => ⟨S2048x64x1, .f32⟩
  | .hbm, ⟨76, _⟩ => ⟨S2048x64x64, .f32⟩
  | .hbm, ⟨77, _⟩ => ⟨S2048x64x64, .f32⟩
  | .hbm, ⟨78, _⟩ => ⟨S2048x64x320, .f32⟩
  | .hbm, ⟨79, _⟩ => ⟨S2048x64x128, .f32⟩
  | .hbm, ⟨80, _⟩ => ⟨S1x1x128, .f32⟩
  | .hbm, ⟨81, _⟩ => ⟨S2048x64x128, .f32⟩
  | .hbm, ⟨82, _⟩ => ⟨S2048x64x128, .f32⟩
  | .hbm, ⟨83, _⟩ => ⟨S_, .f32⟩
  | .hbm, ⟨84, _⟩ => ⟨S2048x64x128, .f32⟩
  | .hbm, ⟨85, _⟩ => ⟨S2048x64x128, .i1⟩
  | .hbm, ⟨86, _⟩ => ⟨S_, .f32⟩
  | .hbm, ⟨87, _⟩ => ⟨S2048x64x128, .f32⟩
  | .hbm, ⟨88, _⟩ => ⟨S2048x64x128, .f32⟩
  | .hbm, ⟨89, _⟩ => ⟨S2048x64x128, .f32⟩
  | .hbm, ⟨90, _⟩ => ⟨S2048x64x128, .f32⟩
  | .hbm, ⟨91, _⟩ => ⟨S2048x64x128, .f32⟩
  | .hbm, ⟨92, _⟩ => ⟨S2048x64x128, .f32⟩
  | .hbm, ⟨93, _⟩ => ⟨S1x1x128, .f32⟩
  | .hbm, ⟨94, _⟩ => ⟨S2048x64x128, .f32⟩
  | .hbm, ⟨95, _⟩ => ⟨S2048x64x128, .f32⟩
  | .hbm, ⟨96, _⟩ => ⟨S_, .f32⟩
  | .hbm, ⟨97, _⟩ => ⟨S2048x64x128, .f32⟩
  | .hbm, ⟨98, _⟩ => ⟨S2048x64x128, .i1⟩
  | .hbm, ⟨99, _⟩ => ⟨S_, .f32⟩
  | .hbm, ⟨100, _⟩ => ⟨S2048x64x128, .f32⟩
  | .hbm, ⟨101, _⟩ => ⟨S2048x64x128, .f32⟩
  | .hbm, ⟨102, _⟩ => ⟨S2048x64x128, .f32⟩
  | .hbm, ⟨103, _⟩ => ⟨S2048x64x256, .f32⟩
  | .hbm, ⟨104, _⟩ => ⟨S2048x64x64, .f32⟩
  | .hbm, ⟨105, _⟩ => ⟨S_, .f32⟩
  | .hbm, ⟨106, _⟩ => ⟨S2048x64x64, .f32⟩
  | .hbm, ⟨107, _⟩ => ⟨S2048x64x64, .i1⟩
  | .hbm, ⟨108, _⟩ => ⟨S_, .f32⟩
  | .hbm, ⟨109, _⟩ => ⟨S2048x64x64, .f32⟩
  | .hbm, ⟨110, _⟩ => ⟨S2048x64x64, .f32⟩
  | .hbm, ⟨111, _⟩ => ⟨S2048x64x64, .f32⟩
  | .hbm, ⟨112, _⟩ => ⟨S2048x64x1, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_cst_0 : Ref sig .tc := ⟨.hbm, 99, rfl⟩
abbrev main_call3_v2 : Ref sig .tc := ⟨.hbm, 100, rfl⟩
abbrev main_call3_v3 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_cst_0 : Ref sig .tc := ⟨.hbm, 108, rfl⟩
abbrev main_call4_v2 : Ref sig .tc := ⟨.hbm, 109, rfl⟩
abbrev main_call4_v3 : Ref sig .tc := ⟨.hbm, 110, rfl⟩
abbrev main_v58 : Ref sig .tc := ⟨.hbm, 111, rfl⟩
abbrev main_v59 : Ref sig .tc := ⟨.hbm, 112, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2048x64x128_0_1_2 : S1x1x128.BroadcastsInDim S2048x64x128 (![0, 1, 2] : Fin 3 → Fin S2048x64x128.rank)
  bcast_S_S2048x64x128 : S_.BroadcastsInDim S2048x64x128 (![] : Fin 0 → Fin S2048x64x128.rank)
  bcast_S_S2048x64x64 : S_.BroadcastsInDim S2048x64x64 (![] : Fin 0 → Fin S2048x64x64.rank)
  reducesTo_S2048x64x64_S2048x64_d2 : S2048x64x64.ReducesTo [2] S2048x64
  h_S_ : 0 < S_.numel
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  bcast_S2048x64x1_S2048x64x64_0_1_2 : S2048x64x1.BroadcastsInDim S2048x64x64 (![0, 1, 2] : Fin 3 → Fin S2048x64x64.rank)
  concatenates_S2048x64x256_S2048x64x64_S2048x64x320_d2 : Shape.Concatenates [S2048x64x256, S2048x64x64] S2048x64x320 2
  concatenates_S2048x64x128_S2048x64x128_S2048x64x256_d2 : Shape.Concatenates [S2048x64x128, S2048x64x128] S2048x64x256 2
  dot_S2048x64x256_S128x256_S2048x64x128_2_1_01_0_n_n_wf : DotDims.WF S2048x64x256 S128x256 S2048x64x128 [2] [1] [0, 1] [0] [] []
  dot_S2048x64x128_S128x128_S2048x64x128_2_1_01_0_n_n_wf : DotDims.WF S2048x64x128 S128x128 S2048x64x128 [2] [1] [0, 1] [0] [] []
  dot_S2048x64x128_S2048x64x128_S2048x64x64_2_2_1_1_0_0_wf : DotDims.WF S2048x64x128 S2048x64x128 S2048x64x64 [2] [2] [1] [1] [0] [0]
  dot_S2048x64x64_S2048x64x128_S2048x64x128_2_1_1_2_0_0_wf : DotDims.WF S2048x64x64 S2048x64x128 S2048x64x128 [2] [1] [1] [2] [0] [0]
  dot_S2048x64x320_S128x320_S2048x64x128_2_1_01_0_n_n_wf : DotDims.WF S2048x64x320 S128x320 S2048x64x128 [2] [1] [0, 1] [0] [] []
  dot_S2048x64x256_S64x256_S2048x64x64_2_1_01_0_n_n_wf : DotDims.WF S2048x64x256 S64x256 S2048x64x64 [2] [1] [0, 1] [0] [] []
  dot_S2048x64x64_S1x64_S2048x64x1_2_1_01_0_n_n_wf : DotDims.WF S2048x64x64 S1x64 S2048x64x1 [2] [1] [0, 1] [0] [] []

variable [Facts₀]

def dot_S2048x64x256_S128x256_S2048x64x128_2_1_01_0_n_n : DotDims S2048x64x256 S128x256 S2048x64x128 where
  lhsContracting := [2]
  rhsContracting := [1]
  lhsNonContracting := [0, 1]
  rhsNonContracting := [0]
  lhsBatch := []
  rhsBatch := []
  wf := dot_S2048x64x256_S128x256_S2048x64x128_2_1_01_0_n_n_wf
def dot_S2048x64x128_S128x128_S2048x64x128_2_1_01_0_n_n : DotDims S2048x64x128 S128x128 S2048x64x128 where
  lhsContracting := [2]
  rhsContracting := [1]
  lhsNonContracting := [0, 1]
  rhsNonContracting := [0]
  lhsBatch := []
  rhsBatch := []
  wf := dot_S2048x64x128_S128x128_S2048x64x128_2_1_01_0_n_n_wf
def dot_S2048x64x128_S2048x64x128_S2048x64x64_2_2_1_1_0_0 : DotDims S2048x64x128 S2048x64x128 S2048x64x64 where
  lhsContracting := [2]
  rhsContracting := [2]
  lhsNonContracting := [1]
  rhsNonContracting := [1]
  lhsBatch := [0]
  rhsBatch := [0]
  wf := dot_S2048x64x128_S2048x64x128_S2048x64x64_2_2_1_1_0_0_wf
def dot_S2048x64x64_S2048x64x128_S2048x64x128_2_1_1_2_0_0 : DotDims S2048x64x64 S2048x64x128 S2048x64x128 where
  lhsContracting := [2]
  rhsContracting := [1]
  lhsNonContracting := [1]
  rhsNonContracting := [2]
  lhsBatch := [0]
  rhsBatch := [0]
  wf := dot_S2048x64x64_S2048x64x128_S2048x64x128_2_1_1_2_0_0_wf
def dot_S2048x64x320_S128x320_S2048x64x128_2_1_01_0_n_n : DotDims S2048x64x320 S128x320 S2048x64x128 where
  lhsContracting := [2]
  rhsContracting := [1]
  lhsNonContracting := [0, 1]
  rhsNonContracting := [0]
  lhsBatch := []
  rhsBatch := []
  wf := dot_S2048x64x320_S128x320_S2048x64x128_2_1_01_0_n_n_wf
def dot_S2048x64x256_S64x256_S2048x64x64_2_1_01_0_n_n : DotDims S2048x64x256 S64x256 S2048x64x64 where
  lhsContracting := [2]
  rhsContracting := [1]
  lhsNonContracting := [0, 1]
  rhsNonContracting := [0]
  lhsBatch := []
  rhsBatch := []
  wf := dot_S2048x64x256_S64x256_S2048x64x64_2_1_01_0_n_n_wf
def dot_S2048x64x64_S1x64_S2048x64x1_2_1_01_0_n_n : DotDims S2048x64x64 S1x64 S2048x64x1 where
  lhsContracting := [2]
  rhsContracting := [1]
  lhsNonContracting := [0, 1]
  rhsNonContracting := [0]
  lhsBatch := []
  rhsBatch := []
  wf := dot_S2048x64x64_S1x64_S2048x64x1_2_1_01_0_n_n_wf

class Facts : Prop extends Facts₀ where

variable [Facts]
-- ==== Proof.Spec.lean ====
/-
  The critic for ONE batch element, on the extended reals.

  Both programs treat the batch coordinate as a bystander: every contraction runs over features or over the 64 agents
  of one batch element, never over the batch. So the result is stated once, for one batch element: its 64 x 256 state
  rows `S`, its 64 x 64 action rows `A` and the weights give the value per agent and the two 64 x 64 attention
  matrices. A block of the pipelined program is this function at the block's own batch coordinates, the host
  program's arrays are this function at every batch coordinate.

  The three float words the programs share (the leaky slope, the logit scale, minus infinity as the seed of a row
  maximum) are kept as the words' values and never evaluated: the same word stands on both sides.
-/
import Idealize.ShloMosaic.PureOps.Ideal.Laws
import Idealize.ShloMosaic.Lib.ValueIdx

noncomputable section

namespace Critic

open Idealize.ShloMosaic

/-- The leaky rectifier as both programs spell it: `x` where `x ≥ 0`, else the slope word's value times `x`. -/
def lrelu (x : EReal) : EReal :=
  Scalar.select (Ideal.cmp .oge x (Ideal.ofBits .f32 0x00000000#32)) x (Ideal.ofBits .f32 0x3C23D70A#32 * x)

/-- Output feature `o` of a linear layer with weight rows `W o`: the sum over the input features. -/
def lin {K O : Nat} (W : Fin O → Fin K → EReal) (x : Fin K → EReal) (o : Fin O) : EReal :=
  ∑ k, x k * W o k

/-- The maximum of a row, seeded with minus infinity and once more compared with it, as jax's softmax takes it. -/
def rowMax {M : Nat} (z : Fin M → EReal) : EReal :=
  max (Ideal.ofBits .f32 0xFF800000#32) ((Finset.univ : Finset (Fin M)).fold max (Ideal.ofBits .f32 0xFF800000#32) z)

/-- The softmax of a row: the exponentials of the entries less the row's maximum, over their sum. -/
def softmax {M : Nat} (z : Fin M → EReal) (j : Fin M) : EReal :=
  Ideal.div (Ideal.exp (z j - rowMax z)) (∑ k, Ideal.exp (z k - rowMax z))

/-- The weights, as the entry point receives them. -/
structure Weights where
  Wpre : Fin 128 → Fin 256 → EReal
  bpre : Fin 128 → EReal
  Wk : Fin 128 → Fin 128 → EReal
  Wq : Fin 128 → Fin 128 → EReal
  Wse : Fin 128 → Fin 128 → EReal
  bse : Fin 128 → EReal
  Wsa : Fin 128 → Fin 320 → EReal
  bsa : Fin 128 → EReal
  Wav : Fin 128 → Fin 128 → EReal
  Wsq : Fin 128 → Fin 128 → EReal
  bsq : Fin 128 → EReal
  Wf1 : Fin 64 → Fin 256 → EReal
  Wf2 : Fin 64 → EReal

variable (P : Weights) (S : Fin 64 → Fin 256 → EReal) (A : Fin 64 → Fin 64 → EReal)

/-- The embedding of agent `n`: the rectified affine image of its state row. -/
def sePre (n : Fin 64) (d : Fin 128) : EReal := lrelu (lin P.Wpre (S n) d + P.bpre d)

/-- Attention weights over the agents from embeddings `x`: row `n` is the softmax over `j` of the scaled inner
    product of agent `n`'s query with agent `j`'s key. -/
def attn (x : Fin 64 → Fin 128 → EReal) (n j : Fin 64) : EReal :=
  softmax (fun j' => (∑ d, lin P.Wq (x n) d * lin P.Wk (x j') d) * Ideal.ofBits .f32 0x3DB504F3#32) j

/-- The first attention matrix. -/
def w1 (n j : Fin 64) : EReal := attn P (sePre P S) n j

/-- The embeddings mixed by the first attention matrix. -/
def avPre (n : Fin 64) (d : Fin 128) : EReal := ∑ j, w1 P S n j * sePre P S j d

/-- The re-embedding that feeds the second attention. -/
def se (n : Fin 64) (o : Fin 128) : EReal := lrelu (lin P.Wse (avPre P S n) o + P.bse o)

/-- The re-embedding that feeds the head. -/
def seq (n : Fin 64) (o : Fin 128) : EReal := lrelu (lin P.Wsq (avPre P S n) o + P.bsq o)

/-- The second attention matrix. -/
def w2 (n j : Fin 64) : EReal := attn P (se P S) n j

/-- The observation-action embedding: the affine image of the state row and the action row laid side by side, the
    sum over the 320 features split at feature 256. -/
def oae (n : Fin 64) (o : Fin 128) : EReal :=
  lrelu (lin (fun o' (i : Fin 256) => P.Wsa o' (Fin.castAdd 64 i)) (S n) o
    + lin (fun o' (i : Fin 64) => P.Wsa o' (Fin.natAdd 256 i)) (A n) o + P.bsa o)

/-- The values the second attention mixes. -/
def av (n : Fin 64) (d : Fin 128) : EReal := lin P.Wav (oae P S A n) d

/-- The values mixed by the second attention matrix. -/
def agg (n : Fin 64) (d : Fin 128) : EReal := ∑ j, w2 P S n j * av P S A j d

/-- The head's hidden layer on `seq` and `agg` laid side by side, the sum over the 256 features split at 128. -/
def hid (n : Fin 64) (o : Fin 64) : EReal :=
  lrelu (lin (fun o' (i : Fin 128) => P.Wf1 o' (Fin.castAdd 128 i)) (seq P S n) o
    + lin (fun o' (i : Fin 128) => P.Wf1 o' (Fin.natAdd 128 i)) (agg P S A n) o)

/-- The value of agent `n`. -/
def value (n : Fin 64) : EReal := ∑ o, hid P S A n o * P.Wf2 o

/-- A sum over `m + n` features is the sum over the first `m` plus the sum over the last `n`. -/
theorem sum_split {M : Type} [AddCommMonoid M] (m n : Nat) (f : Fin (m + n) → M) :
    ∑ k, f k = ∑ i : Fin m, f (Fin.castAdd n i) + ∑ i : Fin n, f (Fin.natAdd m i) :=
  Fin.sum_univ_add f

end Critic

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KDots.lean ====
/-
  The flattened linear layers of the kernel, read at an entry.

  The kernel merges the batch and agent axes of a [32, 64, K] block into 2048 rows, multiplies the rows by a weight
  block [O, K] contracted on its last axis into the zero accumulator, and splits the rows again. At the ideal values
  the entry (b, n, o) of the result is the sum over the K features of X(b, n, k) · W(o, k): row 64 b + n of the
  flattened block is the block's row (b, n), and the product into zero is the plain sum over the contracted
  coordinate.
-/
import proofs.«421273_j77558519431826_3_alg».proof.Proof.Gen.KernelIdeal
import proofs.«421273_j77558519431826_3_alg».proof.Proof.LibPlainMatmul
import Idealize.ShloMosaic.PureOps.Ideal.Laws
import Idealize.ShloMosaic.Lib.ValueIdx
import Idealize.ShloMosaic.Lib.Pipeline.Value

noncomputable section

namespace Cert.KernelIdeal.KDots

open Idealize.ShloMosaic Idealize.ShloMosaic.ValueIdx Cert.KernelIdeal Cert.KernelIdeal.Facts₀

variable {φ₁ φ₂ : FTy}

/-- The entry (a, b) of the product of an m×k block by an n×k block, both contracted on their last axis, accumulated
    into zero, is `∑ c, A(a, c) · B(b, c)`. -/
theorem matmulT_zero_apply {m k n : Nat} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  -- the contraction index built from c has c on its one axis
  have hc := contrEquiv1_symm_val (DotDims.transposedRhs m k n) k rfl rfl c
  -- the left operand is read at (a, c)
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl (ix2 a b) _).trans hc
  -- the right operand is read at (b, c): its row is the output's column
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl (ix2 a b) _).trans hc
  rw [hl, hr]

/-- A [32, 64, K] block flattened to 2048 rows, multiplied by an [O, K] weight block into zero and split back: the
    entry (b, n, o) is the sum over the features of X(b, n, k) · W(o, k). -/
theorem lin_apply {K O : Nat} (d : DotDims ⟨2, ![2048, K]⟩ ⟨2, ![O, K]⟩ ⟨2, ![2048, O]⟩)
    (hd : d = DotDims.transposedRhs 2048 K O)
    (h1 : (⟨3, ![32, 64, K]⟩ : Shape).ShapeCasts ⟨2, ![2048, K]⟩)
    (h2 : (⟨2, ![2048, O]⟩ : Shape).ShapeCasts ⟨3, ![32, 64, O]⟩)
    (X : FVec Ideal ⟨3, ![32, 64, K]⟩ φ₁) (W : FVec Ideal ⟨2, ![O, K]⟩ φ₂) (b : Fin 32) (n : Fin 64) (o : Fin O) :
    shapeCast ⟨3, ![32, 64, O]⟩ (matmul d none (shapeCast ⟨2, ![2048, K]⟩ X h1) W
        (constant ⟨2, ![2048, O]⟩ .f32 0x00000000#32)) h2 (ix3 b n o)
      = ∑ k : Fin K, X (ix3 b n k) * W (ix2 o k) := by
  subst hd
  have hr : b.val * 64 + n.val < 2048 := by have := b.isLt; have := n.isLt; omega
  -- the split array at (b, n, o) is the flat one at row 64 b + n
  rw [shapeCast_apply _ _ (ix3 b n o) (ix2 ⟨b.val * 64 + n.val, hr⟩ o) (by
    rw [Shape.rowMajor_val_two, Shape.rowMajor_val_three]
    rfl)]
  rw [matmulT_zero_apply]
  refine Finset.sum_congr rfl fun k _ => ?_
  -- the flat block's row 64 b + n is the block's row (b, n)
  rw [shapeCast_apply _ _ (ix2 ⟨b.val * 64 + n.val, hr⟩ k) (ix3 b n k) (by
    rw [Shape.rowMajor_val_two, Shape.rowMajor_val_three]
    rfl)]

/-- 256 features to 256 outputs. -/
theorem lin_256_256 (X : FVec Ideal S32x64x256 φ₁) (W : FVec Ideal S256x256 φ₂) (b : Fin 32) (n : Fin 64) (o : Fin 256) :
    shapeCast S32x64x256 (matmul dot_S2048x256_S256x256_S2048x256_1_1_0_0_n_n none
        (shapeCast S2048x256 X shapeCasts_S32x64x256_S2048x256) W (constant S2048x256 .f32 0x00000000#32))
        shapeCasts_S2048x256_S32x64x256 (ix3 b n o)
      = ∑ k : Fin 256, X (ix3 b n k) * W (ix2 o k) :=
  lin_apply _ rfl _ _ X W b n o

/-- 128 features to 256 outputs. -/
theorem lin_128_256 (X : FVec Ideal S32x64x128 φ₁) (W : FVec Ideal S256x128 φ₂) (b : Fin 32) (n : Fin 64) (o : Fin 256) :
    shapeCast S32x64x256 (matmul dot_S2048x128_S256x128_S2048x256_1_1_0_0_n_n none
        (shapeCast S2048x128 X shapeCasts_S32x64x128_S2048x128) W (constant S2048x256 .f32 0x00000000#32))
        shapeCasts_S2048x256_S32x64x256 (ix3 b n o)
      = ∑ k : Fin 128, X (ix3 b n k) * W (ix2 o k) :=
  lin_apply _ rfl _ _ X W b n o

/-- 64 features to 128 outputs. -/
theorem lin_64_128 (X : FVec Ideal S32x64x64 φ₁) (W : FVec Ideal S128x64 φ₂) (b : Fin 32) (n : Fin 64) (o : Fin 128) :
    shapeCast S32x64x128 (matmul dot_S2048x64_S128x64_S2048x128_1_1_0_0_n_n none
        (shapeCast S2048x64 X shapeCasts_S32x64x64_S2048x64) W (constant S2048x128 .f32 0x00000000#32))
        shapeCasts_S2048x128_S32x64x128 (ix3 b n o)
      = ∑ k : Fin 64, X (ix3 b n k) * W (ix2 o k) :=
  lin_apply _ rfl _ _ X W b n o

/-- 128 features to 128 outputs. -/
theorem lin_128_128 (X : FVec Ideal S32x64x128 φ₁) (W : FVec Ideal S128x128 φ₂) (b : Fin 32) (n : Fin 64) (o : Fin 128) :
    shapeCast S32x64x128 (matmul dot_S2048x128_S128x128_S2048x128_1_1_0_0_n_n none
        (shapeCast S2048x128 X shapeCasts_S32x64x128_S2048x128) W (constant S2048x128 .f32 0x00000000#32))
        shapeCasts_S2048x128_S32x64x128 (ix3 b n o)
      = ∑ k : Fin 128, X (ix3 b n k) * W (ix2 o k) :=
  lin_apply _ rfl _ _ X W b n o

/-- 128 features to 64 outputs. -/
theorem lin_128_64 (X : FVec Ideal S32x64x128 φ₁) (W : FVec Ideal S64x128 φ₂) (b : Fin 32) (n : Fin 64) (o : Fin 64) :
    shapeCast S32x64x64 (matmul dot_S2048x128_S64x128_S2048x64_1_1_0_0_n_n none
        (shapeCast S2048x128 X shapeCasts_S32x64x128_S2048x128) W (constant S2048x64 .f32 0x00000000#32))
        shapeCasts_S2048x64_S32x64x64 (ix3 b n o)
      = ∑ k : Fin 128, X (ix3 b n k) * W (ix2 o k) :=
  lin_apply _ rfl _ _ X W b n o

end Cert.KernelIdeal.KDots

end
-- ==== Proof.KLanes.lean ====
/-
  The lane-wise groups of the kernel's body and its two batched attention products, each read at one entry.

  Every group acts on a block [32, 64, *] of 32 batch elements by 64 agents. The batch coordinate b and the agent
  coordinate n are bystanders of each: a slice of the feature axis keeps them, a bias row is repeated over them, the
  leaky rectifier and the softmax tail act entry by entry or row by row, and the two attention products contract over
  the features (queries against keys) or over the agents (weights against values) of ONE batch element. So each group
  at (b, n, ·) is the plain formula on the extended reals over row (b, n) of its operands.
-/
import proofs.«421273_j77558519431826_3_alg».proof.Proof.Gen.KernelIdeal.Skeleton
import proofs.«421273_j77558519431826_3_alg».proof.Proof.Spec
import Idealize.ShloMosaic.PureOps.Ideal.Laws
import Idealize.ShloMosaic.PureOps.Dims
import Idealize.ShloMosaic.Lib.ValueIdx
import Idealize.ShloMosaic.Lib.Pipeline.Value

noncomputable section

namespace Cert.KernelIdeal.KLanes

open Idealize.ShloMosaic Idealize.ShloMosaic.ValueIdx Cert.KernelIdeal Cert.KernelIdeal.Gen

variable {φ φ₁ φ₂ : FTy}

/-- The low half of the feature axis: features 0 … 127 of a 256-feature block. -/
theorem slice_lo (Y : FVec Ideal S32x64x256 φ) (b : Fin 32) (n : Fin 64) (d : Fin 128) :
    extractStridedSlice S32x64x128 ![0, 0, 0] Y slices_S32x64x256_o0_0_0_S32x64x128 (ix3 b n d)
      = Y (ix3 b n (Fin.castAdd 128 d : Fin 256)) := by
  refine extractStridedSlice_apply _ Y _ (ix3 b n d) (ix3 b n (Fin.castAdd 128 d : Fin 256)) fun a => ?_
  match a with
  | ⟨0, _⟩ => simp
  | ⟨1, _⟩ => simp
  | ⟨2, _⟩ => simp

/-- The high half of the feature axis: features 128 … 255 of a 256-feature block. -/
theorem slice_hi (Y : FVec Ideal S32x64x256 φ) (b : Fin 32) (n : Fin 64) (d : Fin 128) :
    extractStridedSlice S32x64x128 ![0, 0, 128] Y slices_S32x64x256_o0_0_128_S32x64x128 (ix3 b n d)
      = Y (ix3 b n (Fin.natAdd 128 d : Fin 256)) := by
  refine extractStridedSlice_apply _ Y _ (ix3 b n d) (ix3 b n (Fin.natAdd 128 d : Fin 256)) fun a => ?_
  match a with
  | ⟨0, _⟩ => simp
  | ⟨1, _⟩ => simp
  | ⟨2, _⟩ => rfl

/-- A bias row of 128 features, repeated over the batch and the agents: at (b, n, d) it is the row's entry d. -/
theorem bias128 (v : Vec Ideal S1x1x128 .f32) (b : Fin 32) (n : Fin 64) (d : Fin 128) :
    broadcastTo S32x64x128 (shapeCast S1x1x128 v shapeCasts_S1x1x128_S1x1x128) broadcasts_S1x1x128_S32x64x128 (ix3 b n d)
      = v (ix3 (0 : Fin 1) (0 : Fin 1) d) := by
  rw [shapeCast_self]
  refine broadcastTo_apply v _ (ix3 b n d) (ix3 (0 : Fin 1) (0 : Fin 1) d) fun a => ?_
  match a with
  | ⟨0, _⟩ => rfl
  | ⟨1, _⟩ => rfl
  | ⟨2, _⟩ => rfl

/-- A row of 64 features, repeated over the batch and the agents: at (b, n, o) it is the row's entry o. -/
theorem bias64 (v : Vec Ideal S1x1x64 .f32) (b : Fin 32) (n : Fin 64) (o : Fin 64) :
    broadcastTo S32x64x64 (shapeCast S1x1x64 v shapeCasts_S1x1x64_S1x1x64) broadcasts_S1x1x64_S32x64x64 (ix3 b n o)
      = v (ix3 (0 : Fin 1) (0 : Fin 1) o) := by
  rw [shapeCast_self]
  refine broadcastTo_apply v _ (ix3 b n o) (ix3 (0 : Fin 1) (0 : Fin 1) o) fun a => ?_
  match a with
  | ⟨0, _⟩ => rfl
  | ⟨1, _⟩ => rfl
  | ⟨2, _⟩ => rfl

/-- The leaky rectifier, entry by entry: the entry where it is at least zero, else the slope word's value times it. -/
theorem lrelu_apply {s : Shape} (x : FVec Ideal s .f32) (i : s.Idx) :
    select (cmpf .oge x (broadcast s (Scalar.ofBits (F := Ideal) .f32 0x00000000#32))) x
        (mulf (broadcast s (Scalar.ofBits (F := Ideal) .f32 0x3C23D70A#32)) x) i
      = Critic.lrelu (x i) := rfl

/-- The index (b, n) of a [32, 64] array with the coordinate o put back on the reduced last axis is (b, n, o). -/
theorem lift_ix2 (b : Fin 32) (n : Fin 64) (o : Fin 64) :
    reduces_S32x64x64_S32x64.lift (ix2 b n) o = ix3 b n o := by
  funext a; apply Fin.ext
  match a with
  | ⟨0, _⟩ => rfl
  | ⟨1, _⟩ => rfl
  | ⟨2, _⟩ => rfl

/-- The sum over the last axis of a [32, 64, 64] block, at (b, n): the sum of row (b, n). -/
theorem rowsum_apply (y : FVec Ideal S32x64x64 .f32) (b : Fin 32) (n : Fin 64) :
    multiReduction .add [2] S32x64 y 0x00000000#32 reduces_S32x64x64_S32x64 (.inl rfl) rfl (ix2 b n)
      = ∑ o : Fin 64, y (ix3 b n o) := by
  refine (Ideal.multiReduction_add_single y _ reduces_S32x64x64_S32x64 _ _ (ix2 b n)).trans ?_
  exact Finset.sum_congr rfl fun o _ => congrArg y (lift_ix2 b n o)

/-! ## The two batched attention products -/

/-- The contraction index of the query-key product built from the feature d has d on its one axis. -/
private theorem qk_contr (d : Fin 128) :
    (((contrEquiv1 dot_S32x64x128_S32x64x128_S32x64x64_2_2_1_1_0_0 128 rfl rfl).symm d) ⟨0, by decide⟩ : ℕ) = d.val :=
  contrEquiv1_symm_val dot_S32x64x128_S32x64x128_S32x64x64_2_2_1_1_0_0 128 rfl rfl d

/-- Queries against keys, batch element by batch element: the entry (b, n, j) is the inner product over the 128
    features of query row (b, n) with key row (b, j). -/
theorem bmmQK (Q : FVec Ideal S32x64x128 φ₁) (K : FVec Ideal S32x64x128 φ₂) (b : Fin 32) (n j : Fin 64) :
    matmul (F := Ideal) dot_S32x64x128_S32x64x128_S32x64x64_2_2_1_1_0_0 none Q K (constant S32x64x64 .f32 0x00000000#32) (ix3 b n j)
      = ∑ d : Fin 128, Q (ix3 b n d) * K (ix3 b j d) := by
  show FloatOps.matmul _ none Q K _ (ix3 b n j) = _
  rw [Ideal.matmul_constant_zero_apply,
    ← Equiv.sum_comp (contrEquiv1 dot_S32x64x128_S32x64x128_S32x64x64_2_2_1_1_0_0 128 rfl rfl).symm]
  refine Finset.sum_congr rfl fun d _ => ?_
  -- the left operand is read at (b, n, d): batch and agent from the output, the feature from the contraction
  have hl : dot_S32x64x128_S32x64x128_S32x64x64_2_2_1_1_0_0.lhsIdx (ix3 b n j)
      ((contrEquiv1 _ 128 rfl rfl).symm d) = ix3 b n d := by
    funext ax; apply Fin.ext
    match ax with
    | ⟨0, _⟩ => rfl
    | ⟨1, _⟩ => rfl
    | ⟨2, _⟩ =>
      exact (dot_S32x64x128_S32x64x128_S32x64x64_2_2_1_1_0_0.lhsIdx_val_of_single rfl (ix3 b n j) _).trans (qk_contr d)
  -- the right operand is read at (b, j, d): its agent is the output's last coordinate
  have hr : dot_S32x64x128_S32x64x128_S32x64x64_2_2_1_1_0_0.rhsIdx (ix3 b n j)
      ((contrEquiv1 _ 128 rfl rfl).symm d) = ix3 b j d := by
    funext ax; apply Fin.ext
    match ax with
    | ⟨0, _⟩ => rfl
    | ⟨1, _⟩ => rfl
    | ⟨2, _⟩ =>
      exact (dot_S32x64x128_S32x64x128_S32x64x64_2_2_1_1_0_0.rhsIdx_val_of_single rfl (ix3 b n j) _).trans (qk_contr d)
  rw [hl, hr]

/-- The contraction index of the weights-values product built from the agent j has j on its one axis. -/
private theorem wv_contr (j : Fin 64) :
    (((contrEquiv1 dot_S32x64x64_S32x64x128_S32x64x128_2_1_1_2_0_0 64 rfl rfl).symm j) ⟨0, by decide⟩ : ℕ) = j.val :=
  contrEquiv1_symm_val dot_S32x64x64_S32x64x128_S32x64x128_2_1_1_2_0_0 64 rfl rfl j

/-- Attention weights against values, batch element by batch element: the entry (b, n, d) is the sum over the 64
    agents j of the weight (b, n, j) times feature d of value row (b, j). -/
theorem bmmWV (W : FVec Ideal S32x64x64 φ₁) (V : FVec Ideal S32x64x128 φ₂) (b : Fin 32) (n : Fin 64) (d : Fin 128) :
    matmul (F := Ideal) dot_S32x64x64_S32x64x128_S32x64x128_2_1_1_2_0_0 none W V (constant S32x64x128 .f32 0x00000000#32) (ix3 b n d)
      = ∑ j : Fin 64, W (ix3 b n j) * V (ix3 b j d) := by
  show FloatOps.matmul _ none W V _ (ix3 b n d) = _
  rw [Ideal.matmul_constant_zero_apply,
    ← Equiv.sum_comp (contrEquiv1 dot_S32x64x64_S32x64x128_S32x64x128_2_1_1_2_0_0 64 rfl rfl).symm]
  refine Finset.sum_congr rfl fun j _ => ?_
  -- the left operand is read at (b, n, j): the contracted agent on its last axis
  have hl : dot_S32x64x64_S32x64x128_S32x64x128_2_1_1_2_0_0.lhsIdx (ix3 b n d)
      ((contrEquiv1 _ 64 rfl rfl).symm j) = ix3 b n j := by
    funext ax; apply Fin.ext
    match ax with
    | ⟨0, _⟩ => rfl
    | ⟨1, _⟩ => rfl
    | ⟨2, _⟩ =>
      exact (dot_S32x64x64_S32x64x128_S32x64x128_2_1_1_2_0_0.lhsIdx_val_of_single rfl (ix3 b n d) _).trans (wv_contr j)
  -- the right operand is read at (b, j, d): the contracted agent on its middle axis
  have hr : dot_S32x64x64_S32x64x128_S32x64x128_2_1_1_2_0_0.rhsIdx (ix3 b n d)
      ((contrEquiv1 _ 64 rfl rfl).symm j) = ix3 b j d := by
    funext ax; apply Fin.ext
    match ax with
    | ⟨0, _⟩ => rfl
    | ⟨1, _⟩ =>
      exact (dot_S32x64x64_S32x64x128_S32x64x128_2_1_1_2_0_0.rhsIdx_val_of_single rfl (ix3 b n d) _).trans (wv_contr j)
    | ⟨2, _⟩ => rfl
  rw [hl, hr]

/-! ## The softmax over a row of logits -/

/-- A [32, 64] array with a unit axis appended, at (b, n, ·), is the array at (b, n). -/
theorem cast1_apply (x : FVec Ideal S32x64 φ) (b : Fin 32) (n : Fin 64) (u : Fin 1) :
    shapeCast S32x64x1 x shapeCasts_S32x64_S32x64x1 (ix3 b n u) = x (ix2 b n) := by
  refine shapeCast_apply x _ (ix3 b n u) (ix2 b n) ?_
  rw [Shape.rowMajor_val_two, Shape.rowMajor_val_three]
  have hu : u.val = 0 := Fin.val_eq_zero u
  show b.val * 64 + n.val = (b.val * 64 + n.val) * 1 + u.val
  omega

/-- A per-row quantity [32, 64, 1] repeated along the row: at (b, n, j) it is the quantity of row (b, n). -/
theorem bcast1_apply (x : FVec Ideal S32x64x1 φ) (b : Fin 32) (n j : Fin 64) :
    broadcastTo S32x64x64 x broadcasts_S32x64x1_S32x64x64 (ix3 b n j) = x (ix3 b n (0 : Fin 1)) := by
  refine broadcastTo_apply x _ (ix3 b n j) (ix3 b n (0 : Fin 1)) fun a => ?_
  match a with
  | ⟨0, _⟩ => rfl
  | ⟨1, _⟩ => rfl
  | ⟨2, _⟩ => rfl

/-- The row maximum as the kernel takes it: the fold of max over row (b, n) from minus infinity, once more compared
    with minus infinity, with a unit axis appended. -/
theorem rowmax_apply (z : FVec Ideal S32x64x64 .f32) (b : Fin 32) (n : Fin 64) (u : Fin 1) :
    shapeCast S32x64x1 (maximumf (broadcast S32x64 (Scalar.ofBits (F := Ideal) .f32 0xFF800000#32))
        (multiReduction .maximumf [2] S32x64 z 0xFF800000#32 reduces_S32x64x64_S32x64 (.inl rfl) rfl))
        shapeCasts_S32x64_S32x64x1 (ix3 b n u)
      = Critic.rowMax (fun j => z (ix3 b n j)) := by
  rw [cast1_apply (φ := .f32)]
  -- the reduction at (b, n) is the fold of max from minus infinity over the lifted indices
  refine (congrArg (max (Ideal.ofBits .f32 0xFF800000#32))
    (Ideal.multiReduction_maximumf_single z _ reduces_S32x64x64_S32x64 _ _ (ix2 b n))).trans ?_
  -- the folded function is the row (b, n)
  have hrow : z ∘ reduces_S32x64x64_S32x64.lift (ix2 b n) = fun j : Fin 64 => z (ix3 b n j) :=
    funext fun j => congrArg z (lift_ix2 b n j)
  exact congrArg (fun f : Fin 64 → EReal => max (Ideal.ofBits .f32 0xFF800000#32)
    ((Finset.univ : Finset (Fin 64)).fold max (Ideal.ofBits .f32 0xFF800000#32) f)) hrow

/-- The softmax tail on logits z and a per-row shift mx: the exponential of the shifted entry over the sum of the
    row's shifted exponentials. -/
theorem softmax_apply (z : FVec Ideal S32x64x64 .f32) (mx : FVec Ideal S32x64x1 .f32) (b : Fin 32) (n j : Fin 64) :
    k0_pay7 (F := Ideal) z mx (ix3 b n j)
      = Ideal.div (Ideal.exp (z (ix3 b n j) - mx (ix3 b n (0 : Fin 1))))
          (∑ k : Fin 64, Ideal.exp (z (ix3 b n k) - mx (ix3 b n (0 : Fin 1)))) := by
  -- a shifted exponential at (b, n, k)
  have hexp : ∀ k : Fin 64, exp (subf z (broadcastTo S32x64x64 mx broadcasts_S32x64x1_S32x64x64)) (ix3 b n k)
      = Ideal.exp (z (ix3 b n k) - mx (ix3 b n (0 : Fin 1))) := fun k =>
    congrArg (fun t => Ideal.exp (z (ix3 b n k) - t)) (bcast1_apply (φ := .f32) mx b n k)
  show Ideal.div (exp (subf z (broadcastTo S32x64x64 mx broadcasts_S32x64x1_S32x64x64)) (ix3 b n j))
      (broadcastTo S32x64x64 (shapeCast S32x64x1
        (multiReduction .add [2] S32x64 (exp (subf z (broadcastTo S32x64x64 mx broadcasts_S32x64x1_S32x64x64)))
          0x00000000#32 reduces_S32x64x64_S32x64 (.inl rfl) rfl)
        shapeCasts_S32x64_S32x64x1) broadcasts_S32x64x1_S32x64x64 (ix3 b n j)) = _
  rw [bcast1_apply (φ := .f32), cast1_apply (φ := .f32), rowsum_apply, hexp]
  exact congrArg _ (Finset.sum_congr rfl fun k _ => hexp k)

/-- The two pieces joined: the softmax tail at the kernel's own row maximum is the softmax of row (b, n). -/
theorem softmax_rowmax (z : FVec Ideal S32x64x64 .f32) (b : Fin 32) (n j : Fin 64) :
    k0_pay7 (F := Ideal) z (shapeCast S32x64x1 (maximumf (broadcast S32x64 (Scalar.ofBits (F := Ideal) .f32 0xFF800000#32))
        (multiReduction .maximumf [2] S32x64 z 0xFF800000#32 reduces_S32x64x64_S32x64 (.inl rfl) rfl))
        shapeCasts_S32x64_S32x64x1) (ix3 b n j)
      = Critic.softmax (fun j' => z (ix3 b n j')) j := by
  rw [softmax_apply, rowmax_apply]
  rfl

end Cert.KernelIdeal.KLanes

end
-- ==== Proof.KPayHead.lean ====
/-
  Two of the kernel's arithmetic chains, read at an entry.

  The value chain of the second attention: a block's action rows through a linear layer from 64 features, added to the
  already computed state part and the bias, rectified, then through a linear layer from 128 features. The head chain:
  the re-embedding and the attention-mixed values each through their half of the hidden layer's weights, added,
  rectified, multiplied by the output weights and summed over the 64 hidden features. At the ideal values the changes
  of float format are the identity, a cast of an array to its own shape is the identity, each flattened product is the
  sum over its contracted coordinate, and the bias rows are read at their one row.
-/
import proofs.«421273_j77558519431826_3_alg».proof.Proof.Gen.KernelIdeal.Skeleton
import proofs.«421273_j77558519431826_3_alg».proof.Proof.KDots
import proofs.«421273_j77558519431826_3_alg».proof.Proof.KLanes
import proofs.«421273_j77558519431826_3_alg».proof.Proof.Spec
import Idealize.ShloMosaic.PureOps.Ideal.Laws
import Idealize.ShloMosaic.Lib.ValueIdx
import Idealize.ShloMosaic.Lib.Pipeline.Value

noncomputable section

namespace Cert.KernelIdeal.KPayHead
open Idealize.ShloMosaic Idealize.ShloMosaic.ValueIdx Cert.KernelIdeal Cert.KernelIdeal.Gen

/-- The values the second attention mixes, at (b, n, d): the sum over the 128 features of the rectified observation-action
    embedding times the value weights. -/
theorem pay13_apply (v1 : Vec Ideal S32x64x64 .f32) (v10 : FVec Ideal S32x64x128 .f32) (v101 : Vec Ideal S128x64 .f32)
    (v107 : Vec Ideal S1x1x128 .f32) (v118 : Vec Ideal S128x128 .f32) (b : Fin 32) (n : Fin 64) (d : Fin 128) :
    k0_pay13 (F := Ideal) v1 v10 v101 v107 v118 (ix3 b n d)
      = ∑ o : Fin 128, Critic.lrelu (v10 (ix3 b n o) + (∑ i : Fin 64, v1 (ix3 b n i) * v101 (ix2 o i))
          + v107 (ix3 (0 : Fin 1) (0 : Fin 1) o)) * v118 (ix2 d o) := by
  unfold k0_pay13
  rw [truncf_apply, KDots.lin_128_128]
  refine Finset.sum_congr rfl fun o _ => ?_
  rw [truncf_apply, truncf_apply, KLanes.lrelu_apply, addf_apply, addf_apply, KLanes.bias128, KDots.lin_64_128]
  simp only [truncf_apply, shapeCast_self]

/-- The value of agent n of block row b: the sum over the 64 hidden features of the rectified hidden layer times the
    output weights, the hidden layer on the re-embedding and on the attention-mixed values. -/
theorem pay1_apply (v73 : FVec Ideal S32x64x128 .f32) (v122 : FVec Ideal S32x64x64 .bf16) (v123 : FVec Ideal S32x64x128 .bf16)
    (v127 : Vec Ideal S64x128 .f32) (v134 : Vec Ideal S64x128 .f32) (v145 : Vec Ideal S1x1x64 .f32) (b : Fin 32) (n : Fin 64) :
    k0_pay1 (F := Ideal) v73 v122 v123 v127 v134 v145 (ix2 b n)
      = ∑ o : Fin 64, Critic.lrelu ((∑ d : Fin 128, v73 (ix3 b n d) * v127 (ix2 o d))
          + (∑ d : Fin 128, (∑ j : Fin 64, v122 (ix3 b n j) * v123 (ix3 b j d)) * v134 (ix2 o d)))
          * v145 (ix3 (0 : Fin 1) (0 : Fin 1) o) := by
  unfold k0_pay1
  rw [KLanes.rowsum_apply]
  refine Finset.sum_congr rfl fun o _ => ?_
  rw [mulf_apply, KLanes.lrelu_apply, KLanes.bias64, addf_apply, KDots.lin_128_64, KDots.lin_128_64]
  simp only [truncf_apply, shapeCast_self, KLanes.bmmWV]

end Cert.KernelIdeal.KPayHead

end
-- ==== Proof.KPay.lean ====
/-
  What the kernel body leaves in its three output blocks, entry by entry.

  At a grid point the body sees one block of 32 batch elements of the states and of the actions, and the weights
  whole, some of them stacked: W_pre over the state half of W_sa, W_q over W_k, W_se over W_sq, the action half of
  W_sa and the two halves of W_f1 on their own, the biases and W_f2 as [1, 1, ·] rows. Read through that staging
  (`blkP`, `blkS`, `blkA`), the entry (b, n, ·) of each output block is the one-batch-element critic of batch
  element b of the block.
-/
import proofs.«421273_j77558519431826_3_alg».proof.Proof.Gen.KernelIdeal.Frame
import proofs.«421273_j77558519431826_3_alg».proof.Proof.Spec
import proofs.«421273_j77558519431826_3_alg».proof.Proof.KDots
import proofs.«421273_j77558519431826_3_alg».proof.Proof.KLanes
import proofs.«421273_j77558519431826_3_alg».proof.Proof.KPayHead
import Idealize.ShloMosaic.Lib.Pipeline.Value
import Idealize.ShloMosaic.Lib.ValueIdx
import Idealize.ShloMosaic.PureOps.Ideal.Laws

noncomputable section

namespace Cert.KernelIdeal.KPay

open Idealize.ShloMosaic Idealize.ShloMosaic.ValueIdx Cert.KernelIdeal Cert.KernelIdeal.Gen

/-- The weights as the staged blocks hold them. -/
def blkP (x2 : Vec Ideal S256x256 .f32) (x3 : Vec Ideal S1x1x128 .f32) (x4 : Vec Ideal S256x128 .f32) (x5 : Vec Ideal S256x128 .f32) (x6 : Vec Ideal S1x1x128 .f32) (x7 : Vec Ideal S1x1x128 .f32) (x8 : Vec Ideal S128x64 .f32) (x9 : Vec Ideal S1x1x128 .f32) (x10 : Vec Ideal S128x128 .f32) (x11 : Vec Ideal S64x128 .f32) (x12 : Vec Ideal S64x128 .f32) (x13 : Vec Ideal S1x1x64 .f32) : Critic.Weights where
  Wpre o i := x2 (ix2 (Fin.castAdd 128 o : Fin 256) i)
  bpre d := x3 (ix3 (0 : Fin 1) (0 : Fin 1) d)
  Wk o d := x4 (ix2 (Fin.natAdd 128 o : Fin 256) d)
  Wq o d := x4 (ix2 (Fin.castAdd 128 o : Fin 256) d)
  Wse o d := x5 (ix2 (Fin.castAdd 128 o : Fin 256) d)
  bse d := x6 (ix3 (0 : Fin 1) (0 : Fin 1) d)
  Wsa o k := Fin.addCases (m := 256) (n := 64) (fun i => x2 (ix2 (Fin.natAdd 128 o : Fin 256) i)) (fun i => x8 (ix2 o i)) k
  bsa d := x9 (ix3 (0 : Fin 1) (0 : Fin 1) d)
  Wav o d := x10 (ix2 o d)
  Wsq o d := x5 (ix2 (Fin.natAdd 128 o : Fin 256) d)
  bsq d := x7 (ix3 (0 : Fin 1) (0 : Fin 1) d)
  Wf1 o k := Fin.addCases (m := 128) (n := 128) (fun i => x11 (ix2 o i)) (fun i => x12 (ix2 o i)) k
  Wf2 o := x13 (ix3 (0 : Fin 1) (0 : Fin 1) o)

/-- Batch element `b` of the states block: its 64 state rows. -/
def blkS (x0 : Vec Ideal S32x64x256 .f32) (b : Fin 32) : Fin 64 → Fin 256 → EReal := fun n i => x0 (ix3 b n i)

/-- Batch element `b` of the actions block: its 64 action rows. -/
def blkA (x1 : Vec Ideal S32x64x64 .f32) (b : Fin 32) : Fin 64 → Fin 64 → EReal := fun n i => x1 (ix3 b n i)

/-! ## The zero offsets of the whole-block rectangles -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first attention: embeddings, logits, softmax -/

section First
variable (v0 : Vec Ideal S32x64x256 .f32) (v4 : Vec Ideal S256x256 .f32) (v11 : Vec Ideal S1x1x128 .f32)
  (v22 : Vec Ideal S256x128 .f32)

/-- The states block against the first stacked weight block: all 256 output features. -/
theorem pay2_apply (b : Fin 32) (n : Fin 64) (o : Fin 256) :
    k0_pay2 (F := Ideal) v0 v4 (ix3 b n o) = ∑ k : Fin 256, v0 (ix3 b n k) * v4 (ix2 o k) := by
  unfold k0_pay2
  simp only [shapeCast_self]
  exact KDots.lin_256_256 _ _ b n o

/-- Its last 128 output features: the state half of the observation-action layer, before the bias. -/
theorem pay3_apply (b : Fin 32) (n : Fin 64) (d : Fin 128) :
    k0_pay3 (F := Ideal) v0 v4 (ix3 b n d)
      = ∑ k : Fin 256, v0 (ix3 b n k) * v4 (ix2 (Fin.natAdd 128 d : Fin 256) k) := by
  unfold k0_pay3
  rw [KLanes.slice_hi, pay2_apply]

/-- Its first 128 output features, plus the bias, rectified: the embeddings. -/
theorem pay4_pre (b : Fin 32) (n : Fin 64) (d : Fin 128) :
    k0_pay4 (F := Ideal) v0 v4 v11 (ix3 b n d)
      = Critic.lrelu ((∑ k : Fin 256, v0 (ix3 b n k) * v4 (ix2 (Fin.castAdd 128 d : Fin 256) k))
          + v11 (ix3 (0 : Fin 1) (0 : Fin 1) d)) := by
  unfold k0_pay4
  rw [truncf_apply, KLanes.lrelu_apply, addf_apply, KLanes.slice_lo, pay2_apply, KLanes.bias128]

/-- The scaled logits: queries and keys are the two halves of one stacked product of the embeddings. -/
theorem pay5_pre (b : Fin 32) (n j : Fin 64) :
    k0_pay5 (F := Ideal) v0 v4 v11 v22 (ix3 b n j)
      = (∑ d : Fin 128,
          (∑ k : Fin 128, k0_pay4 (F := Ideal) v0 v4 v11 (ix3 b n k) * v22 (ix2 (Fin.castAdd 128 d : Fin 256) k))
          * (∑ k : Fin 128, k0_pay4 (F := Ideal) v0 v4 v11 (ix3 b j k) * v22 (ix2 (Fin.natAdd 128 d : Fin 256) k)))
        * Ideal.ofBits .f32 0x3DB504F3#32 := by
  unfold k0_pay5
  simp only [shapeCast_self]
  rw [mulf_apply, broadcast_apply, KLanes.bmmQK]
  refine congrArg₂ (· * ·) (Finset.sum_congr rfl fun d _ => ?_) rfl
  rw [truncf_apply, truncf_apply, KLanes.slice_lo, KLanes.slice_hi, KDots.lin_128_256, KDots.lin_128_256]
  rfl

end First

/-! ## The second attention and the head's inputs, generic in what they read -/

section Second
variable (v20 : FVec Ideal S32x64x128 .bf16) (v33 : FVec Ideal S32x64x64 .f32) (v37 : FVec Ideal S32x64x1 .f32)
  (v49 : Vec Ideal S256x128 .f32) (v55 : Vec Ideal S1x1x128 .f32) (v65 : Vec Ideal S1x1x128 .f32)
  (v76 : Vec Ideal S256x128 .f32)

/-- The embeddings mixed by the attention weights, against the second stacked weight block: all 256 outputs. -/
theorem pay8_pre (b : Fin 32) (n : Fin 64) (o : Fin 256) :
    k0_pay8 (F := Ideal) v20 v33 v37 v49 (ix3 b n o)
      = ∑ d : Fin 128, (∑ j : Fin 64, k0_pay7 (F := Ideal) v33 v37 (ix3 b n j) * v20 (ix3 b j d)) * v49 (ix2 o d) := by
  unfold k0_pay8
  simp only [shapeCast_self]
  rw [KDots.lin_128_256]
  refine Finset.sum_congr rfl fun d _ => ?_
  rw [truncf_apply, KLanes.bmmWV]
  rfl

/-- Its last 128 outputs plus their bias, rectified. -/
theorem pay9_pre (b : Fin 32) (n : Fin 64) (d : Fin 128) :
    k0_pay9 (F := Ideal) v20 v33 v37 v49 v65 (ix3 b n d)
      = Critic.lrelu (k0_pay8 (F := Ideal) v20 v33 v37 v49 (ix3 b n (Fin.natAdd 128 d : Fin 256))
          + v65 (ix3 (0 : Fin 1) (0 : Fin 1) d)) := by
  unfold k0_pay9
  rw [KLanes.lrelu_apply, addf_apply, KLanes.slice_hi, KLanes.bias128]

/-- Its first 128 outputs plus their bias, rectified, against the query-key block: read through the split into
    (batch element, agent) rows, all 256 outputs. -/
theorem pay10_pre (b : Fin 32) (n : Fin 64) (o : Fin 256) :
    shapeCast S32x64x256 (k0_pay10 (F := Ideal) v20 v33 v37 v49 v55 v76) shapeCasts_S2048x256_S32x64x256 (ix3 b n o)
      = ∑ k : Fin 128, Critic.lrelu (k0_pay8 (F := Ideal) v20 v33 v37 v49 (ix3 b n (Fin.castAdd 128 k : Fin 256))
          + v55 (ix3 (0 : Fin 1) (0 : Fin 1) k)) * v76 (ix2 o k) := by
  unfold k0_pay10
  rw [KDots.lin_128_256]
  refine Finset.sum_congr rfl fun k _ => ?_
  rw [truncf_apply, KLanes.lrelu_apply, addf_apply, KLanes.slice_lo, KLanes.bias128, truncf_apply, shapeCast_self]

end Second

/-- The second softmax's scaled logits, from the flat query-key array. -/
def logits2 (v79 : FVec Ideal S2048x256 .f32) : FVec Ideal S32x64x64 .f32 :=
  mulf (matmul dot_S32x64x128_S32x64x128_S32x64x64_2_2_1_1_0_0 none
      (truncf .bf16 (extractStridedSlice S32x64x128 ![0, 0, 0]
        (shapeCast S32x64x256 v79 shapeCasts_S2048x256_S32x64x256) slices_S32x64x256_o0_0_0_S32x64x128) bitsLt_bf16_f32)
      (truncf .bf16 (extractStridedSlice S32x64x128 ![0, 0, 128]
        (shapeCast S32x64x256 v79 shapeCasts_S2048x256_S32x64x256) slices_S32x64x256_o0_0_128_S32x64x128) bitsLt_bf16_f32)
      (constant S32x64x64 .f32 0x00000000#32))
    (broadcast S32x64x64 (Scalar.ofBits (F := Ideal) .f32 0x3DB504F3#32))

/-- The second softmax is the same tail on those logits and their seeded row maximum (by unfolding). -/
theorem pay11_eq (v79 : FVec Ideal S2048x256 .f32) :
    k0_pay11 (F := Ideal) v79
      = k0_pay7 (F := Ideal) (logits2 v79)
          (shapeCast S32x64x1 (maximumf (broadcast S32x64 (Scalar.ofBits (F := Ideal) .f32 0xFF800000#32))
            (multiReduction .maximumf [2] S32x64 (logits2 v79) 0xFF800000#32 reduces_S32x64x64_S32x64 (.inl rfl) rfl))
            shapeCasts_S32x64_S32x64x1) := rfl

theorem pay11_apply (v79 : FVec Ideal S2048x256 .f32) (b : Fin 32) (n j : Fin 64) :
    k0_pay11 (F := Ideal) v79 (ix3 b n j) = Critic.softmax (fun j' => logits2 v79 (ix3 b n j')) j := by
  rw [pay11_eq, KLanes.softmax_rowmax]

/-- Those logits at (b, n, j): queries are the first 128 columns of the split array, keys the last 128. -/
theorem logits2_apply (v79 : FVec Ideal S2048x256 .f32) (b : Fin 32) (n j : Fin 64) :
    logits2 v79 (ix3 b n j)
      = (∑ d : Fin 128,
          shapeCast S32x64x256 v79 shapeCasts_S2048x256_S32x64x256 (ix3 b n (Fin.castAdd 128 d : Fin 256))
          * shapeCast S32x64x256 v79 shapeCasts_S2048x256_S32x64x256 (ix3 b j (Fin.natAdd 128 d : Fin 256)))
        * Ideal.ofBits .f32 0x3DB504F3#32 := by
  unfold logits2
  rw [mulf_apply, broadcast_apply, KLanes.bmmQK]
  refine congrArg₂ (· * ·) (Finset.sum_congr rfl fun d _ => ?_) rfl
  rw [truncf_apply, truncf_apply, KLanes.slice_lo, KLanes.slice_hi]

/-! ## The three output blocks through the staging -/

section Blocks
variable (x0 : Vec Ideal S32x64x256 .f32) (x1 : Vec Ideal S32x64x64 .f32) (x2 : Vec Ideal S256x256 .f32) (x3 : Vec Ideal S1x1x128 .f32) (x4 : Vec Ideal S256x128 .f32) (x5 : Vec Ideal S256x128 .f32) (x6 : Vec Ideal S1x1x128 .f32) (x7 : Vec Ideal S1x1x128 .f32) (x8 : Vec Ideal S128x64 .f32) (x9 : Vec Ideal S1x1x128 .f32) (x10 : Vec Ideal S128x128 .f32) (x11 : Vec Ideal S64x128 .f32) (x12 : Vec Ideal S64x128 .f32) (x13 : Vec Ideal S1x1x64 .f32)

theorem pay4_apply (b : Fin 32) (n : Fin 64) (d : Fin 128) :
    k0_pay4 (F := Ideal) x0 x2 x3 (ix3 b n d) = Critic.sePre (blkP x2 x3 x4 x5 x6 x7 x8 x9 x10 x11 x12 x13) (blkS x0 b) n d := by
  rw [pay4_pre]; rfl

theorem pay5_apply (b : Fin 32) (n j : Fin 64) :
    k0_pay5 (F := Ideal) x0 x2 x3 x4 (ix3 b n j)
      = (∑ d : Fin 128, Critic.lin (blkP x2 x3 x4 x5 x6 x7 x8 x9 x10 x11 x12 x13).Wq (Critic.sePre (blkP x2 x3 x4 x5 x6 x7 x8 x9 x10 x11 x12 x13) (blkS x0 b) n) d
            * Critic.lin (blkP x2 x3 x4 x5 x6 x7 x8 x9 x10 x11 x12 x13).Wk (Critic.sePre (blkP x2 x3 x4 x5 x6 x7 x8 x9 x10 x11 x12 x13) (blkS x0 b) j) d)
          * Ideal.ofBits .f32 0x3DB504F3#32 := by
  rw [pay5_pre]; simp only [pay4_apply x0 x2 x3 x4 x5 x6 x7 x8 x9 x10 x11 x12 x13]; rfl

/-- The row-maximum payload is the seeded maximum of the logits' rows (by unfolding). -/
theorem pay6_eq :
    k0_pay6 (F := Ideal) x0 x2 x3 x4
      = shapeCast S32x64x1 (maximumf (broadcast S32x64 (Scalar.ofBits (F := Ideal) .f32 0xFF800000#32))
          (multiReduction .maximumf [2] S32x64 (k0_pay5 (F := Ideal) x0 x2 x3 x4) 0xFF800000#32 reduces_S32x64x64_S32x64 (.inl rfl) rfl))
          shapeCasts_S32x64_S32x64x1 := rfl

/-- The first attention weights of batch element b of the block. -/
theorem w1K (b : Fin 32) (n j : Fin 64) :
    k0_pay7 (F := Ideal) (k0_pay5 (F := Ideal) x0 x2 x3 x4) (k0_pay6 (F := Ideal) x0 x2 x3 x4) (ix3 b n j)
      = Critic.w1 (blkP x2 x3 x4 x5 x6 x7 x8 x9 x10 x11 x12 x13) (blkS x0 b) n j := by
  rw [pay6_eq x0 x2 x3 x4, KLanes.softmax_rowmax]
  simp only [pay5_apply x0 x2 x3 x4 x5 x6 x7 x8 x9 x10 x11 x12 x13]
  rfl

/-- The mixed embeddings against the second stacked block. -/
theorem pay8_apply (b : Fin 32) (n : Fin 64) (o : Fin 256) :
    k0_pay8 (F := Ideal) (k0_pay4 (F := Ideal) x0 x2 x3) (k0_pay5 (F := Ideal) x0 x2 x3 x4) (k0_pay6 (F := Ideal) x0 x2 x3 x4) x5 (ix3 b n o)
      = ∑ d : Fin 128, Critic.avPre (blkP x2 x3 x4 x5 x6 x7 x8 x9 x10 x11 x12 x13) (blkS x0 b) n d * x5 (ix2 o d) := by
  rw [pay8_pre]
  simp only [w1K x0 x2 x3 x4 x5 x6 x7 x8 x9 x10 x11 x12 x13, pay4_apply x0 x2 x3 x4 x5 x6 x7 x8 x9 x10 x11 x12 x13]
  rfl

/-- The re-embedding that feeds the head. -/
theorem seqK (b : Fin 32) (n : Fin 64) (d : Fin 128) :
    k0_pay9 (F := Ideal) (k0_pay4 (F := Ideal) x0 x2 x3) (k0_pay5 (F := Ideal) x0 x2 x3 x4) (k0_pay6 (F := Ideal) x0 x2 x3 x4) x5 x7 (ix3 b n d)
      = Critic.seq (blkP x2 x3 x4 x5 x6 x7 x8 x9 x10 x11 x12 x13) (blkS x0 b) n d := by
  rw [pay9_pre, pay8_apply x0 x2 x3 x4 x5 x6 x7 x8 x9 x10 x11 x12 x13]; rfl

/-- The split query-key array of the second attention. -/
theorem qk2K (b : Fin 32) (n : Fin 64) (o : Fin 256) :
    shapeCast S32x64x256 (k0_pay10 (F := Ideal) (k0_pay4 (F := Ideal) x0 x2 x3) (k0_pay5 (F := Ideal) x0 x2 x3 x4) (k0_pay6 (F := Ideal) x0 x2 x3 x4) x5 x6 x4)
        shapeCasts_S2048x256_S32x64x256 (ix3 b n o)
      = ∑ k : Fin 128, Critic.se (blkP x2 x3 x4 x5 x6 x7 x8 x9 x10 x11 x12 x13) (blkS x0 b) n k * x4 (ix2 o k) := by
  rw [pay10_pre]
  simp only [pay8_apply x0 x2 x3 x4 x5 x6 x7 x8 x9 x10 x11 x12 x13]
  rfl

/-- The second attention weights of batch element b of the block. -/
theorem w2K (b : Fin 32) (n j : Fin 64) :
    k0_pay11 (F := Ideal) (k0_pay10 (F := Ideal) (k0_pay4 (F := Ideal) x0 x2 x3) (k0_pay5 (F := Ideal) x0 x2 x3 x4) (k0_pay6 (F := Ideal) x0 x2 x3 x4) x5 x6 x4) (ix3 b n j)
      = Critic.w2 (blkP x2 x3 x4 x5 x6 x7 x8 x9 x10 x11 x12 x13) (blkS x0 b) n j := by
  rw [pay11_apply]
  simp only [logits2_apply, qk2K x0 x2 x3 x4 x5 x6 x7 x8 x9 x10 x11 x12 x13]
  rfl

end Blocks

/-! ## The head, and the three statements -/

section Outputs
variable (x0 : Vec Ideal S32x64x256 .f32) (x1 : Vec Ideal S32x64x64 .f32) (x2 : Vec Ideal S256x256 .f32) (x3 : Vec Ideal S1x1x128 .f32) (x4 : Vec Ideal S256x128 .f32) (x5 : Vec Ideal S256x128 .f32) (x6 : Vec Ideal S1x1x128 .f32) (x7 : Vec Ideal S1x1x128 .f32) (x8 : Vec Ideal S128x64 .f32) (x9 : Vec Ideal S1x1x128 .f32) (x10 : Vec Ideal S128x128 .f32) (x11 : Vec Ideal S64x128 .f32) (x12 : Vec Ideal S64x128 .f32) (x13 : Vec Ideal S1x1x64 .f32)

/-- The bf16 copy of the second attention weights holds the same values. -/
theorem pay12_apply (v79 : FVec Ideal S2048x256 .f32) (i : S32x64x64.Idx) :
    k0_pay12 (F := Ideal) v79 i = k0_pay11 (F := Ideal) v79 i := rfl

/-- The values the second attention mixes: the observation-action embedding (state half from the first stacked
    product, action half from its own block, the bias, rectified) against W_av. -/
theorem avK (b : Fin 32) (n : Fin 64) (d : Fin 128) :
    k0_pay13 (F := Ideal) x1 (k0_pay3 (F := Ideal) x0 x2) x8 x9 x10 (ix3 b n d)
      = Critic.av (blkP x2 x3 x4 x5 x6 x7 x8 x9 x10 x11 x12 x13) (blkS x0 b) (blkA x1 b) n d := by
  rw [KPayHead.pay13_apply]
  simp only [pay3_apply]
  simp only [Critic.av, Critic.oae, Critic.lin, blkP, blkS, blkA, Fin.addCases_left, Fin.addCases_right]

/-- The value block at (b, n). -/
theorem out0_14_apply (b : Fin 32) (n : Fin 64) :
    out0_14 (F := Ideal) x0 x1 x2 x3 x4 x5 x6 x7 x8 x9 x10 x11 x12 x13 (ix2 b n)
      = Critic.value (blkP x2 x3 x4 x5 x6 x7 x8 x9 x10 x11 x12 x13) (blkS x0 b) (blkA x1 b) n := by
  unfold out0_14
  rw [View.canon_unit_zero hz2]
  simp only [View.ld_unit_zero (S := S32x64x256) hz3, View.ld_unit_zero (S := S32x64x64) hz3, View.ld_unit_zero (S := S256x256) hz2, View.ld_unit_zero (S := S1x1x128) hz3, View.ld_unit_zero (S := S256x128) hz2, View.ld_unit_zero (S := S128x64) hz2, View.ld_unit_zero (S := S128x128) hz2, View.ld_unit_zero (S := S64x128) hz2, View.ld_unit_zero (S := S1x1x64) hz3]
  rw [KPayHead.pay1_apply]
  simp only [seqK x0 x2 x3 x4 x5 x6 x7 x8 x9 x10 x11 x12 x13, pay12_apply, w2K x0 x2 x3 x4 x5 x6 x7 x8 x9 x10 x11 x12 x13, avK x0 x1 x2 x3 x4 x5 x6 x7 x8 x9 x10 x11 x12 x13]
  simp only [Critic.value, Critic.hid, Critic.agg, Critic.lin, blkP, Fin.addCases_left, Fin.addCases_right]

/-- The first attention block at (b, n, j). -/
theorem out0_15_apply (b : Fin 32) (n j : Fin 64) :
    out0_15 (F := Ideal) x0 x1 x2 x3 x4 x5 x6 x7 x8 x9 x10 x11 x12 x13 (ix3 b n j)
      = Critic.w1 (blkP x2 x3 x4 x5 x6 x7 x8 x9 x10 x11 x12 x13) (blkS x0 b) n j := by
  unfold out0_15
  rw [View.canon_unit_zero hz3]
  simp only [View.ld_unit_zero (S := S32x64x256) hz3, View.ld_unit_zero (S := S32x64x64) hz3, View.ld_unit_zero (S := S256x256) hz2, View.ld_unit_zero (S := S1x1x128) hz3, View.ld_unit_zero (S := S256x128) hz2, View.ld_unit_zero (S := S128x64) hz2, View.ld_unit_zero (S := S128x128) hz2, View.ld_unit_zero (S := S64x128) hz2, View.ld_unit_zero (S := S1x1x64) hz3]
  exact w1K x0 x2 x3 x4 x5 x6 x7 x8 x9 x10 x11 x12 x13 b n j

/-- The second attention block at (b, n, j). -/
theorem out0_16_apply (b : Fin 32) (n j : Fin 64) :
    out0_16 (F := Ideal) x0 x1 x2 x3 x4 x5 x6 x7 x8 x9 x10 x11 x12 x13 (ix3 b n j)
      = Critic.w2 (blkP x2 x3 x4 x5 x6 x7 x8 x9 x10 x11 x12 x13) (blkS x0 b) n j := by
  unfold out0_16
  rw [View.canon_unit_zero hz3]
  simp only [View.ld_unit_zero (S := S32x64x256) hz3, View.ld_unit_zero (S := S32x64x64) hz3, View.ld_unit_zero (S := S256x256) hz2, View.ld_unit_zero (S := S1x1x128) hz3, View.ld_unit_zero (S := S256x128) hz2, View.ld_unit_zero (S := S128x64) hz2, View.ld_unit_zero (S := S128x128) hz2, View.ld_unit_zero (S := S64x128) hz2, View.ld_unit_zero (S := S1x1x64) hz3]
  exact w2K x0 x2 x3 x4 x5 x6 x7 x8 x9 x10 x11 x12 x13 b n j

end Outputs

end Cert.KernelIdeal.KPay

end
-- ==== Proof.Whole.lean ====
/-
  The three results as whole arrays.

  The fifteen argument arrays, read at the ideal values, give the weights (entry by entry) and, for each batch
  coordinate `b`, that batch element's state rows and action rows; the result arrays are the one-batch-element critic of
  `Spec.lean` at each batch coordinate: the value array at (b, n, 0), the two attention arrays at (b, n, j).
-/
import proofs.«421273_j77558519431826_3_alg».proof.Proof.Spec

noncomputable section

namespace Critic

open Idealize.ShloMosaic Idealize.ShloMosaic.ValueIdx

/-- The fifteen argument arrays, in the entry point's order. -/
structure Args where
  states : (⟨3, ![2048, 64, 256]⟩ : Shape).Idx → EReal
  actions : (⟨3, ![2048, 64, 64]⟩ : Shape).Idx → EReal
  Wpre : (⟨2, ![128, 256]⟩ : Shape).Idx → EReal
  bpre : (⟨1, ![128]⟩ : Shape).Idx → EReal
  Wk : (⟨2, ![128, 128]⟩ : Shape).Idx → EReal
  Wq : (⟨2, ![128, 128]⟩ : Shape).Idx → EReal
  Wse : (⟨2, ![128, 128]⟩ : Shape).Idx → EReal
  bse : (⟨1, ![128]⟩ : Shape).Idx → EReal
  Wsa : (⟨2, ![128, 320]⟩ : Shape).Idx → EReal
  bsa : (⟨1, ![128]⟩ : Shape).Idx → EReal
  Wav : (⟨2, ![128, 128]⟩ : Shape).Idx → EReal
  Wsq : (⟨2, ![128, 128]⟩ : Shape).Idx → EReal
  bsq : (⟨1, ![128]⟩ : Shape).Idx → EReal
  Wf1 : (⟨2, ![64, 256]⟩ : Shape).Idx → EReal
  Wf2 : (⟨2, ![1, 64]⟩ : Shape).Idx → EReal

/-- The weights, entry by entry. -/
def Args.P (a : Args) : Weights where
  Wpre o i := a.Wpre (ix2 o i)
  bpre d := a.bpre (ix1 d)
  Wk o d := a.Wk (ix2 o d)
  Wq o d := a.Wq (ix2 o d)
  Wse o d := a.Wse (ix2 o d)
  bse d := a.bse (ix1 d)
  Wsa o k := a.Wsa (ix2 o k)
  bsa d := a.bsa (ix1 d)
  Wav o d := a.Wav (ix2 o d)
  Wsq o d := a.Wsq (ix2 o d)
  bsq d := a.bsq (ix1 d)
  Wf1 o k := a.Wf1 (ix2 o k)
  Wf2 o := a.Wf2 (ix2 (0 : Fin 1) o)

/-- Batch element `b`'s state rows. -/
def Args.S (a : Args) (b : Fin 2048) : Fin 64 → Fin 256 → EReal := fun n i => a.states (ix3 b n i)

/-- Batch element `b`'s action rows. -/
def Args.A (a : Args) (b : Fin 2048) : Fin 64 → Fin 64 → EReal := fun n i => a.actions (ix3 b n i)

/-- The value array: at (b, n, 0) the value of agent `n` of batch element `b`. -/
def Gval (a : Args) : (⟨3, ![2048, 64, 1]⟩ : Shape).Idx → EReal :=
  fun j => value a.P (a.S (j 0)) (a.A (j 0)) (j 1)

/-- The first attention array. -/
def Gw1 (a : Args) : (⟨3, ![2048, 64, 64]⟩ : Shape).Idx → EReal :=
  fun j => w1 a.P (a.S (j 0)) (j 1) (j 2)

/-- The second attention array. -/
def Gw2 (a : Args) : (⟨3, ![2048, 64, 64]⟩ : Shape).Idx → EReal :=
  fun j => w2 a.P (a.S (j 0)) (j 1) (j 2)

end Critic

end
-- ==== Proof.KArgs.lean ====
/-
  The kernel program's fifteen argument arrays, as a memory holds them on a core, gathered in the entry point's order.
-/
import proofs.«421273_j77558519431826_3_alg».proof.Proof.Gen.KernelIdeal
import proofs.«421273_j77558519431826_3_alg».proof.Proof.Whole

noncomputable section

namespace Cert.KernelIdeal.KValue

open Idealize.ShloMosaic Idealize.SL.Sem Cert.KernelIdeal

/-- The argument arrays of core `c` in memory `m`. -/
def argsOf (m : (ℓ : Loc nD τ sig) → Buf (Elt Ideal) ℓ) (c : Dev nD) : Critic.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14)⟩

end Cert.KernelIdeal.KValue

end
-- ==== Proof.KBlocks.lean ====
/-
  From the staged blocks to the argument arrays.

  At grid point t the body sees rows 32 t ... 32 t + 31 of the states and of the actions, and every weight array
  whole. Some of those weight arrays are not arguments but were laid out from them before the grid runs: two arguments
  stacked by rows, a band of columns of an argument, a vector reshaped to a [1, 1, ·] row. Read entry by entry, the
  weights the blocks hold are the argument weights, and batch element b of a block is batch element 32 t + b of the
  argument.
-/
import proofs.«421273_j77558519431826_3_alg».proof.Proof.Gen.KernelIdeal.Frame
import proofs.«421273_j77558519431826_3_alg».proof.Proof.KPay
import proofs.«421273_j77558519431826_3_alg».proof.Proof.KArgs
import proofs.«421273_j77558519431826_3_alg».proof.Proof.Whole
import Idealize.ShloMosaic.Lib.Pipeline.Value
import Idealize.ShloMosaic.Lib.ValueIdx

noncomputable section

namespace Cert.KernelIdeal.KBlocks

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## The grid -/

/-- A grid point is one of 64. -/
theorem point_lt (t : Fin cfg0.N) : t.val < 64 := lt_of_lt_of_eq t.isLt N_0

/-- The batch element at place `b` of grid point `t`'s block: 32 t + b. -/
abbrev row (t : Fin cfg0.N) (b : Fin 32) : Fin 2048 :=
  ⟨32 * t.val + b.val, by have := point_lt t; have := b.isLt; omega⟩

/-! ## The two moving windows: a block is 32 batch elements of the argument -/

/-- Grid point t's states block at (b, n, i) is the states argument at (32 t + b, n, i). -/
theorem states_block (c : Dev nD) (t : Fin cfg0.N) (x : S32x64x256.Idx) (k : S2048x64x256.Idx)
    (hk0 : (k 0).val = 32 * t.val + (x 0).val) (hk1 : (k 1).val = (x 1).val) (hk2 : (k 2).val = (x 2).val) :
    (iblk m c 0 t : Vec Ideal S32x64x256 .f32) x = (m ((c : Thread nD τ).loc main_arg0) : S2048x64x256.Idx → EReal) k := by
  obtain ⟨e0, e1, e2⟩ := (by decide +kernel : ∀ t : Fin grid0.N,
    win0_0.index t (0 : Fin 3) = t.val ∧ win0_0.index t (1 : Fin 3) = 0 ∧ win0_0.index t (2 : Fin 3) = 0) t
  unfold iblk
  rw [View.read_apply]
  show V m c main_arg0 _ = m (c.tc.loc main_arg0) _
  refine (congrFun (V_main_arg0 m c) _).trans (congrArg (m ((c : Thread nD τ).loc main_arg0)) ?_)
  funext a
  apply Fin.ext
  match a with
  | ⟨0, _⟩ => show win0_0.index t 0 * 32 + 1 * (x 0).val = (k 0).val; rw [e0, hk0]; omega
  | ⟨1, _⟩ => show win0_0.index t 1 * 64 + 1 * (x 1).val = (k 1).val; rw [e1, hk1]; omega
  | ⟨2, _⟩ => show win0_0.index t 2 * 256 + 1 * (x 2).val = (k 2).val; rw [e2, hk2]; omega

/-- Grid point t's actions block at (b, n, i) is the actions argument at (32 t + b, n, i). -/
theorem actions_block (c : Dev nD) (t : Fin cfg0.N) (x : S32x64x64.Idx) (k : S2048x64x64.Idx)
    (hk0 : (k 0).val = 32 * t.val + (x 0).val) (hk1 : (k 1).val = (x 1).val) (hk2 : (k 2).val = (x 2).val) :
    (iblk m c 1 t : Vec Ideal S32x64x64 .f32) x = (m ((c : Thread nD τ).loc main_arg1) : S2048x64x64.Idx → EReal) k := by
  obtain ⟨e0, e1, e2⟩ := (by decide +kernel : ∀ t : Fin grid0.N,
    win0_1.index t (0 : Fin 3) = t.val ∧ win0_1.index t (1 : Fin 3) = 0 ∧ win0_1.index t (2 : Fin 3) = 0) t
  unfold iblk
  rw [View.read_apply]
  show V m c main_arg1 _ = m (c.tc.loc main_arg1) _
  refine (congrFun (V_main_arg1 m c) _).trans (congrArg (m ((c : Thread nD τ).loc main_arg1)) ?_)
  funext a
  apply Fin.ext
  match a with
  | ⟨0, _⟩ => show win0_1.index t 0 * 32 + 1 * (x 0).val = (k 0).val; rw [e0, hk0]; omega
  | ⟨1, _⟩ => show win0_1.index t 1 * 64 + 1 * (x 1).val = (k 1).val; rw [e1, hk1]; omega
  | ⟨2, _⟩ => show win0_1.index t 2 * 64 + 1 * (x 2).val = (k 2).val; rw [e2, hk2]; omega

/-! ## The twelve fixed windows: the one block is the array -/

/-- Window 2 (W_pre stacked over the state half of W_sa) has one block, the whole array: at every grid point the block's entry is the array's. -/
theorem block_2 (c : Dev nD) (t : Fin cfg0.N) (x : S256x256.Idx) :
    (iblk m c 2 t : Vec Ideal S256x256 .f32) x = (V m c main_v4 : S256x256.Idx → EReal) x := by
  obtain ⟨e0, e1⟩ := (by decide +kernel : ∀ t : Fin grid0.N, win0_2.index t (0 : Fin 2) = 0 ∧ win0_2.index t (1 : Fin 2) = 0) t
  unfold iblk
  rw [View.read_apply]
  show V m c main_v4 _ = V m c main_v4 x
  refine congrArg (V m c main_v4) ?_
  funext a
  apply Fin.ext
  match a with
  | ⟨0, _⟩ => show win0_2.index t 0 * 256 + 1 * (x 0).val = (x 0).val; rw [e0]; omega
  | ⟨1, _⟩ => show win0_2.index t 1 * 256 + 1 * (x 1).val = (x 1).val; rw [e1]; omega

/-- Window 3 (b_pre as a [1, 1, 128] row) has one block, the whole array: at every grid point the block's entry is the array's. -/
theorem block_3 (c : Dev nD) (t : Fin cfg0.N) (x : S1x1x128.Idx) :
    (iblk m c 3 t : Vec Ideal S1x1x128 .f32) x = (V m c main_v7 : S1x1x128.Idx → EReal) x := by
  obtain ⟨e0, e1, e2⟩ := (by decide +kernel : ∀ t : Fin grid0.N, win0_3.index t (0 : Fin 3) = 0 ∧ win0_3.index t (1 : Fin 3) = 0 ∧ win0_3.index t (2 : Fin 3) = 0) t
  unfold iblk
  rw [View.read_apply]
  show V m c main_v7 _ = V m c main_v7 x
  refine congrArg (V m c main_v7) ?_
  funext a
  apply Fin.ext
  match a with
  | ⟨0, _⟩ => show win0_3.index t 0 * 1 + 1 * (x 0).val = (x 0).val; rw [e0]; omega
  | ⟨1, _⟩ => show win0_3.index t 1 * 1 + 1 * (x 1).val = (x 1).val; rw [e1]; omega
  | ⟨2, _⟩ => show win0_3.index t 2 * 128 + 1 * (x 2).val = (x 2).val; rw [e2]; omega

/-- Window 4 (W_q stacked over W_k) has one block, the whole array: at every grid point the block's entry is the array's. -/
theorem block_4 (c : Dev nD) (t : Fin cfg0.N) (x : S256x128.Idx) :
    (iblk m c 4 t : Vec Ideal S256x128 .f32) x = (V m c main_v5 : S256x128.Idx → EReal) x := by
  obtain ⟨e0, e1⟩ := (by decide +kernel : ∀ t : Fin grid0.N, win0_4.index t (0 : Fin 2) = 0 ∧ win0_4.index t (1 : Fin 2) = 0) t
  unfold iblk
  rw [View.read_apply]
  show V m c main_v5 _ = V m c main_v5 x
  refine congrArg (V m c main_v5) ?_
  funext a
  apply Fin.ext
  match a with
  | ⟨0, _⟩ => show win0_4.index t 0 * 256 + 1 * (x 0).val = (x 0).val; rw [e0]; omega
  | ⟨1, _⟩ => show win0_4.index t 1 * 128 + 1 * (x 1).val = (x 1).val; rw [e1]; omega

/-- Window 5 (W_se stacked over W_sq) has one block, the whole array: at every grid point the block's entry is the array's. -/
theorem block_5 (c : Dev nD) (t : Fin cfg0.N) (x : S256x128.Idx) :
    (iblk m c 5 t : Vec Ideal S256x128 .f32) x = (V m c main_v6 : S256x128.Idx → EReal) x := by
  obtain ⟨e0, e1⟩ := (by decide +kernel : ∀ t : Fin grid0.N, win0_5.index t (0 : Fin 2) = 0 ∧ win0_5.index t (1 : Fin 2) = 0) t
  unfold iblk
  rw [View.read_apply]
  show V m c main_v6 _ = V m c main_v6 x
  refine congrArg (V m c main_v6) ?_
  funext a
  apply Fin.ext
  match a with
  | ⟨0, _⟩ => show win0_5.index t 0 * 256 + 1 * (x 0).val = (x 0).val; rw [e0]; omega
  | ⟨1, _⟩ => show win0_5.index t 1 * 128 + 1 * (x 1).val = (x 1).val; rw [e1]; omega

/-- Window 6 (b_se as a [1, 1, 128] row) has one block, the whole array: at every grid point the block's entry is the array's. -/
theorem block_6 (c : Dev nD) (t : Fin cfg0.N) (x : S1x1x128.Idx) :
    (iblk m c 6 t : Vec Ideal S1x1x128 .f32) x = (V m c main_v8 : S1x1x128.Idx → EReal) x := by
  obtain ⟨e0, e1, e2⟩ := (by decide +kernel : ∀ t : Fin grid0.N, win0_6.index t (0 : Fin 3) = 0 ∧ win0_6.index t (1 : Fin 3) = 0 ∧ win0_6.index t (2 : Fin 3) = 0) t
  unfold iblk
  rw [View.read_apply]
  show V m c main_v8 _ = V m c main_v8 x
  refine congrArg (V m c main_v8) ?_
  funext a
  apply Fin.ext
  match a with
  | ⟨0, _⟩ => show win0_6.index t 0 * 1 + 1 * (x 0).val = (x 0).val; rw [e0]; omega
  | ⟨1, _⟩ => show win0_6.index t 1 * 1 + 1 * (x 1).val = (x 1).val; rw [e1]; omega
  | ⟨2, _⟩ => show win0_6.index t 2 * 128 + 1 * (x 2).val = (x 2).val; rw [e2]; omega

/-- Window 7 (b_sq as a [1, 1, 128] row) has one block, the whole array: at every grid point the block's entry is the array's. -/
theorem block_7 (c : Dev nD) (t : Fin cfg0.N) (x : S1x1x128.Idx) :
    (iblk m c 7 t : Vec Ideal S1x1x128 .f32) x = (V m c main_v10 : S1x1x128.Idx → EReal) x := by
  obtain ⟨e0, e1, e2⟩ := (by decide +kernel : ∀ t : Fin grid0.N, win0_7.index t (0 : Fin 3) = 0 ∧ win0_7.index t (1 : Fin 3) = 0 ∧ win0_7.index t (2 : Fin 3) = 0) t
  unfold iblk
  rw [View.read_apply]
  show V m c main_v10 _ = V m c main_v10 x
  refine congrArg (V m c main_v10) ?_
  funext a
  apply Fin.ext
  match a with
  | ⟨0, _⟩ => show win0_7.index t 0 * 1 + 1 * (x 0).val = (x 0).val; rw [e0]; omega
  | ⟨1, _⟩ => show win0_7.index t 1 * 1 + 1 * (x 1).val = (x 1).val; rw [e1]; omega
  | ⟨2, _⟩ => show win0_7.index t 2 * 128 + 1 * (x 2).val = (x 2).val; rw [e2]; omega

/-- Window 8 (the action half of W_sa) has one block, the whole array: at every grid point the block's entry is the array's. -/
theorem block_8 (c : Dev nD) (t : Fin cfg0.N) (x : S128x64.Idx) :
    (iblk m c 8 t : Vec Ideal S128x64 .f32) x = (V m c main_v1 : S128x64.Idx → EReal) x := by
  obtain ⟨e0, e1⟩ := (by decide +kernel : ∀ t : Fin grid0.N, win0_8.index t (0 : Fin 2) = 0 ∧ win0_8.index t (1 : Fin 2) = 0) t
  unfold iblk
  rw [View.read_apply]
  show V m c main_v1 _ = V m c main_v1 x
  refine congrArg (V m c main_v1) ?_
  funext a
  apply Fin.ext
  match a with
  | ⟨0, _⟩ => show win0_8.index t 0 * 128 + 1 * (x 0).val = (x 0).val; rw [e0]; omega
  | ⟨1, _⟩ => show win0_8.index t 1 * 64 + 1 * (x 1).val = (x 1).val; rw [e1]; omega

/-- Window 9 (b_sa as a [1, 1, 128] row) has one block, the whole array: at every grid point the block's entry is the array's. -/
theorem block_9 (c : Dev nD) (t : Fin cfg0.N) (x : S1x1x128.Idx) :
    (iblk m c 9 t : Vec Ideal S1x1x128 .f32) x = (V m c main_v9 : S1x1x128.Idx → EReal) x := by
  obtain ⟨e0, e1, e2⟩ := (by decide +kernel : ∀ t : Fin grid0.N, win0_9.index t (0 : Fin 3) = 0 ∧ win0_9.index t (1 : Fin 3) = 0 ∧ win0_9.index t (2 : Fin 3) = 0) t
  unfold iblk
  rw [View.read_apply]
  show V m c main_v9 _ = V m c main_v9 x
  refine congrArg (V m c main_v9) ?_
  funext a
  apply Fin.ext
  match a with
  | ⟨0, _⟩ => show win0_9.index t 0 * 1 + 1 * (x 0).val = (x 0).val; rw [e0]; omega
  | ⟨1, _⟩ => show win0_9.index t 1 * 1 + 1 * (x 1).val = (x 1).val; rw [e1]; omega
  | ⟨2, _⟩ => show win0_9.index t 2 * 128 + 1 * (x 2).val = (x 2).val; rw [e2]; omega

/-- Window 10 (W_av) has one block, the whole array: at every grid point the block's entry is the array's. -/
theorem block_10 (c : Dev nD) (t : Fin cfg0.N) (x : S128x128.Idx) :
    (iblk m c 10 t : Vec Ideal S128x128 .f32) x = (V m c main_arg10 : S128x128.Idx → EReal) x := by
  obtain ⟨e0, e1⟩ := (by decide +kernel : ∀ t : Fin grid0.N, win0_10.index t (0 : Fin 2) = 0 ∧ win0_10.index t (1 : Fin 2) = 0) t
  unfold iblk
  rw [View.read_apply]
  show V m c main_arg10 _ = V m c main_arg10 x
  refine congrArg (V m c main_arg10) ?_
  funext a
  apply Fin.ext
  match a with
  | ⟨0, _⟩ => show win0_10.index t 0 * 128 + 1 * (x 0).val = (x 0).val; rw [e0]; omega
  | ⟨1, _⟩ => show win0_10.index t 1 * 128 + 1 * (x 1).val = (x 1).val; rw [e1]; omega

/-- Window 11 (the first half of W_f1) has one block, the whole array: at every grid point the block's entry is the array's. -/
theorem block_11 (c : Dev nD) (t : Fin cfg0.N) (x : S64x128.Idx) :
    (iblk m c 11 t : Vec Ideal S64x128 .f32) x = (V m c main_v2 : S64x128.Idx → EReal) x := by
  obtain ⟨e0, e1⟩ := (by decide +kernel : ∀ t : Fin grid0.N, win0_11.index t (0 : Fin 2) = 0 ∧ win0_11.index t (1 : Fin 2) = 0) t
  unfold iblk
  rw [View.read_apply]
  show V m c main_v2 _ = V m c main_v2 x
  refine congrArg (V m c main_v2) ?_
  funext a
  apply Fin.ext
  match a with
  | ⟨0, _⟩ => show win0_11.index t 0 * 64 + 1 * (x 0).val = (x 0).val; rw [e0]; omega
  | ⟨1, _⟩ => show win0_11.index t 1 * 128 + 1 * (x 1).val = (x 1).val; rw [e1]; omega

/-- Window 12 (the second half of W_f1) has one block, the whole array: at every grid point the block's entry is the array's. -/
theorem block_12 (c : Dev nD) (t : Fin cfg0.N) (x : S64x128.Idx) :
    (iblk m c 12 t : Vec Ideal S64x128 .f32) x = (V m c main_v3 : S64x128.Idx → EReal) x := by
  obtain ⟨e0, e1⟩ := (by decide +kernel : ∀ t : Fin grid0.N, win0_12.index t (0 : Fin 2) = 0 ∧ win0_12.index t (1 : Fin 2) = 0) t
  unfold iblk
  rw [View.read_apply]
  show V m c main_v3 _ = V m c main_v3 x
  refine congrArg (V m c main_v3) ?_
  funext a
  apply Fin.ext
  match a with
  | ⟨0, _⟩ => show win0_12.index t 0 * 64 + 1 * (x 0).val = (x 0).val; rw [e0]; omega
  | ⟨1, _⟩ => show win0_12.index t 1 * 128 + 1 * (x 1).val = (x 1).val; rw [e1]; omega

/-- Window 13 (W_f2 as a [1, 1, 64] row) has one block, the whole array: at every grid point the block's entry is the array's. -/
theorem block_13 (c : Dev nD) (t : Fin cfg0.N) (x : S1x1x64.Idx) :
    (iblk m c 13 t : Vec Ideal S1x1x64 .f32) x = (V m c main_v11 : S1x1x64.Idx → EReal) x := by
  obtain ⟨e0, e1, e2⟩ := (by decide +kernel : ∀ t : Fin grid0.N, win0_13.index t (0 : Fin 3) = 0 ∧ win0_13.index t (1 : Fin 3) = 0 ∧ win0_13.index t (2 : Fin 3) = 0) t
  unfold iblk
  rw [View.read_apply]
  show V m c main_v11 _ = V m c main_v11 x
  refine congrArg (V m c main_v11) ?_
  funext a
  apply Fin.ext
  match a with
  | ⟨0, _⟩ => show win0_13.index t 0 * 1 + 1 * (x 0).val = (x 0).val; rw [e0]; omega
  | ⟨1, _⟩ => show win0_13.index t 1 * 1 + 1 * (x 1).val = (x 1).val; rw [e1]; omega
  | ⟨2, _⟩ => show win0_13.index t 2 * 64 + 1 * (x 2).val = (x 2).val; rw [e2]; omega

/-! ## The arrays laid out before the grid runs, as terms of the arguments -/

/-- The first stacked array: W_pre over columns 0 ... 255 of W_sa. -/
theorem stack_pre_sa (c : Dev nD) : (V m c main_v4 : S256x256.Idx → EReal)
    = concatenate S256x256 0 [⟨S128x256, (m ((c : Thread nD τ).loc main_arg2) : S128x256.Idx → EReal)⟩,
        ⟨S128x256, extractStridedSlice S128x256 ![0, 0] (m ((c : Thread nD τ).loc main_arg8) : S128x320.Idx → EReal) slices_S128x320_S128x256_0_0⟩]
        concatenates_S128x256_S128x256_S256x256_d0 := by
  show StableHlo.after hostOps0 (fun b => m (c, b)) (Proc.devRef .tc main_v4) = _
  after_results

/-- The second stacked array: W_q over W_k. -/
theorem stack_q_k (c : Dev nD) : (V m c main_v5 : S256x128.Idx → EReal)
    = concatenate S256x128 0 [⟨S128x128, (m ((c : Thread nD τ).loc main_arg5) : S128x128.Idx → EReal)⟩,
        ⟨S128x128, (m ((c : Thread nD τ).loc main_arg4) : S128x128.Idx → EReal)⟩]
        concatenates_S128x128_S128x128_S256x128_d0 := by
  show StableHlo.after hostOps0 (fun b => m (c, b)) (Proc.devRef .tc main_v5) = _
  after_results

/-- The third stacked array: W_se over W_sq. -/
theorem stack_se_sq (c : Dev nD) : (V m c main_v6 : S256x128.Idx → EReal)
    = concatenate S256x128 0 [⟨S128x128, (m ((c : Thread nD τ).loc main_arg6) : S128x128.Idx → EReal)⟩,
        ⟨S128x128, (m ((c : Thread nD τ).loc main_arg11) : S128x128.Idx → EReal)⟩]
        concatenates_S128x128_S128x128_S256x128_d0 := by
  show StableHlo.after hostOps0 (fun b => m (c, b)) (Proc.devRef .tc main_v6) = _
  after_results

/-- Columns 256 ... 319 of W_sa. -/
theorem band_sa (c : Dev nD) : (V m c main_v1 : S128x64.Idx → EReal)
    = extractStridedSlice S128x64 ![0, 256] (m ((c : Thread nD τ).loc main_arg8) : S128x320.Idx → EReal) slices_S128x320_S128x64_0_256 := by
  show StableHlo.after hostOps0 (fun b => m (c, b)) (Proc.devRef .tc main_v1) = _
  after_results

/-- Columns 0 ... 127 of W_f1. -/
theorem band_f1_lo (c : Dev nD) : (V m c main_v2 : S64x128.Idx → EReal)
    = extractStridedSlice S64x128 ![0, 0] (m ((c : Thread nD τ).loc main_arg13) : S64x256.Idx → EReal) slices_S64x256_S64x128_0_0 := by
  show StableHlo.after hostOps0 (fun b => m (c, b)) (Proc.devRef .tc main_v2) = _
  after_results

/-- Columns 128 ... 255 of W_f1. -/
theorem band_f1_hi (c : Dev nD) : (V m c main_v3 : S64x128.Idx → EReal)
    = extractStridedSlice S64x128 ![0, 128] (m ((c : Thread nD τ).loc main_arg13) : S64x256.Idx → EReal) slices_S64x256_S64x128_0_128 := by
  show StableHlo.after hostOps0 (fun b => m (c, b)) (Proc.devRef .tc main_v3) = _
  after_results

/-- b_pre as a row. -/
theorem row_bpre (c : Dev nD) : (V m c main_v7 : S1x1x128.Idx → EReal)
    = shapeCast S1x1x128 (m ((c : Thread nD τ).loc main_arg3) : S128.Idx → EReal) shapeCasts_S128_S1x1x128 := by
  show StableHlo.after hostOps0 (fun b => m (c, b)) (Proc.devRef .tc main_v7) = _
  after_results
  rfl

/-- b_se as a row. -/
theorem row_bse (c : Dev nD) : (V m c main_v8 : S1x1x128.Idx → EReal)
    = shapeCast S1x1x128 (m ((c : Thread nD τ).loc main_arg7) : S128.Idx → EReal) shapeCasts_S128_S1x1x128 := by
  show StableHlo.after hostOps0 (fun b => m (c, b)) (Proc.devRef .tc main_v8) = _
  after_results
  rfl

/-- b_sa as a row. -/
theorem row_bsa (c : Dev nD) : (V m c main_v9 : S1x1x128.Idx → EReal)
    = shapeCast S1x1x128 (m ((c : Thread nD τ).loc main_arg9) : S128.Idx → EReal) shapeCasts_S128_S1x1x128 := by
  show StableHlo.after hostOps0 (fun b => m (c, b)) (Proc.devRef .tc main_v9) = _
  after_results
  rfl

/-- b_sq as a row. -/
theorem row_bsq (c : Dev nD) : (V m c main_v10 : S1x1x128.Idx → EReal)
    = shapeCast S1x1x128 (m ((c : Thread nD τ).loc main_arg12) : S128.Idx → EReal) shapeCasts_S128_S1x1x128 := by
  show StableHlo.after hostOps0 (fun b => m (c, b)) (Proc.devRef .tc main_v10) = _
  after_results
  rfl

/-- W_f2 as a row. -/
theorem row_f2 (c : Dev nD) : (V m c main_v11 : S1x1x64.Idx → EReal)
    = shapeCast S1x1x64 (m ((c : Thread nD τ).loc main_arg14) : S1x64.Idx → EReal) shapeCasts_S1x64_S1x1x64 := by
  show StableHlo.after hostOps0 (fun b => m (c, b)) (Proc.devRef .tc main_v11) = _
  after_results
  rfl

/-! ## Reading the layouts at an entry -/

variable {α : Type}

/-- Row o of the upper piece of two [128, K] arrays stacked by rows. -/
theorem stacked_upper {K : Nat} (x₁ x₂ : (⟨2, ![128, K]⟩ : Shape).Idx → α)
    (h : Shape.Concatenates [⟨2, ![128, K]⟩, ⟨2, ![128, K]⟩] ⟨2, ![256, K]⟩ 0) (o : Fin 128) (i : Fin K) :
    concatenate ⟨2, ![256, K]⟩ 0 [⟨⟨2, ![128, K]⟩, x₁⟩, ⟨⟨2, ![128, K]⟩, x₂⟩] h (ix2 (Fin.castAdd 128 o : Fin 256) i) = x₁ (ix2 o i) :=
  concatenate_pair_apply_left (0 : Fin 2) x₁ x₂ h (ix2 (Fin.castAdd 128 o : Fin 256) i) rfl (ix2 o i)
    (fun b => by match b with | ⟨0, _⟩ => rfl | ⟨1, _⟩ => rfl)

/-- Row 128 + o of the stack is row o of the lower piece. -/
theorem stacked_lower {K : Nat} (x₁ x₂ : (⟨2, ![128, K]⟩ : Shape).Idx → α)
    (h : Shape.Concatenates [⟨2, ![128, K]⟩, ⟨2, ![128, K]⟩] ⟨2, ![256, K]⟩ 0) (o : Fin 128) (i : Fin K) :
    concatenate ⟨2, ![256, K]⟩ 0 [⟨⟨2, ![128, K]⟩, x₁⟩, ⟨⟨2, ![128, K]⟩, x₂⟩] h (ix2 (Fin.natAdd 128 o : Fin 256) i) = x₂ (ix2 o i) :=
  concatenate_pair_apply_right (0 : Fin 2) x₁ x₂ h (ix2 (Fin.natAdd 128 o : Fin 256) i) rfl rfl (ix2 o i)
    (fun b hb => by match b with | ⟨0, _⟩ => exact absurd rfl hb | ⟨1, _⟩ => rfl)
    (by show o.val + 128 = 128 + o.val; omega)

/-- Column i of a band of N columns that starts at column 0 of an [R, N + M] array. -/
theorem band_lo {R N M : Nat} (x : (⟨2, ![R, N + M]⟩ : Shape).Idx → α)
    (h : (⟨2, ![R, N + M]⟩ : Shape).Slices ![0, 0] ⟨2, ![R, N]⟩) (o : Fin R) (i : Fin N) :
    extractStridedSlice ⟨2, ![R, N]⟩ ![0, 0] x h (ix2 o i) = x (ix2 o (Fin.castAdd M i)) :=
  extractStridedSlice_apply ![0, 0] x h (ix2 o i) (ix2 o (Fin.castAdd M i))
    (fun a => by match a with | ⟨0, _⟩ => exact (Nat.zero_add _).symm | ⟨1, _⟩ => exact (Nat.zero_add _).symm)

/-- Column i of the band of M columns that starts at column N. -/
theorem band_hi {R N M : Nat} (x : (⟨2, ![R, N + M]⟩ : Shape).Idx → α)
    (h : (⟨2, ![R, N + M]⟩ : Shape).Slices ![0, N] ⟨2, ![R, M]⟩) (o : Fin R) (i : Fin M) :
    extractStridedSlice ⟨2, ![R, M]⟩ ![0, N] x h (ix2 o i) = x (ix2 o (Fin.natAdd N i)) :=
  extractStridedSlice_apply ![0, N] x h (ix2 o i) (ix2 o (Fin.natAdd N i))
    (fun a => by match a with | ⟨0, _⟩ => exact (Nat.zero_add _).symm | ⟨1, _⟩ => rfl)

/-- A vector of N entries laid out as a [1, 1, N] row, at (0, 0, d). -/
theorem as_row {N : Nat} (x : (⟨1, ![N]⟩ : Shape).Idx → α) (h : (⟨1, ![N]⟩ : Shape).ShapeCasts ⟨3, ![1, 1, N]⟩) (d : Fin N) :
    shapeCast ⟨3, ![1, 1, N]⟩ x h (ix3 (0 : Fin 1) (0 : Fin 1) d) = x (ix1 d) :=
  shapeCast_apply x h (ix3 (0 : Fin 1) (0 : Fin 1) d) (ix1 d)
    (by rw [Shape.rowMajor_val_one, Shape.rowMajor_val_three]
        show d.val = ((0 : Fin 1).val * 1 + (0 : Fin 1).val) * N + d.val
        simp)

/-- A [1, N] array laid out as a [1, 1, N] row, at (0, 0, d). -/
theorem as_row₂ {N : Nat} (x : (⟨2, ![1, N]⟩ : Shape).Idx → α) (h : (⟨2, ![1, N]⟩ : Shape).ShapeCasts ⟨3, ![1, 1, N]⟩) (d : Fin N) :
    shapeCast ⟨3, ![1, 1, N]⟩ x h (ix3 (0 : Fin 1) (0 : Fin 1) d) = x (ix2 (0 : Fin 1) d) :=
  shapeCast_apply x h (ix3 (0 : Fin 1) (0 : Fin 1) d) (ix2 (0 : Fin 1) d)
    (by rw [Shape.rowMajor_val_two, Shape.rowMajor_val_three]
        show (0 : Fin 1).val * N + d.val = ((0 : Fin 1).val * 1 + (0 : Fin 1).val) * N + d.val
        simp)

/-! ## The staged weights are the argument weights -/

/-- Two weight records with the same thirteen fields are the same record. -/
theorem weights_ext : ∀ {P Q : Critic.Weights}, P.Wpre = Q.Wpre → P.bpre = Q.bpre → P.Wk = Q.Wk → P.Wq = Q.Wq
    → P.Wse = Q.Wse → P.bse = Q.bse → P.Wsa = Q.Wsa → P.bsa = Q.bsa → P.Wav = Q.Wav → P.Wsq = Q.Wsq
    → P.bsq = Q.bsq → P.Wf1 = Q.Wf1 → P.Wf2 = Q.Wf2 → P = Q
  | ⟨_, _, _, _, _, _, _, _, _, _, _, _, _⟩, ⟨_, _, _, _, _, _, _, _, _, _, _, _, _⟩,
    rfl, rfl, rfl, rfl, rfl, rfl, rfl, rfl, rfl, rfl, rfl, rfl, rfl => rfl

/-- A function given piecewise on the first M and the last N of M + N places is `f` when each piece is `f` there. -/
theorem addCases_eq {M N : Nat} (l : Fin M → α) (r : Fin N → α) (f : Fin (M + N) → α)
    (hl : ∀ i, l i = f (Fin.castAdd N i)) (hr : ∀ i, r i = f (Fin.natAdd M i)) (k : Fin (M + N)) :
    Fin.addCases (motive := fun _ => α) l r k = f k := by
  induction k using Fin.addCases with
  | left i => rw [Fin.addCases_left]; exact hl i
  | right i => rw [Fin.addCases_right]; exact hr i

/-- Twelve blocks whose entries are the argument arrays' entries, each where the layout puts it, hold the argument
    weights: the stacked blocks' upper and lower halves, the two bands of W_sa and of W_f1 side by side, the rows. -/
theorem blkP_of (a : Critic.Args) (x2 : Vec Ideal S256x256 .f32) (x3 : Vec Ideal S1x1x128 .f32) (x4 : Vec Ideal S256x128 .f32)
    (x5 : Vec Ideal S256x128 .f32) (x6 : Vec Ideal S1x1x128 .f32) (x7 : Vec Ideal S1x1x128 .f32) (x8 : Vec Ideal S128x64 .f32)
    (x9 : Vec Ideal S1x1x128 .f32) (x10 : Vec Ideal S128x128 .f32) (x11 : Vec Ideal S64x128 .f32) (x12 : Vec Ideal S64x128 .f32)
    (x13 : Vec Ideal S1x1x64 .f32)
    (hWpre : ∀ (o : Fin 128) (i : Fin 256), x2 (ix2 (Fin.castAdd 128 o : Fin 256) i) = a.Wpre (ix2 o i))
    (hbpre : ∀ d : Fin 128, x3 (ix3 (0 : Fin 1) (0 : Fin 1) d) = a.bpre (ix1 d))
    (hWk : ∀ o d : Fin 128, x4 (ix2 (Fin.natAdd 128 o : Fin 256) d) = a.Wk (ix2 o d))
    (hWq : ∀ o d : Fin 128, x4 (ix2 (Fin.castAdd 128 o : Fin 256) d) = a.Wq (ix2 o d))
    (hWse : ∀ o d : Fin 128, x5 (ix2 (Fin.castAdd 128 o : Fin 256) d) = a.Wse (ix2 o d))
    (hbse : ∀ d : Fin 128, x6 (ix3 (0 : Fin 1) (0 : Fin 1) d) = a.bse (ix1 d))
    (hWsaS : ∀ (o : Fin 128) (i : Fin 256), x2 (ix2 (Fin.natAdd 128 o : Fin 256) i) = a.Wsa (ix2 o (Fin.castAdd 64 i)))
    (hWsaA : ∀ (o : Fin 128) (i : Fin 64), x8 (ix2 o i) = a.Wsa (ix2 o (Fin.natAdd 256 i)))
    (hbsa : ∀ d : Fin 128, x9 (ix3 (0 : Fin 1) (0 : Fin 1) d) = a.bsa (ix1 d))
    (hWav : ∀ o d : Fin 128, x10 (ix2 o d) = a.Wav (ix2 o d))
    (hWsq : ∀ o d : Fin 128, x5 (ix2 (Fin.natAdd 128 o : Fin 256) d) = a.Wsq (ix2 o d))
    (hbsq : ∀ d : Fin 128, x7 (ix3 (0 : Fin 1) (0 : Fin 1) d) = a.bsq (ix1 d))
    (hWf1l : ∀ (o : Fin 64) (i : Fin 128), x11 (ix2 o i) = a.Wf1 (ix2 o (Fin.castAdd 128 i)))
    (hWf1h : ∀ (o : Fin 64) (i : Fin 128), x12 (ix2 o i) = a.Wf1 (ix2 o (Fin.natAdd 128 i)))
    (hWf2 : ∀ o : Fin 64, x13 (ix3 (0 : Fin 1) (0 : Fin 1) o) = a.Wf2 (ix2 (0 : Fin 1) o)) :
    KPay.blkP x2 x3 x4 x5 x6 x7 x8 x9 x10 x11 x12 x13 = a.P :=
  weights_ext (funext fun o => funext fun i => hWpre o i) (funext hbpre) (funext fun o => funext fun d => hWk o d)
    (funext fun o => funext fun d => hWq o d) (funext fun o => funext fun d => hWse o d) (funext hbse)
    (funext fun o => funext fun k => addCases_eq (M := 256) (N := 64) (fun i => x2 (ix2 (Fin.natAdd 128 o : Fin 256) i))
      (fun i => x8 (ix2 o i)) (fun k => a.Wsa (ix2 o k)) (hWsaS o) (hWsaA o) k)
    (funext hbsa) (funext fun o => funext fun d => hWav o d) (funext fun o => funext fun d => hWsq o d) (funext hbsq)
    (funext fun o => funext fun k => addCases_eq (M := 128) (N := 128) (fun i => x11 (ix2 o i)) (fun i => x12 (ix2 o i))
      (fun k => a.Wf1 (ix2 o k)) (hWf1l o) (hWf1h o) k)
    (funext hWf2)

/-- At every grid point the staged weights are the argument weights. -/
theorem blkP_eq (c : Dev nD) (t : Fin cfg0.N) :
    KPay.blkP (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) = (KValue.argsOf m c).P :=
  blkP_of (KValue.argsOf m c) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)
    (fun o i => (block_2 m c t (ix2 (Fin.castAdd 128 o : Fin 256) i)).trans
      ((congrFun (stack_pre_sa m c) (ix2 (Fin.castAdd 128 o : Fin 256) i)).trans (stacked_upper _ _ _ o i)))
    (fun d => (block_3 m c t (ix3 (0 : Fin 1) (0 : Fin 1) d)).trans
      ((congrFun (row_bpre m c) (ix3 (0 : Fin 1) (0 : Fin 1) d)).trans (as_row _ _ d)))
    (fun o d => (block_4 m c t (ix2 (Fin.natAdd 128 o : Fin 256) d)).trans
      ((congrFun (stack_q_k m c) (ix2 (Fin.natAdd 128 o : Fin 256) d)).trans (stacked_lower _ _ _ o d)))
    (fun o d => (block_4 m c t (ix2 (Fin.castAdd 128 o : Fin 256) d)).trans
      ((congrFun (stack_q_k m c) (ix2 (Fin.castAdd 128 o : Fin 256) d)).trans (stacked_upper _ _ _ o d)))
    (fun o d => (block_5 m c t (ix2 (Fin.castAdd 128 o : Fin 256) d)).trans
      ((congrFun (stack_se_sq m c) (ix2 (Fin.castAdd 128 o : Fin 256) d)).trans (stacked_upper _ _ _ o d)))
    (fun d => (block_6 m c t (ix3 (0 : Fin 1) (0 : Fin 1) d)).trans
      ((congrFun (row_bse m c) (ix3 (0 : Fin 1) (0 : Fin 1) d)).trans (as_row _ _ d)))
    (fun o i => (block_2 m c t (ix2 (Fin.natAdd 128 o : Fin 256) i)).trans
      ((congrFun (stack_pre_sa m c) (ix2 (Fin.natAdd 128 o : Fin 256) i)).trans
        ((stacked_lower _ _ _ o i).trans (band_lo (N := 256) (M := 64) _ _ o i))))
    (fun o i => (block_8 m c t (ix2 o i)).trans
      ((congrFun (band_sa m c) (ix2 o i)).trans (band_hi (N := 256) (M := 64) _ _ o i)))
    (fun d => (block_9 m c t (ix3 (0 : Fin 1) (0 : Fin 1) d)).trans
      ((congrFun (row_bsa m c) (ix3 (0 : Fin 1) (0 : Fin 1) d)).trans (as_row _ _ d)))
    (fun o d => (block_10 m c t (ix2 o d)).trans (congrFun (V_main_arg10 m c) (ix2 o d)))
    (fun o d => (block_5 m c t (ix2 (Fin.natAdd 128 o : Fin 256) d)).trans
      ((congrFun (stack_se_sq m c) (ix2 (Fin.natAdd 128 o : Fin 256) d)).trans (stacked_lower _ _ _ o d)))
    (fun d => (block_7 m c t (ix3 (0 : Fin 1) (0 : Fin 1) d)).trans
      ((congrFun (row_bsq m c) (ix3 (0 : Fin 1) (0 : Fin 1) d)).trans (as_row _ _ d)))
    (fun o i => (block_11 m c t (ix2 o i)).trans
      ((congrFun (band_f1_lo m c) (ix2 o i)).trans (band_lo (N := 128) (M := 128) _ _ o i)))
    (fun o i => (block_12 m c t (ix2 o i)).trans
      ((congrFun (band_f1_hi m c) (ix2 o i)).trans (band_hi (N := 128) (M := 128) _ _ o i)))
    (fun o => (block_13 m c t (ix3 (0 : Fin 1) (0 : Fin 1) o)).trans
      ((congrFun (row_f2 m c) (ix3 (0 : Fin 1) (0 : Fin 1) o)).trans (as_row₂ _ _ o)))

/-- Batch element b of grid point t's states block is batch element 32 t + b of the states argument. -/
theorem blkS_eq (c : Dev nD) (t : Fin cfg0.N) (b : Fin 32) :
    KPay.blkS (iblk m c 0 t) b
      = (KValue.argsOf m c).S ⟨32 * t.val + b.val, by have := point_lt t; have := b.isLt; omega⟩ :=
  funext fun n => funext fun i => states_block m c t (ix3 b n i) (ix3 (row t b) n i) rfl rfl rfl

/-- Batch element b of grid point t's actions block is batch element 32 t + b of the actions argument. -/
theorem blkA_eq (c : Dev nD) (t : Fin cfg0.N) (b : Fin 32) :
    KPay.blkA (iblk m c 1 t) b
      = (KValue.argsOf m c).A ⟨32 * t.val + b.val, by have := point_lt t; have := b.isLt; omega⟩ :=
  funext fun n => funext fun i => actions_block m c t (ix3 b n i) (ix3 (row t b) n i) rfl rfl rfl

end Cert.KernelIdeal.KBlocks

end
-- ==== Proof.KValue.lean ====
/-
  The kernel program's three results as whole arrays.

  The grid has 64 points. Point t sees batch elements 32 t … 32 t + 31: its blocks of the states and of the actions
  are those 32 batch elements, the weights are whole at every point. What the body leaves at entry (b, n, ·) of an
  output block is the one-batch-element critic of the block's batch element b, that is of batch element 32 t + b of
  the arguments. So each output block is the restriction, to rows 32 t … 32 t + 31 of the first axis, of ONE
  whole-array function of the arguments: the two attention arrays, and the [2048, 64] array of values. Batch row r
  lies in the block of point r / 32, so the blocks cover each array and the array ends holding that function.
  The value result is the [2048, 64] array read as [2048, 64, 1]: its entry (b, n, 0) is the entry (b, n).
-/
import proofs.«421273_j77558519431826_3_alg».proof.Proof.Gen.KernelIdeal.Frame
import proofs.«421273_j77558519431826_3_alg».proof.Proof.KPay
import proofs.«421273_j77558519431826_3_alg».proof.Proof.KArgs
import proofs.«421273_j77558519431826_3_alg».proof.Proof.KBlocks
import proofs.«421273_j77558519431826_3_alg».proof.Proof.Whole
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Idealize.ShloMosaic.ValueIdx Cert.KernelIdeal Cert.KernelIdeal.Gen

variable (m : (ℓ : Loc nD τ sig) → Buf (Elt Ideal) ℓ) (ρ : Dev nD → PrngReg)

/-- Which block each point writes: block t along the batch axis, block 0 along every other axis. -/
theorem idx_facts : ∀ t : Fin cfg0.N,
    win0_14.index t (0 : Fin 2) = t.val ∧ win0_14.index t (1 : Fin 2) = 0
    ∧ win0_15.index t (0 : Fin 3) = t.val ∧ win0_15.index t (1 : Fin 3) = 0 ∧ win0_15.index t (2 : Fin 3) = 0
    ∧ win0_16.index t (0 : Fin 3) = t.val ∧ win0_16.index t (1 : Fin 3) = 0 ∧ win0_16.index t (2 : Fin 3) = 0 :=
  (by decide +kernel : ∀ t : Fin grid0.N, _)

/-- The value of every agent of every batch element, as a [2048, 64] array. -/
def Gv (a : Critic.Args) : (⟨2, ![2048, 64]⟩ : Shape).Idx → EReal :=
  fun j => Critic.value a.P (a.S (j 0)) (a.A (j 0)) (j 1)

section Point
variable (a : Critic.Args) (t : Fin cfg0.N)
  (x0 : Vec Ideal S32x64x256 .f32) (x1 : Vec Ideal S32x64x64 .f32) (x2 : Vec Ideal S256x256 .f32) (x3 : Vec Ideal S1x1x128 .f32) (x4 : Vec Ideal S256x128 .f32) (x5 : Vec Ideal S256x128 .f32) (x6 : Vec Ideal S1x1x128 .f32) (x7 : Vec Ideal S1x1x128 .f32) (x8 : Vec Ideal S128x64 .f32) (x9 : Vec Ideal S1x1x128 .f32) (x10 : Vec Ideal S128x128 .f32) (x11 : Vec Ideal S64x128 .f32) (x12 : Vec Ideal S64x128 .f32) (x13 : Vec Ideal S1x1x64 .f32)
  (hP : KPay.blkP x2 x3 x4 x5 x6 x7 x8 x9 x10 x11 x12 x13 = a.P)
  (hS : ∀ b : Fin 32, KPay.blkS x0 b = a.S (KBlocks.row t b))
  (hA : ∀ b : Fin 32, KPay.blkA x1 b = a.A (KBlocks.row t b))
include hP hS

/-- An entry of the first attention block of a point whose blocks hold the weights and batch elements 32 t + b: the
    first attention array at the index with the same agent coordinates and batch row 32 t + b. -/
theorem blk15_apply (b : Fin 32) (n j : Fin 64) (i : S2048x64x64.Idx)
    (h0 : (i 0).val = 32 * t.val + b.val) (h1 : (i 1).val = n.val) (h2 : (i 2).val = j.val) :
    out0_15 (F := Ideal) x0 x1 x2 x3 x4 x5 x6 x7 x8 x9 x10 x11 x12 x13 (ix3 b n j) = Critic.Gw1 a i := by
  rw [KPay.out0_15_apply, hP, hS]
  unfold Critic.Gw1
  have e0 : KBlocks.row t b = i 0 := Fin.ext h0.symm
  have e1 : n = i 1 := Fin.ext h1.symm
  have e2 : j = i 2 := Fin.ext h2.symm
  rw [e0, e1, e2]

/-- The same for the second attention block. -/
theorem blk16_apply (b : Fin 32) (n j : Fin 64) (i : S2048x64x64.Idx)
    (h0 : (i 0).val = 32 * t.val + b.val) (h1 : (i 1).val = n.val) (h2 : (i 2).val = j.val) :
    out0_16 (F := Ideal) x0 x1 x2 x3 x4 x5 x6 x7 x8 x9 x10 x11 x12 x13 (ix3 b n j) = Critic.Gw2 a i := by
  rw [KPay.out0_16_apply, hP, hS]
  unfold Critic.Gw2
  have e0 : KBlocks.row t b = i 0 := Fin.ext h0.symm
  have e1 : n = i 1 := Fin.ext h1.symm
  have e2 : j = i 2 := Fin.ext h2.symm
  rw [e0, e1, e2]

include hA in
/-- The same for the value block, which also reads the action rows. -/
theorem blk14_apply (b : Fin 32) (n : Fin 64) (i : S2048x64.Idx)
    (h0 : (i 0).val = 32 * t.val + b.val) (h1 : (i 1).val = n.val) :
    out0_14 (F := Ideal) x0 x1 x2 x3 x4 x5 x6 x7 x8 x9 x10 x11 x12 x13 (ix2 b n) = Gv a i := by
  rw [KPay.out0_14_apply, hP, hS, hA]
  have e0 : KBlocks.row t b = i 0 := Fin.ext h0.symm
  have e1 : n = i 1 := Fin.ext h1.symm
  rw [e0, e1]
  rfl

end Point

/-! ## What a point writes back -/

/-- Point t writes back rows 32 t … 32 t + 31 of the first attention array of the arguments. -/
theorem flushed15_eq (c : Dev nD) (t : Fin cfg0.N) :
    (dats m 0 c).flushed 15 t = ((cfg0.win 15).blk t).view.read (Elt Ideal) (Critic.Gw1 (argsOf m c)) := by
  show (cfg0.win 15).cut (grid0.coords t) ((dats m 0 c).after 15 t) = _
  rw [after0_15]
  obtain ⟨-, -, f0, f1, f2, -, -, -⟩ := idx_facts t
  funext y
  rw [View.read_apply]
  rw [eq_ix3 (n0 := 32) (n1 := 64) (n2 := 64) y]
  refine blk15_apply (argsOf m c) t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (KBlocks.blkP_eq m c t) (fun b => KBlocks.blkS_eq m c t b) (y 0) (y 1) (y 2) _ ?_ ?_ ?_
  · show win0_15.index t (0 : Fin 3) * 32 + 1 * (y 0).val = 32 * t.val + (y 0).val
    rw [f0]; omega
  · show win0_15.index t (1 : Fin 3) * 64 + 1 * (y 1).val = (y 1).val
    rw [f1]; omega
  · show win0_15.index t (2 : Fin 3) * 64 + 1 * (y 2).val = (y 2).val
    rw [f2]; omega

/-- Point t writes back rows 32 t … 32 t + 31 of the second attention array of the arguments. -/
theorem flushed16_eq (c : Dev nD) (t : Fin cfg0.N) :
    (dats m 0 c).flushed 16 t = ((cfg0.win 16).blk t).view.read (Elt Ideal) (Critic.Gw2 (argsOf m c)) := by
  show (cfg0.win 16).cut (grid0.coords t) ((dats m 0 c).after 16 t) = _
  rw [after0_16]
  obtain ⟨-, -, -, -, -, f0, f1, f2⟩ := idx_facts t
  funext y
  rw [View.read_apply]
  rw [eq_ix3 (n0 := 32) (n1 := 64) (n2 := 64) y]
  refine blk16_apply (argsOf m c) t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (KBlocks.blkP_eq m c t) (fun b => KBlocks.blkS_eq m c t b) (y 0) (y 1) (y 2) _ ?_ ?_ ?_
  · show win0_16.index t (0 : Fin 3) * 32 + 1 * (y 0).val = 32 * t.val + (y 0).val
    rw [f0]; omega
  · show win0_16.index t (1 : Fin 3) * 64 + 1 * (y 1).val = (y 1).val
    rw [f1]; omega
  · show win0_16.index t (2 : Fin 3) * 64 + 1 * (y 2).val = (y 2).val
    rw [f2]; omega

/-- Point t writes back rows 32 t … 32 t + 31 of the [2048, 64] array of values. -/
theorem flushed14_eq (c : Dev nD) (t : Fin cfg0.N) :
    (dats m 0 c).flushed 14 t = ((cfg0.win 14).blk t).view.read (Elt Ideal) (Gv (argsOf m c)) := by
  show (cfg0.win 14).cut (grid0.coords t) ((dats m 0 c).after 14 t) = _
  rw [after0_14]
  obtain ⟨f0, f1, -, -, -, -, -, -⟩ := idx_facts t
  funext y
  rw [View.read_apply]
  rw [eq_ix2 (n0 := 32) (n1 := 64) y]
  refine blk14_apply (argsOf m c) t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (KBlocks.blkP_eq m c t) (fun b => KBlocks.blkS_eq m c t b) (fun b => KBlocks.blkA_eq m c t b) (y 0) (y 1) _ ?_ ?_
  · show win0_14.index t (0 : Fin 2) * 32 + 1 * (y 0).val = 32 * t.val + (y 0).val
    rw [f0]; omega
  · show win0_14.index t (1 : Fin 2) * 64 + 1 * (y 1).val = (y 1).val
    rw [f1]; omega

/-! ## The blocks cover the arrays -/

/-- An index is in point t's block iff each coordinate is in the block's range on its axis. -/
theorem mem_blk15 (t : Fin cfg0.N) (i : S2048x64x64.Idx) :
    i ∈ ((cfg0.win 15).blk t).view.set ↔ ∀ a : Fin 3, win0_15.index t a * S32x64x64.size a ≤ (i a).val ∧ (i a).val < win0_15.index t a * S32x64x64.size a + S32x64x64.size a := by
  show i ∈ ((View.whole main_v12_1).slice (win0_15.rect t)).set ↔ _
  rw [View.set_slice_whole, Rect.mem_set_unit]
  exact Iff.rfl

/-- Batch row r is in the block of point r / 32. -/
theorem cover15 (i : S2048x64x64.Idx) : ∃ t : Fin cfg0.N, (cfg0.win 15).flush t = true ∧ i ∈ ((cfg0.win 15).blk t).view.set := by
  have hN : cfg0.N = 64 := N_0
  have hi0 : (i 0).val < 2048 := (i 0).isLt
  have hi1 : (i 1).val < 64 := (i 1).isLt
  have hi2 : (i 2).val < 64 := (i 2).isLt
  refine ⟨⟨(i 0).val / 32, by omega⟩, flush0_15 _, ?_⟩
  rw [mem_blk15]
  obtain ⟨-, -, f0, f1, f2, -, -, -⟩ := idx_facts ⟨(i 0).val / 32, by omega⟩
  intro a
  match a with
  | ⟨0, _⟩ => show win0_15.index _ (0 : Fin 3) * 32 ≤ (i 0).val ∧ (i 0).val < win0_15.index _ (0 : Fin 3) * 32 + 32; rw [f0]; dsimp only; omega
  | ⟨1, _⟩ => show win0_15.index _ (1 : Fin 3) * 64 ≤ (i 1).val ∧ (i 1).val < win0_15.index _ (1 : Fin 3) * 64 + 64; rw [f1]; omega
  | ⟨2, _⟩ => show win0_15.index _ (2 : Fin 3) * 64 ≤ (i 2).val ∧ (i 2).val < win0_15.index _ (2 : Fin 3) * 64 + 64; rw [f2]; omega

/-- The first attention array after the last point. -/
theorem final15 (c : Dev nD) : (dats m 0 c).arrAt 15 cfg0.N = Critic.Gw1 (argsOf m c) :=
  (dats m 0 c).arrAt_eq_of_cover 15 (Critic.Gw1 (argsOf m c)) (fun t _ => flushed15_eq m c t) cover15

/-- An index is in point t's block iff each coordinate is in the block's range on its axis. -/
theorem mem_blk16 (t : Fin cfg0.N) (i : S2048x64x64.Idx) :
    i ∈ ((cfg0.win 16).blk t).view.set ↔ ∀ a : Fin 3, win0_16.index t a * S32x64x64.size a ≤ (i a).val ∧ (i a).val < win0_16.index t a * S32x64x64.size a + S32x64x64.size a := by
  show i ∈ ((View.whole main_v12_2).slice (win0_16.rect t)).set ↔ _
  rw [View.set_slice_whole, Rect.mem_set_unit]
  exact Iff.rfl

/-- Batch row r is in the block of point r / 32. -/
theorem cover16 (i : S2048x64x64.Idx) : ∃ t : Fin cfg0.N, (cfg0.win 16).flush t = true ∧ i ∈ ((cfg0.win 16).blk t).view.set := by
  have hN : cfg0.N = 64 := N_0
  have hi0 : (i 0).val < 2048 := (i 0).isLt
  have hi1 : (i 1).val < 64 := (i 1).isLt
  have hi2 : (i 2).val < 64 := (i 2).isLt
  refine ⟨⟨(i 0).val / 32, by omega⟩, flush0_16 _, ?_⟩
  rw [mem_blk16]
  obtain ⟨-, -, -, -, -, f0, f1, f2⟩ := idx_facts ⟨(i 0).val / 32, by omega⟩
  intro a
  match a with
  | ⟨0, _⟩ => show win0_16.index _ (0 : Fin 3) * 32 ≤ (i 0).val ∧ (i 0).val < win0_16.index _ (0 : Fin 3) * 32 + 32; rw [f0]; dsimp only; omega
  | ⟨1, _⟩ => show win0_16.index _ (1 : Fin 3) * 64 ≤ (i 1).val ∧ (i 1).val < win0_16.index _ (1 : Fin 3) * 64 + 64; rw [f1]; omega
  | ⟨2, _⟩ => show win0_16.index _ (2 : Fin 3) * 64 ≤ (i 2).val ∧ (i 2).val < win0_16.index _ (2 : Fin 3) * 64 + 64; rw [f2]; omega

/-- The second attention array after the last point. -/
theorem final16 (c : Dev nD) : (dats m 0 c).arrAt 16 cfg0.N = Critic.Gw2 (argsOf m c) :=
  (dats m 0 c).arrAt_eq_of_cover 16 (Critic.Gw2 (argsOf m c)) (fun t _ => flushed16_eq m c t) cover16

/-- An index is in point t's block iff each coordinate is in the block's range on its axis. -/
theorem mem_blk14 (t : Fin cfg0.N) (i : S2048x64.Idx) :
    i ∈ ((cfg0.win 14).blk t).view.set ↔ ∀ a : Fin 2, win0_14.index t a * S32x64.size a ≤ (i a).val ∧ (i a).val < win0_14.index t a * S32x64.size a + S32x64.size a := by
  show i ∈ ((View.whole main_v12_0).slice (win0_14.rect t)).set ↔ _
  rw [View.set_slice_whole, Rect.mem_set_unit]
  exact Iff.rfl

/-- Batch row r is in the block of point r / 32. -/
theorem cover14 (i : S2048x64.Idx) : ∃ t : Fin cfg0.N, (cfg0.win 14).flush t = true ∧ i ∈ ((cfg0.win 14).blk t).view.set := by
  have hN : cfg0.N = 64 := N_0
  have hi0 : (i 0).val < 2048 := (i 0).isLt
  have hi1 : (i 1).val < 64 := (i 1).isLt
  refine ⟨⟨(i 0).val / 32, by omega⟩, flush0_14 _, ?_⟩
  rw [mem_blk14]
  obtain ⟨f0, f1, -, -, -, -, -, -⟩ := idx_facts ⟨(i 0).val / 32, by omega⟩
  intro a
  match a with
  | ⟨0, _⟩ => show win0_14.index _ (0 : Fin 2) * 32 ≤ (i 0).val ∧ (i 0).val < win0_14.index _ (0 : Fin 2) * 32 + 32; rw [f0]; dsimp only; omega
  | ⟨1, _⟩ => show win0_14.index _ (1 : Fin 2) * 64 ≤ (i 1).val ∧ (i 1).val < win0_14.index _ (1 : Fin 2) * 64 + 64; rw [f1]; omega

/-- The [2048, 64] array of values after the last point. -/
theorem final14 (c : Dev nD) : (dats m 0 c).arrAt 14 cfg0.N = Gv (argsOf m c) :=
  (dats m 0 c).arrAt_eq_of_cover 14 (Gv (argsOf m c)) (fun t _ => flushed14_eq m c t) cover14

/-! ## The value array: the host's reshape of the [2048, 64] array -/

/-- The [2048, 64] array of values read as [2048, 64, 1]: the last coordinate is 0 and row-major positions agree. -/
theorem reshape_val (a : Critic.Args) :
    shapeCast S2048x64x1 (Gv a) shapeCasts_S2048x64_S2048x64x1 = Critic.Gval a := by
  funext i
  obtain ⟨b, n, u, rfl⟩ : ∃ (b : Fin 2048) (n : Fin 64) (u : Fin 1), i = ix3 b n u := ⟨i 0, i 1, i 2, eq_ix3 i⟩
  rw [shapeCast_apply _ _ (ix3 b n u) (ix2 b n) (by
    rw [Shape.rowMajor_val_two, Shape.rowMajor_val_three]
    have : u.val = 0 := by have := u.isLt; omega
    simp [this])]
  rfl

/-- What the reshape after the region leaves in the value result. -/
theorem val_eq (c : Dev nD) :
    Pipeline.afterTail₀ cfgs (dats m) 0 (V0 m) [hostOps1] c main_v13 = Critic.Gval (argsOf m c) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12_0)
      = Gv (argsOf m c) :=
    (Pipeline.withArrays_arr spec0 launch0.win.arr_inj c _ _ 14).trans (final14 m c)
  show shapeCast S2048x64x1 (Pipeline.withArrays (cfgs 0).spec c (V0 m c) (fun w => (dats m 0 c).arrAt w (cfgs 0).N) (Proc.devRef .tc main_v12_0)) shapeCasts_S2048x64_S2048x64x1 = _
  rw [e]
  exact reshape_val (argsOf m c)

/-! ## The run -/

/-- Every run of the kernel program ends with the value result, the two attention results at the critic of the
    argument arrays, and the fifteen argument arrays as they were. -/
theorem run :
    θ_run (defs (F := Ideal)) (onTc (τ := τ) (main (F := Ideal))) ⟨m, fun _ => 0, ρ⟩ fun r => ∀ c : Dev nD,
      r.2.mem ((c.tc : Thread nD τ).loc main_v13) = Critic.Gval (argsOf m c)
      ∧ r.2.mem ((c.tc : Thread nD τ).loc main_v12_1) = Critic.Gw1 (argsOf m c)
      ∧ r.2.mem ((c.tc : Thread nD τ).loc main_v12_2) = Critic.Gw2 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨
      ((h c).2 main_v13 (Pipeline.mem_restRefs_of main_v13 (by decide) (by decide))).trans (val_eq m c),
      ((h c).1 15).trans (final15 m c),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.KernelIdeal.KValue

end
-- ==== Proof.RStages.lean ====
/-
  The host program's arrays, stage by stage.

  Each definition below is the host program's own chain of operations for one named value (the number after % is the
  host program's), as a function of the fifteen argument arrays: the rectified affine layers, the two softmaxes, the
  attention products, the concatenations and the head. Nothing is evaluated here: a stage is the operations applied to
  earlier stages, so that what the program leaves in a result buffer is the stage by unfolding alone.
-/
import proofs.«421273_j77558519431826_3_alg».proof.Proof.Gen.ReferenceIdeal
import proofs.«421273_j77558519431826_3_alg».proof.Proof.Whole

noncomputable section

namespace Cert.ReferenceIdeal.Stages

open Cert.ReferenceIdeal Cert.ReferenceIdeal.Facts₀ Idealize.ShloMosaic

/-- The leaky rectifier on a [2048, 64, 128] array: the comparison with the zero word, the product with the slope
    word, the selection between the array and that product. -/
def lreluH (x : FVec Ideal S2048x64x128 .f32) : FVec Ideal S2048x64x128 .f32 :=
  select (cmpf .oge x (broadcastInDim S2048x64x128 ![] bcast_S_S2048x64x128 (constant (F := Ideal) S_ .f32 0x00000000#32))) x
    (mulf (broadcastInDim S2048x64x128 ![] bcast_S_S2048x64x128 (constant (F := Ideal) S_ .f32 0x3C23D70A#32)) x)

/-- The leaky rectifier on a [2048, 64, 64] array. -/
def lreluH64 (x : FVec Ideal S2048x64x64 .f32) : FVec Ideal S2048x64x64 .f32 :=
  select (cmpf .oge x (broadcastInDim S2048x64x64 ![] bcast_S_S2048x64x64 (constant (F := Ideal) S_ .f32 0x00000000#32))) x
    (mulf (broadcastInDim S2048x64x64 ![] bcast_S_S2048x64x64 (constant (F := Ideal) S_ .f32 0x3C23D70A#32)) x)

/-- A bias of 128 features spread over every batch element and agent: [128] to [1, 1, 128] to [2048, 64, 128]. -/
def biasH (b : FVec Ideal S128 .f32) : FVec Ideal S2048x64x128 .f32 :=
  broadcastInDim S2048x64x128 ![0, 1, 2] bcast_S1x1x128_S2048x64x128_0_1_2
    (broadcastInDim S1x1x128 ![2] bcast_S128_S1x1x128_2 b)

/-- The scaled logits of embeddings `x`: queries `x · Wqᵀ`, keys `x · Wkᵀ`, their inner products per batch element
    over the 128 features, times the scale word. -/
def logitsH (x : FVec Ideal S2048x64x128 .f32) (Wq Wk : FVec Ideal S128x128 .f32) : FVec Ideal S2048x64x64 .f32 :=
  mulf
    (Host.dotGeneral (φ₁ := .f32) (φ₂ := .f32) dot_S2048x64x128_S2048x64x128_S2048x64x64_2_2_1_1_0_0 none
      (Host.dotGeneral (φ₁ := .f32) (φ₂ := .f32) dot_S2048x64x128_S128x128_S2048x64x128_2_1_01_0_n_n none x Wq)
      (Host.dotGeneral (φ₁ := .f32) (φ₂ := .f32) dot_S2048x64x128_S128x128_S2048x64x128_2_1_01_0_n_n none x Wk))
    (broadcastInDim S2048x64x64 ![] bcast_S_S2048x64x64 (constant (F := Ideal) S_ .f32 0x3DB504F3#32))

/-- The row maxima of `z` spread back over the rows: the maximum over the last axis seeded with minus infinity,
    once more compared with minus infinity, then [2048, 64] to [2048, 64, 1] to [2048, 64, 64]. -/
def rowMaxH (z : FVec Ideal S2048x64x64 .f32) : FVec Ideal S2048x64x64 .f32 :=
  broadcastInDim S2048x64x64 ![0, 1, 2] bcast_S2048x64x1_S2048x64x64_0_1_2
    (broadcastInDim S2048x64x1 ![0, 1] bcast_S2048x64_S2048x64x1_0_1
      (maximumf (broadcastInDim S2048x64 ![] bcast_S_S2048x64 (constant (F := Ideal) S_ .f32 0xFF800000#32))
        (Host.reduce FloatOps.maximumf z (constant (F := Ideal) S_ .f32 0xFF800000#32)
          reducesTo_S2048x64x64_S2048x64_d2 h_S_)))

/-- The exponentials of the entries of `z` less their row's maximum. -/
def expH (z : FVec Ideal S2048x64x64 .f32) : FVec Ideal S2048x64x64 .f32 :=
  Host.exp (subf z (rowMaxH z))

/-- The softmax over the last axis: the exponentials over their row sums, the sums seeded with the zero word and
    spread back over the rows. -/
def softmaxH (z : FVec Ideal S2048x64x64 .f32) : FVec Ideal S2048x64x64 .f32 :=
  Host.divf (expH z)
    (broadcastInDim S2048x64x64 ![0, 1, 2] bcast_S2048x64x1_S2048x64x64_0_1_2
      (broadcastInDim S2048x64x1 ![0, 1] bcast_S2048x64_S2048x64x1_0_1
        (Host.reduceAdd (expH z) (constant (F := Ideal) S_ .f32 0x00000000#32)
          reducesTo_S2048x64x64_S2048x64_d2 h_S_)))

/-- %4: the embeddings, the rectified affine image of the states. -/
def sePre (a : Critic.Args) : FVec Ideal S2048x64x128 .f32 :=
  lreluH (addf
    (Host.dotGeneral (φ₁ := .f32) (φ₂ := .f32) dot_S2048x64x256_S128x256_S2048x64x128_2_1_01_0_n_n none
      (a.states : FVec Ideal S2048x64x256 .f32) (a.Wpre : FVec Ideal S128x256 .f32))
    (biasH a.bpre))

/-- %20: the first attention array, the softmax of the embeddings' scaled logits. -/
def w1 (a : Critic.Args) : FVec Ideal S2048x64x64 .f32 :=
  softmaxH (logitsH (sePre a) a.Wq a.Wk)

/-- %21: the embeddings mixed by the first attention array. -/
def avPre (a : Critic.Args) : FVec Ideal S2048x64x128 .f32 :=
  Host.dotGeneral (φ₁ := .f32) (φ₂ := .f32) dot_S2048x64x64_S2048x64x128_S2048x64x128_2_1_1_2_0_0 none (w1 a) (sePre a)

/-- %26: the re-embedding that feeds the second attention. -/
def se (a : Critic.Args) : FVec Ideal S2048x64x128 .f32 :=
  lreluH (addf
    (Host.dotGeneral (φ₁ := .f32) (φ₂ := .f32) dot_S2048x64x128_S128x128_S2048x64x128_2_1_01_0_n_n none (avPre a)
      (a.Wse : FVec Ideal S128x128 .f32))
    (biasH a.bse))

/-- %42: the second attention array. -/
def w2 (a : Critic.Args) : FVec Ideal S2048x64x64 .f32 :=
  softmaxH (logitsH (se a) a.Wq a.Wk)

/-- %48: the observation-action embedding, on the states and the actions laid side by side. -/
def oae (a : Critic.Args) : FVec Ideal S2048x64x128 .f32 :=
  lreluH (addf
    (Host.dotGeneral (φ₁ := .f32) (φ₂ := .f32) dot_S2048x64x320_S128x320_S2048x64x128_2_1_01_0_n_n none
      (concatenate (α := Ideal .f32) S2048x64x320 2 [⟨S2048x64x256, (a.states : FVec Ideal S2048x64x256 .f32)⟩,
          ⟨S2048x64x64, (a.actions : FVec Ideal S2048x64x64 .f32)⟩]
        concatenates_S2048x64x256_S2048x64x64_S2048x64x320_d2)
      (a.Wsa : FVec Ideal S128x320 .f32))
    (biasH a.bsa))

/-- %49: the values the second attention mixes. -/
def av (a : Critic.Args) : FVec Ideal S2048x64x128 .f32 :=
  Host.dotGeneral (φ₁ := .f32) (φ₂ := .f32) dot_S2048x64x128_S128x128_S2048x64x128_2_1_01_0_n_n none (oae a) (a.Wav : FVec Ideal S128x128 .f32)

/-- %50: the values mixed by the second attention array. -/
def agg (a : Critic.Args) : FVec Ideal S2048x64x128 .f32 :=
  Host.dotGeneral (φ₁ := .f32) (φ₂ := .f32) dot_S2048x64x64_S2048x64x128_S2048x64x128_2_1_1_2_0_0 none (w2 a) (av a)

/-- %55: the re-embedding that feeds the head. -/
def seq (a : Critic.Args) : FVec Ideal S2048x64x128 .f32 :=
  lreluH (addf
    (Host.dotGeneral (φ₁ := .f32) (φ₂ := .f32) dot_S2048x64x128_S128x128_S2048x64x128_2_1_01_0_n_n none (avPre a)
      (a.Wsq : FVec Ideal S128x128 .f32))
    (biasH a.bsq))

/-- %58: the head's hidden layer, on %55 and %50 laid side by side. -/
def hid (a : Critic.Args) : FVec Ideal S2048x64x64 .f32 :=
  lreluH64
    (Host.dotGeneral (φ₁ := .f32) (φ₂ := .f32) dot_S2048x64x256_S64x256_S2048x64x64_2_1_01_0_n_n none
      (concatenate (α := Ideal .f32) S2048x64x256 2 [⟨S2048x64x128, seq a⟩, ⟨S2048x64x128, agg a⟩]
        concatenates_S2048x64x128_S2048x64x128_S2048x64x256_d2)
      (a.Wf1 : FVec Ideal S64x256 .f32))

/-- %59: the value array. -/
def value (a : Critic.Args) : FVec Ideal S2048x64x1 .f32 :=
  Host.dotGeneral (φ₁ := .f32) (φ₂ := .f32) dot_S2048x64x64_S1x64_S2048x64x1_2_1_01_0_n_n none (hid a) (a.Wf2 : FVec Ideal S1x64 .f32)

end Cert.ReferenceIdeal.Stages

end
-- ==== Proof.RRun.lean ====
/-
  The host program's run.

  The host program is a straight line of ninety-eight array operations: sixty-three of its own and, five times, the seven
  of a leaky rectifier written out where it is called (two constants, their two spreadings, the comparison, the product,
  the selection). Run from any memory, every execution ends with each buffer at the operations' composition over the
  argument arrays; cut at the named stages, that composition is the stage definitions, so the three result buffers hold
  the value array and the two attention arrays as functions of the fifteen arguments, and the arguments are as they were.
-/
import proofs.«421273_j77558519431826_3_alg».proof.Proof.RStages
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem
  Idealize.ShloMosaic.StableHlo

section Line

variable {F : FTy → Type} [FloatOps F]

/-- The embeddings (%0 … %4): the affine image of the states and its rectifier. -/
abbrev ops1 : List (HloOp τ sig (Elt F)) :=
  [ binary main_arg0 main_arg2 main_v0 ((fun l r => Host.dotGeneral dot_S2048x64x256_S128x256_S2048x64x128_2_1_01_0_n_n none l r) : (⟨S2048x64x256, .f32⟩ : BufTy).Contents (Elt F) → (⟨S128x256, .f32⟩ : BufTy).Contents (Elt F) → (⟨S2048x64x128, .f32⟩ : BufTy).Contents (Elt F)),
    unary main_arg3 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v0 main_v2 main_v3 (addf : (⟨S2048x64x128, .f32⟩ : BufTy).Contents (Elt F) → (⟨S2048x64x128, .f32⟩ : BufTy).Contents (Elt F) → (⟨S2048x64x128, .f32⟩ : BufTy).Contents (Elt F)),
    TRef.nullary main_call0.cst (constant S_ .f32 0x00000000#32),
    TRef.unary main_call0.cst main_call0.v0 (broadcastInDim S2048x64x128 ![] bcast_S_S2048x64x128),
    TRef.binary (.of main_v3) main_call0.v0 main_call0.v1 (cmpf .oge),
    TRef.nullary main_call0.cst_0 (constant S_ .f32 0x3C23D70A#32),
    TRef.unary main_call0.cst_0 main_call0.v2 (broadcastInDim S2048x64x128 ![] bcast_S_S2048x64x128),
    TRef.binary main_call0.v2 (.of main_v3) main_call0.v3 mulf,
    TRef.ternary main_call0.v1 (.of main_v3) main_call0.v3 main_call0.call0.v0 select ]

/-- The first softmax (%5 … %20): queries, keys, scaled logits, row maxima, exponentials, row sums, quotient. -/
abbrev ops2 : List (HloOp τ sig (Elt F)) :=
  [ binary main_v4 main_arg5 main_v5 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v4 main_arg4 main_v6 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v5 main_v6 main_v7 ((fun l r => Host.dotGeneral dot_S2048x64x128_S2048x64x128_S2048x64x64_2_2_1_1_0_0 none l r) : (⟨S2048x64x128, .f32⟩ : BufTy).Contents (Elt F) → (⟨S2048x64x128, .f32⟩ : BufTy).Contents (Elt F) → (⟨S2048x64x64, .f32⟩ : BufTy).Contents (Elt F)),
    nullary main_cst (constant S_ .f32 0x3DB504F3#32),
    unary main_cst main_v8 (broadcastInDim S2048x64x64 ![] bcast_S_S2048x64x64 : (⟨S_, .f32⟩ : BufTy).Contents (Elt F) → (⟨S2048x64x64, .f32⟩ : BufTy).Contents (Elt F)),
    binary main_v7 main_v8 main_v9 (mulf : (⟨S2048x64x64, .f32⟩ : BufTy).Contents (Elt F) → (⟨S2048x64x64, .f32⟩ : BufTy).Contents (Elt F) → (⟨S2048x64x64, .f32⟩ : BufTy).Contents (Elt F)),
    nullary main_cst_0 (constant S_ .f32 0xFF800000#32),
    binary main_v9 main_cst_0 main_v10 ((fun x v => Host.reduce FloatOps.maximumf x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    nullary main_cst_1 (constant S_ .f32 0xFF800000#32),
    unary main_cst_1 main_v11 (broadcastInDim S2048x64 ![] bcast_S_S2048x64 : (⟨S_, .f32⟩ : BufTy).Contents (Elt F) → (⟨S2048x64, .f32⟩ : BufTy).Contents (Elt F)),
    binary main_v11 main_v10 main_v12 (maximumf : (⟨S2048x64, .f32⟩ : BufTy).Contents (Elt F) → (⟨S2048x64, .f32⟩ : BufTy).Contents (Elt F) → (⟨S2048x64, .f32⟩ : BufTy).Contents (Elt F)),
    unary main_v12 main_v13 (broadcastInDim S2048x64x1 ![0, 1] bcast_S2048x64_S2048x64x1_0_1 : (⟨S2048x64, .f32⟩ : BufTy).Contents (Elt F) → (⟨S2048x64x1, .f32⟩ : BufTy).Contents (Elt F)),
    unary main_v13 main_v14 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v9 main_v14 main_v15 (subf : (⟨S2048x64x64, .f32⟩ : BufTy).Contents (Elt F) → (⟨S2048x64x64, .f32⟩ : BufTy).Contents (Elt F) → (⟨S2048x64x64, .f32⟩ : BufTy).Contents (Elt F)),
    unary main_v15 main_v16 (Host.exp : (⟨S2048x64x64, .f32⟩ : BufTy).Contents (Elt F) → (⟨S2048x64x64, .f32⟩ : BufTy).Contents (Elt F)),
    nullary main_cst_2 (constant S_ .f32 0x00000000#32),
    binary main_v16 main_cst_2 main_v17 ((fun x v => Host.reduceAdd x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    unary main_v17 main_v18 (broadcastInDim S2048x64x1 ![0, 1] bcast_S2048x64_S2048x64x1_0_1 : (⟨S2048x64, .f32⟩ : BufTy).Contents (Elt F) → (⟨S2048x64x1, .f32⟩ : BufTy).Contents (Elt F)),
    unary main_v18 main_v19 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v16 main_v19 main_v20 (Host.divf : (⟨S2048x64x64, .f32⟩ : BufTy).Contents (Elt F) → (⟨S2048x64x64, .f32⟩ : BufTy).Contents (Elt F) → (⟨S2048x64x64, .f32⟩ : BufTy).Contents (Elt F)) ]

/-- The mixed embeddings and the re-embedding for the second attention (%21 … %26). -/
abbrev ops3 : List (HloOp τ sig (Elt F)) :=
  [ binary main_v20 main_v4 main_v21 ((fun l r => Host.dotGeneral dot_S2048x64x64_S2048x64x128_S2048x64x128_2_1_1_2_0_0 none l r) : (⟨S2048x64x64, .f32⟩ : BufTy).Contents (Elt F) → (⟨S2048x64x128, .f32⟩ : BufTy).Contents (Elt F) → (⟨S2048x64x128, .f32⟩ : BufTy).Contents (Elt F)),
    binary main_v21 main_arg6 main_v22 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    unary main_arg7 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v22 main_v24 main_v25 (addf : (⟨S2048x64x128, .f32⟩ : BufTy).Contents (Elt F) → (⟨S2048x64x128, .f32⟩ : BufTy).Contents (Elt F) → (⟨S2048x64x128, .f32⟩ : BufTy).Contents (Elt F)),
    TRef.nullary main_call1.cst (constant S_ .f32 0x00000000#32),
    TRef.unary main_call1.cst main_call1.v0 (broadcastInDim S2048x64x128 ![] bcast_S_S2048x64x128),
    TRef.binary (.of main_v25) main_call1.v0 main_call1.v1 (cmpf .oge),
    TRef.nullary main_call1.cst_0 (constant S_ .f32 0x3C23D70A#32),
    TRef.unary main_call1.cst_0 main_call1.v2 (broadcastInDim S2048x64x128 ![] bcast_S_S2048x64x128),
    TRef.binary main_call1.v2 (.of main_v25) main_call1.v3 mulf,
    TRef.ternary main_call1.v1 (.of main_v25) main_call1.v3 main_call1.call0.v0 select ]

/-- The second softmax (%27 … %42). -/
abbrev ops4 : List (HloOp τ sig (Elt F)) :=
  [ binary main_v26 main_arg5 main_v27 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v26 main_arg4 main_v28 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v27 main_v28 main_v29 ((fun l r => Host.dotGeneral dot_S2048x64x128_S2048x64x128_S2048x64x64_2_2_1_1_0_0 none l r) : (⟨S2048x64x128, .f32⟩ : BufTy).Contents (Elt F) → (⟨S2048x64x128, .f32⟩ : BufTy).Contents (Elt F) → (⟨S2048x64x64, .f32⟩ : BufTy).Contents (Elt F)),
    nullary main_cst_3 (constant S_ .f32 0x3DB504F3#32),
    unary main_cst_3 main_v30 (broadcastInDim S2048x64x64 ![] bcast_S_S2048x64x64 : (⟨S_, .f32⟩ : BufTy).Contents (Elt F) → (⟨S2048x64x64, .f32⟩ : BufTy).Contents (Elt F)),
    binary main_v29 main_v30 main_v31 (mulf : (⟨S2048x64x64, .f32⟩ : BufTy).Contents (Elt F) → (⟨S2048x64x64, .f32⟩ : BufTy).Contents (Elt F) → (⟨S2048x64x64, .f32⟩ : BufTy).Contents (Elt F)),
    nullary main_cst_4 (constant S_ .f32 0xFF800000#32),
    binary main_v31 main_cst_4 main_v32 ((fun x v => Host.reduce FloatOps.maximumf x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    nullary main_cst_5 (constant S_ .f32 0xFF800000#32),
    unary main_cst_5 main_v33 (broadcastInDim S2048x64 ![] bcast_S_S2048x64 : (⟨S_, .f32⟩ : BufTy).Contents (Elt F) → (⟨S2048x64, .f32⟩ : BufTy).Contents (Elt F)),
    binary main_v33 main_v32 main_v34 (maximumf : (⟨S2048x64, .f32⟩ : BufTy).Contents (Elt F) → (⟨S2048x64, .f32⟩ : BufTy).Contents (Elt F) → (⟨S2048x64, .f32⟩ : BufTy).Contents (Elt F)),
    unary main_v34 main_v35 (broadcastInDim S2048x64x1 ![0, 1] bcast_S2048x64_S2048x64x1_0_1 : (⟨S2048x64, .f32⟩ : BufTy).Contents (Elt F) → (⟨S2048x64x1, .f32⟩ : BufTy).Contents (Elt F)),
    unary main_v35 main_v36 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v31 main_v36 main_v37 (subf : (⟨S2048x64x64, .f32⟩ : BufTy).Contents (Elt F) → (⟨S2048x64x64, .f32⟩ : BufTy).Contents (Elt F) → (⟨S2048x64x64, .f32⟩ : BufTy).Contents (Elt F)),
    unary main_v37 main_v38 (Host.exp : (⟨S2048x64x64, .f32⟩ : BufTy).Contents (Elt F) → (⟨S2048x64x64, .f32⟩ : BufTy).Contents (Elt F)),
    nullary main_cst_6 (constant S_ .f32 0x00000000#32),
    binary main_v38 main_cst_6 main_v39 ((fun x v => Host.reduceAdd x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    unary main_v39 main_v40 (broadcastInDim S2048x64x1 ![0, 1] bcast_S2048x64_S2048x64x1_0_1 : (⟨S2048x64, .f32⟩ : BufTy).Contents (Elt F) → (⟨S2048x64x1, .f32⟩ : BufTy).Contents (Elt F)),
    unary main_v40 main_v41 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v38 main_v41 main_v42 (Host.divf : (⟨S2048x64x64, .f32⟩ : BufTy).Contents (Elt F) → (⟨S2048x64x64, .f32⟩ : BufTy).Contents (Elt F) → (⟨S2048x64x64, .f32⟩ : BufTy).Contents (Elt F)) ]

/-- The observation-action embedding (%43 … %48): the concatenation, its affine image, the rectifier. -/
abbrev ops5 : List (HloOp τ sig (Elt F)) :=
  [ binary main_arg0 main_arg1 main_v43 ((fun a b => concatenate S2048x64x320 2 [⟨S2048x64x256, a⟩, ⟨S2048x64x64, b⟩] concatenates_S2048x64x256_S2048x64x64_S2048x64x320_d2) : (⟨S2048x64x256, .f32⟩ : BufTy).Contents (Elt F) → (⟨S2048x64x64, .f32⟩ : BufTy).Contents (Elt F) → (⟨S2048x64x320, .f32⟩ : BufTy).Contents (Elt F)),
    binary main_v43 main_arg8 main_v44 ((fun l r => Host.dotGeneral dot_S2048x64x320_S128x320_S2048x64x128_2_1_01_0_n_n none l r) : (⟨S2048x64x320, .f32⟩ : BufTy).Contents (Elt F) → (⟨S128x320, .f32⟩ : BufTy).Contents (Elt F) → (⟨S2048x64x128, .f32⟩ : BufTy).Contents (Elt F)),
    unary main_arg9 main_v45 (broadcastInDim S1x1x128 ![2] bcast_S128_S1x1x128_2 : (⟨S128, .f32⟩ : BufTy).Contents (Elt F) → (⟨S1x1x128, .f32⟩ : BufTy).Contents (Elt F)),
    unary main_v45 main_v46 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v44 main_v46 main_v47 (addf : (⟨S2048x64x128, .f32⟩ : BufTy).Contents (Elt F) → (⟨S2048x64x128, .f32⟩ : BufTy).Contents (Elt F) → (⟨S2048x64x128, .f32⟩ : BufTy).Contents (Elt F)),
    TRef.nullary main_call2.cst (constant S_ .f32 0x00000000#32),
    TRef.unary main_call2.cst main_call2.v0 (broadcastInDim S2048x64x128 ![] bcast_S_S2048x64x128),
    TRef.binary (.of main_v47) main_call2.v0 main_call2.v1 (cmpf .oge),
    TRef.nullary main_call2.cst_0 (constant S_ .f32 0x3C23D70A#32),
    TRef.unary main_call2.cst_0 main_call2.v2 (broadcastInDim S2048x64x128 ![] bcast_S_S2048x64x128),
    TRef.binary main_call2.v2 (.of main_v47) main_call2.v3 mulf,
    TRef.ternary main_call2.v1 (.of main_v47) main_call2.v3 main_call2.call0.v0 select ]

/-- The mixed values and the head's pre-activation of the mixed embeddings (%49 … %51). -/
abbrev ops6 : List (HloOp τ sig (Elt F)) :=
  [ binary main_v48 main_arg10 main_v49 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v42 main_v49 main_v50 ((fun l r => Host.dotGeneral dot_S2048x64x64_S2048x64x128_S2048x64x128_2_1_1_2_0_0 none l r) : (⟨S2048x64x64, .f32⟩ : BufTy).Contents (Elt F) → (⟨S2048x64x128, .f32⟩ : BufTy).Contents (Elt F) → (⟨S2048x64x128, .f32⟩ : BufTy).Contents (Elt F)),
    binary main_v21 main_arg11 main_v51 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)) ]

/-- The re-embedding that feeds the head (%52 … %55). -/
abbrev ops7 : List (HloOp τ sig (Elt F)) :=
  [ unary main_arg12 main_v52 (broadcastInDim S1x1x128 ![2] bcast_S128_S1x1x128_2 : (⟨S128, .f32⟩ : BufTy).Contents (Elt F) → (⟨S1x1x128, .f32⟩ : BufTy).Contents (Elt F)),
    unary main_v52 main_v53 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v51 main_v53 main_v54 (addf : (⟨S2048x64x128, .f32⟩ : BufTy).Contents (Elt F) → (⟨S2048x64x128, .f32⟩ : BufTy).Contents (Elt F) → (⟨S2048x64x128, .f32⟩ : BufTy).Contents (Elt F)),
    TRef.nullary main_call3.cst (constant S_ .f32 0x00000000#32),
    TRef.unary main_call3.cst main_call3.v0 (broadcastInDim S2048x64x128 ![] bcast_S_S2048x64x128),
    TRef.binary (.of main_v54) main_call3.v0 main_call3.v1 (cmpf .oge),
    TRef.nullary main_call3.cst_0 (constant S_ .f32 0x3C23D70A#32),
    TRef.unary main_call3.cst_0 main_call3.v2 (broadcastInDim S2048x64x128 ![] bcast_S_S2048x64x128),
    TRef.binary main_call3.v2 (.of main_v54) main_call3.v3 mulf,
    TRef.ternary main_call3.v1 (.of main_v54) main_call3.v3 main_call3.call0.v0 select ]

/-- The head (%56 … %59): the concatenation, the hidden layer, its rectifier, the value. -/
abbrev ops8 : List (HloOp τ sig (Elt F)) :=
  [ binary main_v55 main_v50 main_v56 ((fun a b => concatenate S2048x64x256 2 [⟨S2048x64x128, a⟩, ⟨S2048x64x128, b⟩] concatenates_S2048x64x128_S2048x64x128_S2048x64x256_d2) : (⟨S2048x64x128, .f32⟩ : BufTy).Contents (Elt F) → (⟨S2048x64x128, .f32⟩ : BufTy).Contents (Elt F) → (⟨S2048x64x256, .f32⟩ : BufTy).Contents (Elt F)),
    binary main_v56 main_arg13 main_v57 ((fun l r => Host.dotGeneral dot_S2048x64x256_S64x256_S2048x64x64_2_1_01_0_n_n none l r) : (⟨S2048x64x256, .f32⟩ : BufTy).Contents (Elt F) → (⟨S64x256, .f32⟩ : BufTy).Contents (Elt F) → (⟨S2048x64x64, .f32⟩ : BufTy).Contents (Elt F)),
    TRef.nullary main_call4.cst (constant S_ .f32 0x00000000#32),
    TRef.unary main_call4.cst main_call4.v0 (broadcastInDim S2048x64x64 ![] bcast_S_S2048x64x64),
    TRef.binary (.of main_v57) main_call4.v0 main_call4.v1 (cmpf .oge),
    TRef.nullary main_call4.cst_0 (constant S_ .f32 0x3C23D70A#32),
    TRef.unary main_call4.cst_0 main_call4.v2 (broadcastInDim S2048x64x64 ![] bcast_S_S2048x64x64),
    TRef.binary main_call4.v2 (.of main_v57) main_call4.v3 mulf,
    TRef.ternary main_call4.v1 (.of main_v57) main_call4.v3 main_call4.call0.v0 select,
    binary main_v58 main_arg14 main_v59 ((fun l r => Host.dotGeneral dot_S2048x64x64_S1x64_S2048x64x1_2_1_01_0_n_n none l r) : (⟨S2048x64x64, .f32⟩ : BufTy).Contents (Elt F) → (⟨S1x64, .f32⟩ : BufTy).Contents (Elt F) → (⟨S2048x64x1, .f32⟩ : BufTy).Contents (Elt F)) ]

/-- The whole line, in order. -/
abbrev ops : List (HloOp τ sig (Elt F)) :=
  [ binary main_arg0 main_arg2 main_v0 ((fun l r => Host.dotGeneral dot_S2048x64x256_S128x256_S2048x64x128_2_1_01_0_n_n none l r) : (⟨S2048x64x256, .f32⟩ : BufTy).Contents (Elt F) → (⟨S128x256, .f32⟩ : BufTy).Contents (Elt F) → (⟨S2048x64x128, .f32⟩ : BufTy).Contents (Elt F)),
    unary main_arg3 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v0 main_v2 main_v3 (addf : (⟨S2048x64x128, .f32⟩ : BufTy).Contents (Elt F) → (⟨S2048x64x128, .f32⟩ : BufTy).Contents (Elt F) → (⟨S2048x64x128, .f32⟩ : BufTy).Contents (Elt F)),
    TRef.nullary main_call0.cst (constant S_ .f32 0x00000000#32),
    TRef.unary main_call0.cst main_call0.v0 (broadcastInDim S2048x64x128 ![] bcast_S_S2048x64x128),
    TRef.binary (.of main_v3) main_call0.v0 main_call0.v1 (cmpf .oge),
    TRef.nullary main_call0.cst_0 (constant S_ .f32 0x3C23D70A#32),
    TRef.unary main_call0.cst_0 main_call0.v2 (broadcastInDim S2048x64x128 ![] bcast_S_S2048x64x128),
    TRef.binary main_call0.v2 (.of main_v3) main_call0.v3 mulf,
    TRef.ternary main_call0.v1 (.of main_v3) main_call0.v3 main_call0.call0.v0 select,
    binary main_v4 main_arg5 main_v5 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v4 main_arg4 main_v6 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v5 main_v6 main_v7 ((fun l r => Host.dotGeneral dot_S2048x64x128_S2048x64x128_S2048x64x64_2_2_1_1_0_0 none l r) : (⟨S2048x64x128, .f32⟩ : BufTy).Contents (Elt F) → (⟨S2048x64x128, .f32⟩ : BufTy).Contents (Elt F) → (⟨S2048x64x64, .f32⟩ : BufTy).Contents (Elt F)),
    nullary main_cst (constant S_ .f32 0x3DB504F3#32),
    unary main_cst main_v8 (broadcastInDim S2048x64x64 ![] bcast_S_S2048x64x64 : (⟨S_, .f32⟩ : BufTy).Contents (Elt F) → (⟨S2048x64x64, .f32⟩ : BufTy).Contents (Elt F)),
    binary main_v7 main_v8 main_v9 (mulf : (⟨S2048x64x64, .f32⟩ : BufTy).Contents (Elt F) → (⟨S2048x64x64, .f32⟩ : BufTy).Contents (Elt F) → (⟨S2048x64x64, .f32⟩ : BufTy).Contents (Elt F)),
    nullary main_cst_0 (constant S_ .f32 0xFF800000#32),
    binary main_v9 main_cst_0 main_v10 ((fun x v => Host.reduce FloatOps.maximumf x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    nullary main_cst_1 (constant S_ .f32 0xFF800000#32),
    unary main_cst_1 main_v11 (broadcastInDim S2048x64 ![] bcast_S_S2048x64 : (⟨S_, .f32⟩ : BufTy).Contents (Elt F) → (⟨S2048x64, .f32⟩ : BufTy).Contents (Elt F)),
    binary main_v11 main_v10 main_v12 (maximumf : (⟨S2048x64, .f32⟩ : BufTy).Contents (Elt F) → (⟨S2048x64, .f32⟩ : BufTy).Contents (Elt F) → (⟨S2048x64, .f32⟩ : BufTy).Contents (Elt F)),
    unary main_v12 main_v13 (broadcastInDim S2048x64x1 ![0, 1] bcast_S2048x64_S2048x64x1_0_1 : (⟨S2048x64, .f32⟩ : BufTy).Contents (Elt F) → (⟨S2048x64x1, .f32⟩ : BufTy).Contents (Elt F)),
    unary main_v13 main_v14 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v9 main_v14 main_v15 (subf : (⟨S2048x64x64, .f32⟩ : BufTy).Contents (Elt F) → (⟨S2048x64x64, .f32⟩ : BufTy).Contents (Elt F) → (⟨S2048x64x64, .f32⟩ : BufTy).Contents (Elt F)),
    unary main_v15 main_v16 (Host.exp : (⟨S2048x64x64, .f32⟩ : BufTy).Contents (Elt F) → (⟨S2048x64x64, .f32⟩ : BufTy).Contents (Elt F)),
    nullary main_cst_2 (constant S_ .f32 0x00000000#32),
    binary main_v16 main_cst_2 main_v17 ((fun x v => Host.reduceAdd x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    unary main_v17 main_v18 (broadcastInDim S2048x64x1 ![0, 1] bcast_S2048x64_S2048x64x1_0_1 : (⟨S2048x64, .f32⟩ : BufTy).Contents (Elt F) → (⟨S2048x64x1, .f32⟩ : BufTy).Contents (Elt F)),
    unary main_v18 main_v19 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v16 main_v19 main_v20 (Host.divf : (⟨S2048x64x64, .f32⟩ : BufTy).Contents (Elt F) → (⟨S2048x64x64, .f32⟩ : BufTy).Contents (Elt F) → (⟨S2048x64x64, .f32⟩ : BufTy).Contents (Elt F)),
    binary main_v20 main_v4 main_v21 ((fun l r => Host.dotGeneral dot_S2048x64x64_S2048x64x128_S2048x64x128_2_1_1_2_0_0 none l r) : (⟨S2048x64x64, .f32⟩ : BufTy).Contents (Elt F) → (⟨S2048x64x128, .f32⟩ : BufTy).Contents (Elt F) → (⟨S2048x64x128, .f32⟩ : BufTy).Contents (Elt F)),
    binary main_v21 main_arg6 main_v22 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    unary main_arg7 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v22 main_v24 main_v25 (addf : (⟨S2048x64x128, .f32⟩ : BufTy).Contents (Elt F) → (⟨S2048x64x128, .f32⟩ : BufTy).Contents (Elt F) → (⟨S2048x64x128, .f32⟩ : BufTy).Contents (Elt F)),
    TRef.nullary main_call1.cst (constant S_ .f32 0x00000000#32),
    TRef.unary main_call1.cst main_call1.v0 (broadcastInDim S2048x64x128 ![] bcast_S_S2048x64x128),
    TRef.binary (.of main_v25) main_call1.v0 main_call1.v1 (cmpf .oge),
    TRef.nullary main_call1.cst_0 (constant S_ .f32 0x3C23D70A#32),
    TRef.unary main_call1.cst_0 main_call1.v2 (broadcastInDim S2048x64x128 ![] bcast_S_S2048x64x128),
    TRef.binary main_call1.v2 (.of main_v25) main_call1.v3 mulf,
    TRef.ternary main_call1.v1 (.of main_v25) main_call1.v3 main_call1.call0.v0 select,
    binary main_v26 main_arg5 main_v27 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v26 main_arg4 main_v28 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v27 main_v28 main_v29 ((fun l r => Host.dotGeneral dot_S2048x64x128_S2048x64x128_S2048x64x64_2_2_1_1_0_0 none l r) : (⟨S2048x64x128, .f32⟩ : BufTy).Contents (Elt F) → (⟨S2048x64x128, .f32⟩ : BufTy).Contents (Elt F) → (⟨S2048x64x64, .f32⟩ : BufTy).Contents (Elt F)),
    nullary main_cst_3 (constant S_ .f32 0x3DB504F3#32),
    unary main_cst_3 main_v30 (broadcastInDim S2048x64x64 ![] bcast_S_S2048x64x64 : (⟨S_, .f32⟩ : BufTy).Contents (Elt F) → (⟨S2048x64x64, .f32⟩ : BufTy).Contents (Elt F)),
    binary main_v29 main_v30 main_v31 (mulf : (⟨S2048x64x64, .f32⟩ : BufTy).Contents (Elt F) → (⟨S2048x64x64, .f32⟩ : BufTy).Contents (Elt F) → (⟨S2048x64x64, .f32⟩ : BufTy).Contents (Elt F)),
    nullary main_cst_4 (constant S_ .f32 0xFF800000#32),
    binary main_v31 main_cst_4 main_v32 ((fun x v => Host.reduce FloatOps.maximumf x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    nullary main_cst_5 (constant S_ .f32 0xFF800000#32),
    unary main_cst_5 main_v33 (broadcastInDim S2048x64 ![] bcast_S_S2048x64 : (⟨S_, .f32⟩ : BufTy).Contents (Elt F) → (⟨S2048x64, .f32⟩ : BufTy).Contents (Elt F)),
    binary main_v33 main_v32 main_v34 (maximumf : (⟨S2048x64, .f32⟩ : BufTy).Contents (Elt F) → (⟨S2048x64, .f32⟩ : BufTy).Contents (Elt F) → (⟨S2048x64, .f32⟩ : BufTy).Contents (Elt F)),
    unary main_v34 main_v35 (broadcastInDim S2048x64x1 ![0, 1] bcast_S2048x64_S2048x64x1_0_1 : (⟨S2048x64, .f32⟩ : BufTy).Contents (Elt F) → (⟨S2048x64x1, .f32⟩ : BufTy).Contents (Elt F)),
    unary main_v35 main_v36 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v31 main_v36 main_v37 (subf : (⟨S2048x64x64, .f32⟩ : BufTy).Contents (Elt F) → (⟨S2048x64x64, .f32⟩ : BufTy).Contents (Elt F) → (⟨S2048x64x64, .f32⟩ : BufTy).Contents (Elt F)),
    unary main_v37 main_v38 (Host.exp : (⟨S2048x64x64, .f32⟩ : BufTy).Contents (Elt F) → (⟨S2048x64x64, .f32⟩ : BufTy).Contents (Elt F)),
    nullary main_cst_6 (constant S_ .f32 0x00000000#32),
    binary main_v38 main_cst_6 main_v39 ((fun x v => Host.reduceAdd x v reducesTo_S2048x64x64_S2048x64_d2 h_S_) : (⟨S2048x64x64, .f32⟩ : BufTy).Contents (Elt F) → (⟨S_, .f32⟩ : BufTy).Contents (Elt F) → (⟨S2048x64, .f32⟩ : BufTy).Contents (Elt F)),
    unary main_v39 main_v40 (broadcastInDim S2048x64x1 ![0, 1] bcast_S2048x64_S2048x64x1_0_1 : (⟨S2048x64, .f32⟩ : BufTy).Contents (Elt F) → (⟨S2048x64x1, .f32⟩ : BufTy).Contents (Elt F)),
    unary main_v40 main_v41 (broadcastInDim S2048x64x64 ![0, 1, 2] bcast_S2048x64x1_S2048x64x64_0_1_2 : (⟨S2048x64x1, .f32⟩ : BufTy).Contents (Elt F) → (⟨S2048x64x64, .f32⟩ : BufTy).Contents (Elt F)),
    binary main_v38 main_v41 main_v42 (Host.divf : (⟨S2048x64x64, .f32⟩ : BufTy).Contents (Elt F) → (⟨S2048x64x64, .f32⟩ : BufTy).Contents (Elt F) → (⟨S2048x64x64, .f32⟩ : BufTy).Contents (Elt F)),
    binary main_arg0 main_arg1 main_v43 ((fun a b => concatenate S2048x64x320 2 [⟨S2048x64x256, a⟩, ⟨S2048x64x64, b⟩] concatenates_S2048x64x256_S2048x64x64_S2048x64x320_d2) : (⟨S2048x64x256, .f32⟩ : BufTy).Contents (Elt F) → (⟨S2048x64x64, .f32⟩ : BufTy).Contents (Elt F) → (⟨S2048x64x320, .f32⟩ : BufTy).Contents (Elt F)),
    binary main_v43 main_arg8 main_v44 ((fun l r => Host.dotGeneral dot_S2048x64x320_S128x320_S2048x64x128_2_1_01_0_n_n none l r) : (⟨S2048x64x320, .f32⟩ : BufTy).Contents (Elt F) → (⟨S128x320, .f32⟩ : BufTy).Contents (Elt F) → (⟨S2048x64x128, .f32⟩ : BufTy).Contents (Elt F)),
    unary main_arg9 main_v45 (broadcastInDim S1x1x128 ![2] bcast_S128_S1x1x128_2 : (⟨S128, .f32⟩ : BufTy).Contents (Elt F) → (⟨S1x1x128, .f32⟩ : BufTy).Contents (Elt F)),
    unary main_v45 main_v46 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v44 main_v46 main_v47 (addf : (⟨S2048x64x128, .f32⟩ : BufTy).Contents (Elt F) → (⟨S2048x64x128, .f32⟩ : BufTy).Contents (Elt F) → (⟨S2048x64x128, .f32⟩ : BufTy).Contents (Elt F)),
    TRef.nullary main_call2.cst (constant S_ .f32 0x00000000#32),
    TRef.unary main_call2.cst main_call2.v0 (broadcastInDim S2048x64x128 ![] bcast_S_S2048x64x128),
    TRef.binary (.of main_v47) main_call2.v0 main_call2.v1 (cmpf .oge),
    TRef.nullary main_call2.cst_0 (constant S_ .f32 0x3C23D70A#32),
    TRef.unary main_call2.cst_0 main_call2.v2 (broadcastInDim S2048x64x128 ![] bcast_S_S2048x64x128),
    TRef.binary main_call2.v2 (.of main_v47) main_call2.v3 mulf,
    TRef.ternary main_call2.v1 (.of main_v47) main_call2.v3 main_call2.call0.v0 select,
    binary main_v48 main_arg10 main_v49 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    binary main_v42 main_v49 main_v50 ((fun l r => Host.dotGeneral dot_S2048x64x64_S2048x64x128_S2048x64x128_2_1_1_2_0_0 none l r) : (⟨S2048x64x64, .f32⟩ : BufTy).Contents (Elt F) → (⟨S2048x64x128, .f32⟩ : BufTy).Contents (Elt F) → (⟨S2048x64x128, .f32⟩ : BufTy).Contents (Elt F)),
    binary main_v21 main_arg11 main_v51 ((fun l r => Host.dotGeneral dot_S2048x64x128_S128x128_S2048x64x128_2_1_01_0_n_n none l r) : (⟨S2048x64x128, .f32⟩ : BufTy).Contents (Elt F) → (⟨S128x128, .f32⟩ : BufTy).Contents (Elt F) → (⟨S2048x64x128, .f32⟩ : BufTy).Contents (Elt F)),
    unary main_arg12 main_v52 (broadcastInDim S1x1x128 ![2] bcast_S128_S1x1x128_2 : (⟨S128, .f32⟩ : BufTy).Contents (Elt F) → (⟨S1x1x128, .f32⟩ : BufTy).Contents (Elt F)),
    unary main_v52 main_v53 (broadcastInDim S2048x64x128 ![0, 1, 2] bcast_S1x1x128_S2048x64x128_0_1_2 : (⟨S1x1x128, .f32⟩ : BufTy).Contents (Elt F) → (⟨S2048x64x128, .f32⟩ : BufTy).Contents (Elt F)),
    binary main_v51 main_v53 main_v54 (addf : (⟨S2048x64x128, .f32⟩ : BufTy).Contents (Elt F) → (⟨S2048x64x128, .f32⟩ : BufTy).Contents (Elt F) → (⟨S2048x64x128, .f32⟩ : BufTy).Contents (Elt F)),
    TRef.nullary main_call3.cst (constant S_ .f32 0x00000000#32),
    TRef.unary main_call3.cst main_call3.v0 (broadcastInDim S2048x64x128 ![] bcast_S_S2048x64x128),
    TRef.binary (.of main_v54) main_call3.v0 main_call3.v1 (cmpf .oge),
    TRef.nullary main_call3.cst_0 (constant S_ .f32 0x3C23D70A#32),
    TRef.unary main_call3.cst_0 main_call3.v2 (broadcastInDim S2048x64x128 ![] bcast_S_S2048x64x128),
    TRef.binary main_call3.v2 (.of main_v54) main_call3.v3 mulf,
    TRef.ternary main_call3.v1 (.of main_v54) main_call3.v3 main_call3.call0.v0 select,
    binary main_v55 main_v50 main_v56 ((fun a b => concatenate S2048x64x256 2 [⟨S2048x64x128, a⟩, ⟨S2048x64x128, b⟩] concatenates_S2048x64x128_S2048x64x128_S2048x64x256_d2) : (⟨S2048x64x128, .f32⟩ : BufTy).Contents (Elt F) → (⟨S2048x64x128, .f32⟩ : BufTy).Contents (Elt F) → (⟨S2048x64x256, .f32⟩ : BufTy).Contents (Elt F)),
    binary main_v56 main_arg13 main_v57 ((fun l r => Host.dotGeneral dot_S2048x64x256_S64x256_S2048x64x64_2_1_01_0_n_n none l r) : (⟨S2048x64x256, .f32⟩ : BufTy).Contents (Elt F) → (⟨S64x256, .f32⟩ : BufTy).Contents (Elt F) → (⟨S2048x64x64, .f32⟩ : BufTy).Contents (Elt F)),
    TRef.nullary main_call4.cst (constant S_ .f32 0x00000000#32),
    TRef.unary main_call4.cst main_call4.v0 (broadcastInDim S2048x64x64 ![] bcast_S_S2048x64x64),
    TRef.binary (.of main_v57) main_call4.v0 main_call4.v1 (cmpf .oge),
    TRef.nullary main_call4.cst_0 (constant S_ .f32 0x3C23D70A#32),
    TRef.unary main_call4.cst_0 main_call4.v2 (broadcastInDim S2048x64x64 ![] bcast_S_S2048x64x64),
    TRef.binary main_call4.v2 (.of main_v57) main_call4.v3 mulf,
    TRef.ternary main_call4.v1 (.of main_v57) main_call4.v3 main_call4.call0.v0 select,
    binary main_v58 main_arg14 main_v59 ((fun l r => Host.dotGeneral dot_S2048x64x64_S1x64_S2048x64x1_2_1_01_0_n_n none l r) : (⟨S2048x64x64, .f32⟩ : BufTy).Contents (Elt F) → (⟨S1x64, .f32⟩ : BufTy).Contents (Elt F) → (⟨S2048x64x1, .f32⟩ : BufTy).Contents (Elt F)) ]

/-- The line is its eight stages one after the other. -/
theorem ops_split : (ops : List (HloOp τ sig (Elt F)))
    = ops1 ++ (ops2 ++ (ops3 ++ (ops4 ++ (ops5 ++ (ops6 ++ (ops7 ++ ops8)))))) := rfl

set_option maxRecDepth 4096 in
set_option maxHeartbeats 4000000 in
/-- The entry point is that line: the rectifier's and the selection's definitions unfolded at their calls, both sides are
    one chain of steps once sequencing is reassociated. -/
theorem main_eq (c : Dev nD) : main (F := F) c = seq ops := by
  simp only [main, main_part0, main_part1, fn_leaky_relu.body, fn_where.body, fn_leaky_relu_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    binary_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., binary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., binary_bufs_sub ..,
    nullary_bufs_sub .., unary_bufs_sub .., binary_bufs_sub .., nullary_bufs_sub .., unary_bufs_sub .., binary_bufs_sub ..,
    ternary_bufs_sub .., binary_bufs_sub ..⟩

/-- From any memory with zero counters: every weakly fair execution of the entry point terminates, and every final state
    has each buffer at the line's composition over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### The repeated groups, at any float values

The same chains of operations as the stage definitions', for any float values: the stage definitions are these at the
extended reals. -/

/-- The leaky rectifier on a [2048, 64, 128] array. -/
def lreluG (x : FVec F S2048x64x128 .f32) : FVec F S2048x64x128 .f32 :=
  select (cmpf .oge x (broadcastInDim S2048x64x128 ![] bcast_S_S2048x64x128 (constant (F := F) S_ .f32 0x00000000#32))) x
    (mulf (broadcastInDim S2048x64x128 ![] bcast_S_S2048x64x128 (constant (F := F) S_ .f32 0x3C23D70A#32)) x)

/-- The leaky rectifier on a [2048, 64, 64] array. -/
def lreluG64 (x : FVec F S2048x64x64 .f32) : FVec F S2048x64x64 .f32 :=
  select (cmpf .oge x (broadcastInDim S2048x64x64 ![] bcast_S_S2048x64x64 (constant (F := F) S_ .f32 0x00000000#32))) x
    (mulf (broadcastInDim S2048x64x64 ![] bcast_S_S2048x64x64 (constant (F := F) S_ .f32 0x3C23D70A#32)) x)

/-- A bias of 128 features spread over every batch element and agent. -/
def biasG (b : FVec F S128 .f32) : FVec F S2048x64x128 .f32 :=
  broadcastInDim S2048x64x128 ![0, 1, 2] bcast_S1x1x128_S2048x64x128_0_1_2
    (broadcastInDim S1x1x128 ![2] bcast_S128_S1x1x128_2 b)

/-- The scaled logits of embeddings `x`. -/
def logitsG (x : FVec F S2048x64x128 .f32) (Wq Wk : FVec F S128x128 .f32) : FVec F S2048x64x64 .f32 :=
  mulf
    (Host.dotGeneral (φ₁ := .f32) (φ₂ := .f32) dot_S2048x64x128_S2048x64x128_S2048x64x64_2_2_1_1_0_0 none
      (Host.dotGeneral (φ₁ := .f32) (φ₂ := .f32) dot_S2048x64x128_S128x128_S2048x64x128_2_1_01_0_n_n none x Wq)
      (Host.dotGeneral (φ₁ := .f32) (φ₂ := .f32) dot_S2048x64x128_S128x128_S2048x64x128_2_1_01_0_n_n none x Wk))
    (broadcastInDim S2048x64x64 ![] bcast_S_S2048x64x64 (constant (F := F) S_ .f32 0x3DB504F3#32))

/-- The row maxima of `z` spread back over the rows. -/
def rowMaxG (z : FVec F S2048x64x64 .f32) : FVec F S2048x64x64 .f32 :=
  broadcastInDim S2048x64x64 ![0, 1, 2] bcast_S2048x64x1_S2048x64x64_0_1_2
    (broadcastInDim S2048x64x1 ![0, 1] bcast_S2048x64_S2048x64x1_0_1
      (maximumf (broadcastInDim S2048x64 ![] bcast_S_S2048x64 (constant (F := F) S_ .f32 0xFF800000#32))
        (Host.reduce FloatOps.maximumf z (constant (F := F) S_ .f32 0xFF800000#32)
          reducesTo_S2048x64x64_S2048x64_d2 h_S_)))

/-- The exponentials of the entries of `z` less their row's maximum. -/
def expG (z : FVec F S2048x64x64 .f32) : FVec F S2048x64x64 .f32 :=
  Host.exp (subf z (rowMaxG z))

/-- The softmax over the last axis. -/
def softmaxG (z : FVec F S2048x64x64 .f32) : FVec F S2048x64x64 .f32 :=
  Host.divf (expG z)
    (broadcastInDim S2048x64x64 ![0, 1, 2] bcast_S2048x64x1_S2048x64x64_0_1_2
      (broadcastInDim S2048x64x1 ![0, 1] bcast_S2048x64_S2048x64x1_0_1
        (Host.reduceAdd (expG z) (constant (F := F) S_ .f32 0x00000000#32)
          reducesTo_S2048x64x64_S2048x64_d2 h_S_)))

/-! ### What each stage leaves in its named buffers

Over any contents `W` of the buffers before the stage: the named buffer ends at the stage's chain of operations applied
to the contents of the buffers the stage reads. -/

attribute [local irreducible] Host.reduce Host.reduceAdd concatenate in
set_option maxRecDepth 8192 in
theorem ops1_v4G (W : Valuation τ sig (Elt F)) : after ops1 W (main_v4 : DevRef τ sig)
    = lreluG (addf (Host.dotGeneral (φ₁ := .f32) (φ₂ := .f32) dot_S2048x64x256_S128x256_S2048x64x128_2_1_01_0_n_n none (W (main_arg0 : DevRef τ sig)) (W (main_arg2 : DevRef τ sig)))
        (biasG (W (main_arg3 : DevRef τ sig)))) := by
  after_results_simp
  rfl

attribute [local irreducible] Host.reduce Host.reduceAdd concatenate in
set_option maxRecDepth 8192 in
theorem ops2_v20G (W : Valuation τ sig (Elt F)) : after ops2 W (main_v20 : DevRef τ sig)
    = softmaxG (logitsG (W (main_v4 : DevRef τ sig)) (W (main_arg5 : DevRef τ sig)) (W (main_arg4 : DevRef τ sig))) := by
  after_results_simp
  rfl

attribute [local irreducible] Host.reduce Host.reduceAdd concatenate in
set_option maxRecDepth 8192 in
theorem ops3_v21G (W : Valuation τ sig (Elt F)) : after ops3 W (main_v21 : DevRef τ sig)
    = Host.dotGeneral (φ₁ := .f32) (φ₂ := .f32) dot_S2048x64x64_S2048x64x128_S2048x64x128_2_1_1_2_0_0 none (W (main_v20 : DevRef τ sig)) (W (main_v4 : DevRef τ sig)) := by
  after_results_simp

attribute [local irreducible] Host.reduce Host.reduceAdd concatenate in
set_option maxRecDepth 8192 in
theorem ops3_v26G (W : Valuation τ sig (Elt F)) : after ops3 W (main_v26 : DevRef τ sig)
    = lreluG (addf
        (Host.dotGeneral (φ₁ := .f32) (φ₂ := .f32) dot_S2048x64x128_S128x128_S2048x64x128_2_1_01_0_n_n none
          (Host.dotGeneral (φ₁ := .f32) (φ₂ := .f32) dot_S2048x64x64_S2048x64x128_S2048x64x128_2_1_1_2_0_0 none (W (main_v20 : DevRef τ sig)) (W (main_v4 : DevRef τ sig)))
          (W (main_arg6 : DevRef τ sig)))
        (biasG (W (main_arg7 : DevRef τ sig)))) := by
  after_results_simp
  rfl

attribute [local irreducible] Host.reduce Host.reduceAdd concatenate in
set_option maxRecDepth 8192 in
theorem ops4_v42G (W : Valuation τ sig (Elt F)) : after ops4 W (main_v42 : DevRef τ sig)
    = softmaxG (logitsG (W (main_v26 : DevRef τ sig)) (W (main_arg5 : DevRef τ sig)) (W (main_arg4 : DevRef τ sig))) := by
  after_results_simp
  rfl

attribute [local irreducible] Host.reduce Host.reduceAdd concatenate in
set_option maxRecDepth 8192 in
theorem ops5_v48G (W : Valuation τ sig (Elt F)) : after ops5 W (main_v48 : DevRef τ sig)
    = lreluG (addf
        (Host.dotGeneral (φ₁ := .f32) (φ₂ := .f32) dot_S2048x64x320_S128x320_S2048x64x128_2_1_01_0_n_n none
          (concatenate (α := F .f32) S2048x64x320 2 [⟨S2048x64x256, (W (main_arg0 : DevRef τ sig))⟩, ⟨S2048x64x64, (W (main_arg1 : DevRef τ sig))⟩]
            concatenates_S2048x64x256_S2048x64x64_S2048x64x320_d2)
          (W (main_arg8 : DevRef τ sig)))
        (biasG (W (main_arg9 : DevRef τ sig)))) := by
  after_results
  rfl

attribute [local irreducible] Host.reduce Host.reduceAdd concatenate in
set_option maxRecDepth 8192 in
theorem ops6_v50G (W : Valuation τ sig (Elt F)) : after ops6 W (main_v50 : DevRef τ sig)
    = Host.dotGeneral (φ₁ := .f32) (φ₂ := .f32) dot_S2048x64x64_S2048x64x128_S2048x64x128_2_1_1_2_0_0 none (W (main_v42 : DevRef τ sig))
        (Host.dotGeneral (φ₁ := .f32) (φ₂ := .f32) dot_S2048x64x128_S128x128_S2048x64x128_2_1_01_0_n_n none (W (main_v48 : DevRef τ sig)) (W (main_arg10 : DevRef τ sig))) := by
  after_results_simp

attribute [local irreducible] Host.reduce Host.reduceAdd concatenate in
set_option maxRecDepth 8192 in
theorem ops6_v51G (W : Valuation τ sig (Elt F)) : after ops6 W (main_v51 : DevRef τ sig)
    = Host.dotGeneral (φ₁ := .f32) (φ₂ := .f32) dot_S2048x64x128_S128x128_S2048x64x128_2_1_01_0_n_n none (W (main_v21 : DevRef τ sig)) (W (main_arg11 : DevRef τ sig)) := by
  after_results_simp

attribute [local irreducible] Host.reduce Host.reduceAdd concatenate in
set_option maxRecDepth 8192 in
theorem ops7_v55G (W : Valuation τ sig (Elt F)) : after ops7 W (main_v55 : DevRef τ sig)
    = lreluG (addf (W (main_v51 : DevRef τ sig)) (biasG (W (main_arg12 : DevRef τ sig)))) := by
  after_results_simp
  rfl

attribute [local irreducible] Host.reduce Host.reduceAdd concatenate in
set_option maxRecDepth 8192 in
theorem ops8_v59G (W : Valuation τ sig (Elt F)) : after ops8 W (main_v59 : DevRef τ sig)
    = Host.dotGeneral (φ₁ := .f32) (φ₂ := .f32) dot_S2048x64x64_S1x64_S2048x64x1_2_1_01_0_n_n none
        (lreluG64
          (Host.dotGeneral (φ₁ := .f32) (φ₂ := .f32) dot_S2048x64x256_S64x256_S2048x64x64_2_1_01_0_n_n none
            (concatenate (α := F .f32) S2048x64x256 2 [⟨S2048x64x128, (W (main_v55 : DevRef τ sig))⟩, ⟨S2048x64x128, (W (main_v50 : DevRef τ sig))⟩]
              concatenates_S2048x64x128_S2048x64x128_S2048x64x256_d2)
            (W (main_arg13 : DevRef τ sig))))
        (W (main_arg14 : DevRef τ sig)) := by
  after_results
  rfl

end Line

section Stages

/-- The fifteen argument arrays as a valuation of the buffers holds them. -/
def argsV (V : Valuation τ sig (Elt Ideal)) : Critic.Args :=
  ⟨V (main_arg0 : DevRef τ sig),
    V (main_arg1 : DevRef τ sig),
    V (main_arg2 : DevRef τ sig),
    V (main_arg3 : DevRef τ sig),
    V (main_arg4 : DevRef τ sig),
    V (main_arg5 : DevRef τ sig),
    V (main_arg6 : DevRef τ sig),
    V (main_arg7 : DevRef τ sig),
    V (main_arg8 : DevRef τ sig),
    V (main_arg9 : DevRef τ sig),
    V (main_arg10 : DevRef τ sig),
    V (main_arg11 : DevRef τ sig),
    V (main_arg12 : DevRef τ sig),
    V (main_arg13 : DevRef τ sig),
    V (main_arg14 : DevRef τ sig)⟩

/-- The composition over two lines in a row. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- A line that writes none of the argument buffers leaves the argument arrays as they were. -/
theorem argsV_keep (l : List (HloOp τ sig (Elt Ideal))) (V : Valuation τ sig (Elt Ideal)) {Wl : List (Ref sig .tc)}
    (hW : l.Forall fun op => op.writes ⊆ (Wl.map (Proc.devRef (τ := τ) .tc)).toFinset)
    (hd : main_arg0 ∉ Wl ∧ main_arg1 ∉ Wl ∧ main_arg2 ∉ Wl ∧ main_arg3 ∉ Wl ∧ main_arg4 ∉ Wl ∧ main_arg5 ∉ Wl ∧ main_arg6 ∉ Wl ∧ main_arg7 ∉ Wl ∧ main_arg8 ∉ Wl ∧ main_arg9 ∉ Wl ∧ main_arg10 ∉ Wl ∧ main_arg11 ∉ Wl ∧ main_arg12 ∉ Wl ∧ main_arg13 ∉ Wl ∧ main_arg14 ∉ Wl) :
    argsV (after l V) = argsV V := by
  obtain ⟨h0, h1, h2, h3, h4, h5, h6, h7, h8, h9, h10, h11, h12, h13, h14⟩ := hd
  simp only [argsV, after_of_writes_sub l V hW h0, after_of_writes_sub l V hW h1, after_of_writes_sub l V hW h2, after_of_writes_sub l V hW h3, after_of_writes_sub l V hW h4, after_of_writes_sub l V hW h5, after_of_writes_sub l V hW h6, after_of_writes_sub l V hW h7, after_of_writes_sub l V hW h8, after_of_writes_sub l V hW h9, after_of_writes_sub l V hW h10, after_of_writes_sub l V hW h11, after_of_writes_sub l V hW h12, after_of_writes_sub l V hW h13, after_of_writes_sub l V hW h14]

/-- One operation's written buffer is among a literal list of buffers. -/
local macro "writes_one" : tactic =>
  `(tactic| (simp only [nullary_writes, unary_writes, binary_writes, ternary_writes, Finset.singleton_subset_iff, List.mem_toFinset]
             exact List.mem_map_of_mem (by decide)))

/-- The buffers stage 1 writes. -/
abbrev W1 : List (Ref sig .tc) := [main_v0, main_v1, main_v2, main_v3, main_call0_cst, main_call0_v0, main_call0_v1, main_call0_cst_0, main_call0_v2, main_call0_v3, main_v4]
theorem ops1_writes : (ops1 : List (HloOp τ sig (Elt Ideal))).Forall fun op => op.writes ⊆ (W1.map (Proc.devRef (τ := τ) .tc)).toFinset := by
  simp only [List.Forall]
  refine ⟨?_, ?_, ?_, ?_, ?_, ?_, ?_, ?_, ?_, ?_, ?_⟩ <;> writes_one
/-- A buffer stage 1 does not write keeps its contents through it. -/
theorem keep1 (V : Valuation τ sig (Elt Ideal)) (r : Ref sig .tc) (h : r ∉ W1) :
    after ops1 V (Proc.devRef .tc r) = V (Proc.devRef .tc r) :=
  after_of_writes_sub ops1 V ops1_writes h
theorem args1 (V : Valuation τ sig (Elt Ideal)) : argsV (after ops1 V) = argsV V :=
  argsV_keep ops1 V ops1_writes (by decide)

/-- The buffers stage 2 writes. -/
abbrev W2 : List (Ref sig .tc) := [main_v5, main_v6, main_v7, main_cst, main_v8, main_v9, main_cst_0, main_v10, main_cst_1, main_v11, main_v12, main_v13, main_v14, main_v15, main_v16, main_cst_2, main_v17, main_v18, main_v19, main_v20]
theorem ops2_writes : (ops2 : List (HloOp τ sig (Elt Ideal))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one
/-- A buffer stage 2 does not write keeps its contents through it. -/
theorem keep2 (V : Valuation τ sig (Elt Ideal)) (r : Ref sig .tc) (h : r ∉ W2) :
    after ops2 V (Proc.devRef .tc r) = V (Proc.devRef .tc r) :=
  after_of_writes_sub ops2 V ops2_writes h
theorem args2 (V : Valuation τ sig (Elt Ideal)) : argsV (after ops2 V) = argsV V :=
  argsV_keep ops2 V ops2_writes (by decide)

/-- The buffers stage 3 writes. -/
abbrev W3 : List (Ref sig .tc) := [main_v21, main_v22, main_v23, main_v24, main_v25, main_call1_cst, main_call1_v0, main_call1_v1, main_call1_cst_0, main_call1_v2, main_call1_v3, main_v26]
theorem ops3_writes : (ops3 : List (HloOp τ sig (Elt Ideal))).Forall fun op => op.writes ⊆ (W3.map (Proc.devRef (τ := τ) .tc)).toFinset := by
  simp only [List.Forall]
  refine ⟨?_, ?_, ?_, ?_, ?_, ?_, ?_, ?_, ?_, ?_, ?_, ?_⟩ <;> writes_one
/-- A buffer stage 3 does not write keeps its contents through it. -/
theorem keep3 (V : Valuation τ sig (Elt Ideal)) (r : Ref sig .tc) (h : r ∉ W3) :
    after ops3 V (Proc.devRef .tc r) = V (Proc.devRef .tc r) :=
  after_of_writes_sub ops3 V ops3_writes h
theorem args3 (V : Valuation τ sig (Elt Ideal)) : argsV (after ops3 V) = argsV V :=
  argsV_keep ops3 V ops3_writes (by decide)

/-- The buffers stage 4 writes. -/
abbrev W4 : List (Ref sig .tc) := [main_v27, main_v28, main_v29, main_cst_3, main_v30, main_v31, main_cst_4, main_v32, main_cst_5, main_v33, main_v34, main_v35, main_v36, main_v37, main_v38, main_cst_6, main_v39, main_v40, main_v41, main_v42]
theorem ops4_writes : (ops4 : List (HloOp τ sig (Elt Ideal))).Forall fun op => op.writes ⊆ (W4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one
/-- A buffer stage 4 does not write keeps its contents through it. -/
theorem keep4 (V : Valuation τ sig (Elt Ideal)) (r : Ref sig .tc) (h : r ∉ W4) :
    after ops4 V (Proc.devRef .tc r) = V (Proc.devRef .tc r) :=
  after_of_writes_sub ops4 V ops4_writes h
theorem args4 (V : Valuation τ sig (Elt Ideal)) : argsV (after ops4 V) = argsV V :=
  argsV_keep ops4 V ops4_writes (by decide)

/-- The buffers stage 5 writes. -/
abbrev W5 : List (Ref sig .tc) := [main_v43, main_v44, main_v45, main_v46, main_v47, main_call2_cst, main_call2_v0, main_call2_v1, main_call2_cst_0, main_call2_v2, main_call2_v3, main_v48]
theorem ops5_writes : (ops5 : List (HloOp τ sig (Elt Ideal))).Forall fun op => op.writes ⊆ (W5.map (Proc.devRef (τ := τ) .tc)).toFinset := by
  simp only [List.Forall]
  refine ⟨?_, ?_, ?_, ?_, ?_, ?_, ?_, ?_, ?_, ?_, ?_, ?_⟩ <;> writes_one
/-- A buffer stage 5 does not write keeps its contents through it. -/
theorem keep5 (V : Valuation τ sig (Elt Ideal)) (r : Ref sig .tc) (h : r ∉ W5) :
    after ops5 V (Proc.devRef .tc r) = V (Proc.devRef .tc r) :=
  after_of_writes_sub ops5 V ops5_writes h
theorem args5 (V : Valuation τ sig (Elt Ideal)) : argsV (after ops5 V) = argsV V :=
  argsV_keep ops5 V ops5_writes (by decide)

/-- The buffers stage 6 writes. -/
abbrev W6 : List (Ref sig .tc) := [main_v49, main_v50, main_v51]
theorem ops6_writes : (ops6 : List (HloOp τ sig (Elt Ideal))).Forall fun op => op.writes ⊆ (W6.map (Proc.devRef (τ := τ) .tc)).toFinset := by
  simp only [List.Forall]
  refine ⟨?_, ?_, ?_⟩ <;> writes_one
/-- A buffer stage 6 does not write keeps its contents through it. -/
theorem keep6 (V : Valuation τ sig (Elt Ideal)) (r : Ref sig .tc) (h : r ∉ W6) :
    after ops6 V (Proc.devRef .tc r) = V (Proc.devRef .tc r) :=
  after_of_writes_sub ops6 V ops6_writes h
theorem args6 (V : Valuation τ sig (Elt Ideal)) : argsV (after ops6 V) = argsV V :=
  argsV_keep ops6 V ops6_writes (by decide)

/-- The buffers stage 7 writes. -/
abbrev W7 : List (Ref sig .tc) := [main_v52, main_v53, main_v54, main_call3_cst, main_call3_v0, main_call3_v1, main_call3_cst_0, main_call3_v2, main_call3_v3, main_v55]
theorem ops7_writes : (ops7 : List (HloOp τ sig (Elt Ideal))).Forall fun op => op.writes ⊆ (W7.map (Proc.devRef (τ := τ) .tc)).toFinset := by
  simp only [List.Forall]
  refine ⟨?_, ?_, ?_, ?_, ?_, ?_, ?_, ?_, ?_, ?_⟩ <;> writes_one
/-- A buffer stage 7 does not write keeps its contents through it. -/
theorem keep7 (V : Valuation τ sig (Elt Ideal)) (r : Ref sig .tc) (h : r ∉ W7) :
    after ops7 V (Proc.devRef .tc r) = V (Proc.devRef .tc r) :=
  after_of_writes_sub ops7 V ops7_writes h
theorem args7 (V : Valuation τ sig (Elt Ideal)) : argsV (after ops7 V) = argsV V :=
  argsV_keep ops7 V ops7_writes (by decide)

/-- The buffers stage 8 writes. -/
abbrev W8 : List (Ref sig .tc) := [main_v56, main_v57, main_call4_cst, main_call4_v0, main_call4_v1, main_call4_cst_0, main_call4_v2, main_call4_v3, main_v58, main_v59]
theorem ops8_writes : (ops8 : List (HloOp τ sig (Elt Ideal))).Forall fun op => op.writes ⊆ (W8.map (Proc.devRef (τ := τ) .tc)).toFinset := by
  simp only [List.Forall]
  refine ⟨?_, ?_, ?_, ?_, ?_, ?_, ?_, ?_, ?_, ?_⟩ <;> writes_one
/-- A buffer stage 8 does not write keeps its contents through it. -/
theorem keep8 (V : Valuation τ sig (Elt Ideal)) (r : Ref sig .tc) (h : r ∉ W8) :
    after ops8 V (Proc.devRef .tc r) = V (Proc.devRef .tc r) :=
  after_of_writes_sub ops8 V ops8_writes h
theorem args8 (V : Valuation τ sig (Elt Ideal)) : argsV (after ops8 V) = argsV V :=
  argsV_keep ops8 V ops8_writes (by decide)

/-! ### The stage equations at the extended reals

The repeated groups at the extended reals are the stage definitions' groups (the same chains of operations), and the
argument buffers' contents are the fields of `argsV W`. -/

theorem ops1_v4 (W : Valuation τ sig (Elt Ideal)) : after ops1 W (main_v4 : DevRef τ sig) = Stages.sePre (argsV W) := ops1_v4G W

theorem ops2_v20 (W : Valuation τ sig (Elt Ideal)) : after ops2 W (main_v20 : DevRef τ sig)
    = Stages.softmaxH (Stages.logitsH (W (main_v4 : DevRef τ sig)) (argsV W).Wq (argsV W).Wk) := ops2_v20G W

theorem ops3_v21 (W : Valuation τ sig (Elt Ideal)) : after ops3 W (main_v21 : DevRef τ sig)
    = Host.dotGeneral (F := Ideal) (φ₁ := .f32) (φ₂ := .f32) dot_S2048x64x64_S2048x64x128_S2048x64x128_2_1_1_2_0_0 none (W (main_v20 : DevRef τ sig)) (W (main_v4 : DevRef τ sig)) := ops3_v21G W

theorem ops3_v26 (W : Valuation τ sig (Elt Ideal)) : after ops3 W (main_v26 : DevRef τ sig)
    = Stages.lreluH (addf
        (Host.dotGeneral (F := Ideal) (φ₁ := .f32) (φ₂ := .f32) dot_S2048x64x128_S128x128_S2048x64x128_2_1_01_0_n_n none
          (Host.dotGeneral (F := Ideal) (φ₁ := .f32) (φ₂ := .f32) dot_S2048x64x64_S2048x64x128_S2048x64x128_2_1_1_2_0_0 none (W (main_v20 : DevRef τ sig)) (W (main_v4 : DevRef τ sig)))
          (argsV W).Wse)
        (Stages.biasH (argsV W).bse)) := ops3_v26G W

theorem ops4_v42 (W : Valuation τ sig (Elt Ideal)) : after ops4 W (main_v42 : DevRef τ sig)
    = Stages.softmaxH (Stages.logitsH (W (main_v26 : DevRef τ sig)) (argsV W).Wq (argsV W).Wk) := ops4_v42G W

theorem ops5_v48 (W : Valuation τ sig (Elt Ideal)) : after ops5 W (main_v48 : DevRef τ sig) = Stages.oae (argsV W) := ops5_v48G W

theorem ops6_v50 (W : Valuation τ sig (Elt Ideal)) : after ops6 W (main_v50 : DevRef τ sig)
    = Host.dotGeneral (F := Ideal) (φ₁ := .f32) (φ₂ := .f32) dot_S2048x64x64_S2048x64x128_S2048x64x128_2_1_1_2_0_0 none (W (main_v42 : DevRef τ sig))
        (Host.dotGeneral (F := Ideal) (φ₁ := .f32) (φ₂ := .f32) dot_S2048x64x128_S128x128_S2048x64x128_2_1_01_0_n_n none (W (main_v48 : DevRef τ sig)) (argsV W).Wav) := ops6_v50G W

theorem ops6_v51 (W : Valuation τ sig (Elt Ideal)) : after ops6 W (main_v51 : DevRef τ sig)
    = Host.dotGeneral (F := Ideal) (φ₁ := .f32) (φ₂ := .f32) dot_S2048x64x128_S128x128_S2048x64x128_2_1_01_0_n_n none (W (main_v21 : DevRef τ sig)) (argsV W).Wsq := ops6_v51G W

theorem ops7_v55 (W : Valuation τ sig (Elt Ideal)) : after ops7 W (main_v55 : DevRef τ sig)
    = Stages.lreluH (addf (W (main_v51 : DevRef τ sig)) (Stages.biasH (argsV W).bsq)) := ops7_v55G W

theorem ops8_v59 (W : Valuation τ sig (Elt Ideal)) : after ops8 W (main_v59 : DevRef τ sig)
    = Host.dotGeneral (F := Ideal) (φ₁ := .f32) (φ₂ := .f32) dot_S2048x64x64_S1x64_S2048x64x1_2_1_01_0_n_n none
        (Stages.lreluH64
          (Host.dotGeneral (F := Ideal) (φ₁ := .f32) (φ₂ := .f32) dot_S2048x64x256_S64x256_S2048x64x64_2_1_01_0_n_n none
            (concatenate (α := Ideal .f32) S2048x64x256 2 [⟨S2048x64x128, (W (main_v55 : DevRef τ sig))⟩, ⟨S2048x64x128, (W (main_v50 : DevRef τ sig))⟩]
              concatenates_S2048x64x128_S2048x64x128_S2048x64x256_d2)
            (argsV W).Wf1))
        (argsV W).Wf2 := ops8_v59G W

/-! ### The buffers' contents after each stage, from the launch contents `V` -/

def P1 (V : Valuation τ sig (Elt Ideal)) : Valuation τ sig (Elt Ideal) := after ops1 V
def P2 (V : Valuation τ sig (Elt Ideal)) : Valuation τ sig (Elt Ideal) := after ops2 (P1 V)
def P3 (V : Valuation τ sig (Elt Ideal)) : Valuation τ sig (Elt Ideal) := after ops3 (P2 V)
def P4 (V : Valuation τ sig (Elt Ideal)) : Valuation τ sig (Elt Ideal) := after ops4 (P3 V)
def P5 (V : Valuation τ sig (Elt Ideal)) : Valuation τ sig (Elt Ideal) := after ops5 (P4 V)
def P6 (V : Valuation τ sig (Elt Ideal)) : Valuation τ sig (Elt Ideal) := after ops6 (P5 V)
def P7 (V : Valuation τ sig (Elt Ideal)) : Valuation τ sig (Elt Ideal) := after ops7 (P6 V)
def P8 (V : Valuation τ sig (Elt Ideal)) : Valuation τ sig (Elt Ideal) := after ops8 (P7 V)

theorem after_ops (V : Valuation τ sig (Elt Ideal)) : after ops V = P8 V := by
  rw [ops_split]; simp only [after_app]; rfl

theorem P1_args (V : Valuation τ sig (Elt Ideal)) : argsV (P1 V) = argsV V := args1 V
theorem P2_args (V : Valuation τ sig (Elt Ideal)) : argsV (P2 V) = argsV V := (args2 (P1 V)).trans (P1_args V)
theorem P3_args (V : Valuation τ sig (Elt Ideal)) : argsV (P3 V) = argsV V := (args3 (P2 V)).trans (P2_args V)
theorem P4_args (V : Valuation τ sig (Elt Ideal)) : argsV (P4 V) = argsV V := (args4 (P3 V)).trans (P3_args V)
theorem P5_args (V : Valuation τ sig (Elt Ideal)) : argsV (P5 V) = argsV V := (args5 (P4 V)).trans (P4_args V)
theorem P6_args (V : Valuation τ sig (Elt Ideal)) : argsV (P6 V) = argsV V := (args6 (P5 V)).trans (P5_args V)
theorem P7_args (V : Valuation τ sig (Elt Ideal)) : argsV (P7 V) = argsV V := (args7 (P6 V)).trans (P6_args V)
theorem P8_args (V : Valuation τ sig (Elt Ideal)) : argsV (P8 V) = argsV V := (args8 (P7 V)).trans (P7_args V)

/-- %4 after stage 1, and kept through stage 2. -/
theorem P1_v4 (V : Valuation τ sig (Elt Ideal)) : P1 V (main_v4 : DevRef τ sig) = Stages.sePre (argsV V) := ops1_v4 V
theorem P2_v4 (V : Valuation τ sig (Elt Ideal)) : P2 V (main_v4 : DevRef τ sig) = Stages.sePre (argsV V) :=
  (keep2 (P1 V) main_v4 (by decide)).trans (P1_v4 V)

/-- %20 after stage 2, and kept to the end. -/
theorem P2_v20 (V : Valuation τ sig (Elt Ideal)) : P2 V (main_v20 : DevRef τ sig) = Stages.w1 (argsV V) := by
  unfold P2; rw [ops2_v20, P1_v4, P1_args]; rfl
theorem P3_v20 (V : Valuation τ sig (Elt Ideal)) : P3 V (main_v20 : DevRef τ sig) = Stages.w1 (argsV V) :=
  (keep3 (P2 V) main_v20 (by decide)).trans (P2_v20 V)
theorem P4_v20 (V : Valuation τ sig (Elt Ideal)) : P4 V (main_v20 : DevRef τ sig) = Stages.w1 (argsV V) :=
  (keep4 (P3 V) main_v20 (by decide)).trans (P3_v20 V)
theorem P5_v20 (V : Valuation τ sig (Elt Ideal)) : P5 V (main_v20 : DevRef τ sig) = Stages.w1 (argsV V) :=
  (keep5 (P4 V) main_v20 (by decide)).trans (P4_v20 V)
theorem P6_v20 (V : Valuation τ sig (Elt Ideal)) : P6 V (main_v20 : DevRef τ sig) = Stages.w1 (argsV V) :=
  (keep6 (P5 V) main_v20 (by decide)).trans (P5_v20 V)
theorem P7_v20 (V : Valuation τ sig (Elt Ideal)) : P7 V (main_v20 : DevRef τ sig) = Stages.w1 (argsV V) :=
  (keep7 (P6 V) main_v20 (by decide)).trans (P6_v20 V)
theorem P8_v20 (V : Valuation τ sig (Elt Ideal)) : P8 V (main_v20 : DevRef τ sig) = Stages.w1 (argsV V) :=
  (keep8 (P7 V) main_v20 (by decide)).trans (P7_v20 V)

/-- %21 and %26 after stage 3; %21 kept through stage 5. -/
theorem P3_v21 (V : Valuation τ sig (Elt Ideal)) : P3 V (main_v21 : DevRef τ sig) = Stages.avPre (argsV V) := by
  unfold P3; rw [ops3_v21, P2_v20, P2_v4]; rfl
theorem P3_v26 (V : Valuation τ sig (Elt Ideal)) : P3 V (main_v26 : DevRef τ sig) = Stages.se (argsV V) := by
  unfold P3; rw [ops3_v26, P2_v20, P2_v4, P2_args]; rfl
theorem P4_v21 (V : Valuation τ sig (Elt Ideal)) : P4 V (main_v21 : DevRef τ sig) = Stages.avPre (argsV V) :=
  (keep4 (P3 V) main_v21 (by decide)).trans (P3_v21 V)
theorem P5_v21 (V : Valuation τ sig (Elt Ideal)) : P5 V (main_v21 : DevRef τ sig) = Stages.avPre (argsV V) :=
  (keep5 (P4 V) main_v21 (by decide)).trans (P4_v21 V)

/-- %42 after stage 4, and kept to the end. -/
theorem P4_v42 (V : Valuation τ sig (Elt Ideal)) : P4 V (main_v42 : DevRef τ sig) = Stages.w2 (argsV V) := by
  unfold P4; rw [ops4_v42, P3_v26, P3_args]; rfl
theorem P5_v42 (V : Valuation τ sig (Elt Ideal)) : P5 V (main_v42 : DevRef τ sig) = Stages.w2 (argsV V) :=
  (keep5 (P4 V) main_v42 (by decide)).trans (P4_v42 V)
theorem P6_v42 (V : Valuation τ sig (Elt Ideal)) : P6 V (main_v42 : DevRef τ sig) = Stages.w2 (argsV V) :=
  (keep6 (P5 V) main_v42 (by decide)).trans (P5_v42 V)
theorem P7_v42 (V : Valuation τ sig (Elt Ideal)) : P7 V (main_v42 : DevRef τ sig) = Stages.w2 (argsV V) :=
  (keep7 (P6 V) main_v42 (by decide)).trans (P6_v42 V)
theorem P8_v42 (V : Valuation τ sig (Elt Ideal)) : P8 V (main_v42 : DevRef τ sig) = Stages.w2 (argsV V) :=
  (keep8 (P7 V) main_v42 (by decide)).trans (P7_v42 V)

/-- %48 after stage 5. -/
theorem P5_v48 (V : Valuation τ sig (Elt Ideal)) : P5 V (main_v48 : DevRef τ sig) = Stages.oae (argsV V) := by
  unfold P5; rw [ops5_v48, P4_args]

/-- %50 and the head's pre-activation of the mixed embeddings after stage 6; %50 kept through stage 7. -/
theorem P6_v50 (V : Valuation τ sig (Elt Ideal)) : P6 V (main_v50 : DevRef τ sig) = Stages.agg (argsV V) := by
  unfold P6; rw [ops6_v50, P5_v42, P5_v48, P5_args]; rfl
theorem P6_v51 (V : Valuation τ sig (Elt Ideal)) : P6 V (main_v51 : DevRef τ sig)
    = Host.dotGeneral (F := Ideal) (φ₁ := .f32) (φ₂ := .f32) dot_S2048x64x128_S128x128_S2048x64x128_2_1_01_0_n_n none (Stages.avPre (argsV V)) (argsV V).Wsq := by
  unfold P6; rw [ops6_v51, P5_v21, P5_args]
theorem P7_v50 (V : Valuation τ sig (Elt Ideal)) : P7 V (main_v50 : DevRef τ sig) = Stages.agg (argsV V) :=
  (keep7 (P6 V) main_v50 (by decide)).trans (P6_v50 V)

/-- %55 after stage 7. -/
theorem P7_v55 (V : Valuation τ sig (Elt Ideal)) : P7 V (main_v55 : DevRef τ sig) = Stages.seq (argsV V) := by
  unfold P7; rw [ops7_v55, P6_v51, P6_args]; rfl

/-- %59 after stage 8. -/
theorem P8_v59 (V : Valuation τ sig (Elt Ideal)) : P8 V (main_v59 : DevRef τ sig) = Stages.value (argsV V) := by
  unfold P8; rw [ops8_v59, P7_v55, P7_v50, P7_args]
  unfold Stages.value Stages.hid
  with_reducible rfl

/-! ### The whole line's results -/

theorem argsV_states (W : Valuation τ sig (Elt Ideal)) : (argsV W).states = W (main_arg0 : DevRef τ sig) := rfl
theorem argsV_actions (W : Valuation τ sig (Elt Ideal)) : (argsV W).actions = W (main_arg1 : DevRef τ sig) := rfl
theorem argsV_Wpre (W : Valuation τ sig (Elt Ideal)) : (argsV W).Wpre = W (main_arg2 : DevRef τ sig) := rfl
theorem argsV_bpre (W : Valuation τ sig (Elt Ideal)) : (argsV W).bpre = W (main_arg3 : DevRef τ sig) := rfl
theorem argsV_Wk (W : Valuation τ sig (Elt Ideal)) : (argsV W).Wk = W (main_arg4 : DevRef τ sig) := rfl
theorem argsV_Wq (W : Valuation τ sig (Elt Ideal)) : (argsV W).Wq = W (main_arg5 : DevRef τ sig) := rfl
theorem argsV_Wse (W : Valuation τ sig (Elt Ideal)) : (argsV W).Wse = W (main_arg6 : DevRef τ sig) := rfl
theorem argsV_bse (W : Valuation τ sig (Elt Ideal)) : (argsV W).bse = W (main_arg7 : DevRef τ sig) := rfl
theorem argsV_Wsa (W : Valuation τ sig (Elt Ideal)) : (argsV W).Wsa = W (main_arg8 : DevRef τ sig) := rfl
theorem argsV_bsa (W : Valuation τ sig (Elt Ideal)) : (argsV W).bsa = W (main_arg9 : DevRef τ sig) := rfl
theorem argsV_Wav (W : Valuation τ sig (Elt Ideal)) : (argsV W).Wav = W (main_arg10 : DevRef τ sig) := rfl
theorem argsV_Wsq (W : Valuation τ sig (Elt Ideal)) : (argsV W).Wsq = W (main_arg11 : DevRef τ sig) := rfl
theorem argsV_bsq (W : Valuation τ sig (Elt Ideal)) : (argsV W).bsq = W (main_arg12 : DevRef τ sig) := rfl
theorem argsV_Wf1 (W : Valuation τ sig (Elt Ideal)) : (argsV W).Wf1 = W (main_arg13 : DevRef τ sig) := rfl
theorem argsV_Wf2 (W : Valuation τ sig (Elt Ideal)) : (argsV W).Wf2 = W (main_arg14 : DevRef τ sig) := rfl

theorem ops_v59 (V : Valuation τ sig (Elt Ideal)) : after ops V (main_v59 : DevRef τ sig) = Stages.value (argsV V) := by
  rw [after_ops]; exact P8_v59 V
theorem ops_v20 (V : Valuation τ sig (Elt Ideal)) : after ops V (main_v20 : DevRef τ sig) = Stages.w1 (argsV V) := by
  rw [after_ops]; exact P8_v20 V
theorem ops_v42 (V : Valuation τ sig (Elt Ideal)) : after ops V (main_v42 : DevRef τ sig) = Stages.w2 (argsV V) := by
  rw [after_ops]; exact P8_v42 V
theorem ops_arg0 (V : Valuation τ sig (Elt Ideal)) : after ops V (main_arg0 : DevRef τ sig) = V (main_arg0 : DevRef τ sig) := by
  have h := congrArg Critic.Args.states (P8_args V)
  rw [argsV_states, argsV_states] at h
  rw [after_ops]; exact h
theorem ops_arg1 (V : Valuation τ sig (Elt Ideal)) : after ops V (main_arg1 : DevRef τ sig) = V (main_arg1 : DevRef τ sig) := by
  have h := congrArg Critic.Args.actions (P8_args V)
  rw [argsV_actions, argsV_actions] at h
  rw [after_ops]; exact h
theorem ops_arg2 (V : Valuation τ sig (Elt Ideal)) : after ops V (main_arg2 : DevRef τ sig) = V (main_arg2 : DevRef τ sig) := by
  have h := congrArg Critic.Args.Wpre (P8_args V)
  rw [argsV_Wpre, argsV_Wpre] at h
  rw [after_ops]; exact h
theorem ops_arg3 (V : Valuation τ sig (Elt Ideal)) : after ops V (main_arg3 : DevRef τ sig) = V (main_arg3 : DevRef τ sig) := by
  have h := congrArg Critic.Args.bpre (P8_args V)
  rw [argsV_bpre, argsV_bpre] at h
  rw [after_ops]; exact h
theorem ops_arg4 (V : Valuation τ sig (Elt Ideal)) : after ops V (main_arg4 : DevRef τ sig) = V (main_arg4 : DevRef τ sig) := by
  have h := congrArg Critic.Args.Wk (P8_args V)
  rw [argsV_Wk, argsV_Wk] at h
  rw [after_ops]; exact h
theorem ops_arg5 (V : Valuation τ sig (Elt Ideal)) : after ops V (main_arg5 : DevRef τ sig) = V (main_arg5 : DevRef τ sig) := by
  have h := congrArg Critic.Args.Wq (P8_args V)
  rw [argsV_Wq, argsV_Wq] at h
  rw [after_ops]; exact h
theorem ops_arg6 (V : Valuation τ sig (Elt Ideal)) : after ops V (main_arg6 : DevRef τ sig) = V (main_arg6 : DevRef τ sig) := by
  have h := congrArg Critic.Args.Wse (P8_args V)
  rw [argsV_Wse, argsV_Wse] at h
  rw [after_ops]; exact h
theorem ops_arg7 (V : Valuation τ sig (Elt Ideal)) : after ops V (main_arg7 : DevRef τ sig) = V (main_arg7 : DevRef τ sig) := by
  have h := congrArg Critic.Args.bse (P8_args V)
  rw [argsV_bse, argsV_bse] at h
  rw [after_ops]; exact h
theorem ops_arg8 (V : Valuation τ sig (Elt Ideal)) : after ops V (main_arg8 : DevRef τ sig) = V (main_arg8 : DevRef τ sig) := by
  have h := congrArg Critic.Args.Wsa (P8_args V)
  rw [argsV_Wsa, argsV_Wsa] at h
  rw [after_ops]; exact h
theorem ops_arg9 (V : Valuation τ sig (Elt Ideal)) : after ops V (main_arg9 : DevRef τ sig) = V (main_arg9 : DevRef τ sig) := by
  have h := congrArg Critic.Args.bsa (P8_args V)
  rw [argsV_bsa, argsV_bsa] at h
  rw [after_ops]; exact h
theorem ops_arg10 (V : Valuation τ sig (Elt Ideal)) : after ops V (main_arg10 : DevRef τ sig) = V (main_arg10 : DevRef τ sig) := by
  have h := congrArg Critic.Args.Wav (P8_args V)
  rw [argsV_Wav, argsV_Wav] at h
  rw [after_ops]; exact h
theorem ops_arg11 (V : Valuation τ sig (Elt Ideal)) : after ops V (main_arg11 : DevRef τ sig) = V (main_arg11 : DevRef τ sig) := by
  have h := congrArg Critic.Args.Wsq (P8_args V)
  rw [argsV_Wsq, argsV_Wsq] at h
  rw [after_ops]; exact h
theorem ops_arg12 (V : Valuation τ sig (Elt Ideal)) : after ops V (main_arg12 : DevRef τ sig) = V (main_arg12 : DevRef τ sig) := by
  have h := congrArg Critic.Args.bsq (P8_args V)
  rw [argsV_bsq, argsV_bsq] at h
  rw [after_ops]; exact h
theorem ops_arg13 (V : Valuation τ sig (Elt Ideal)) : after ops V (main_arg13 : DevRef τ sig) = V (main_arg13 : DevRef τ sig) := by
  have h := congrArg Critic.Args.Wf1 (P8_args V)
  rw [argsV_Wf1, argsV_Wf1] at h
  rw [after_ops]; exact h
theorem ops_arg14 (V : Valuation τ sig (Elt Ideal)) : after ops V (main_arg14 : DevRef τ sig) = V (main_arg14 : DevRef τ sig) := by
  have h := congrArg Critic.Args.Wf2 (P8_args V)
  rw [argsV_Wf2, argsV_Wf2] at h
  rw [after_ops]; exact h

end Stages

/-! ### The run -/

/-- The fifteen argument arrays as memory `m` holds them on core `c`. -/
def argsOf (m : (ℓ : Loc nD τ sig) → Buf (Elt Ideal) ℓ) (c : Dev nD) : Critic.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14)⟩

theorem argsOf_eq (m : (ℓ : Loc nD τ sig) → Buf (Elt Ideal) ℓ) (c : Dev nD) :
    argsOf m c = argsV (launchContents m c) := rfl

/-- From any memory with zero counters: every weakly fair execution of the host program terminates with the value array,
    the first and the second attention array in its three result buffers, each the stage definition over the argument
    arrays as memory held them, and with the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = Stages.value (argsOf m c)
      ∧ r.2.mem ((c.tc : Thread nD τ).loc main_v20) = Stages.w1 (argsOf m c)
      ∧ r.2.mem ((c.tc : Thread nD τ).loc main_v42) = Stages.w2 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
by
  refine (θ_run (defs (F := Ideal)) _ _).mono (fun r h c => ?_) (run_all m ρ)
  rw [argsOf_eq]
  exact ⟨(h c main_v59).trans (ops_v59 (launchContents m c)),
    (h c main_v20).trans (ops_v20 (launchContents m c)),
    (h c main_v42).trans (ops_v42 (launchContents m c)),
    (h c main_arg0).trans (ops_arg0 (launchContents m c)),
    (h c main_arg1).trans (ops_arg1 (launchContents m c)),
    (h c main_arg2).trans (ops_arg2 (launchContents m c)),
    (h c main_arg3).trans (ops_arg3 (launchContents m c)),
    (h c main_arg4).trans (ops_arg4 (launchContents m c)),
    (h c main_arg5).trans (ops_arg5 (launchContents m c)),
    (h c main_arg6).trans (ops_arg6 (launchContents m c)),
    (h c main_arg7).trans (ops_arg7 (launchContents m c)),
    (h c main_arg8).trans (ops_arg8 (launchContents m c)),
    (h c main_arg9).trans (ops_arg9 (launchContents m c)),
    (h c main_arg10).trans (ops_arg10 (launchContents m c)),
    (h c main_arg11).trans (ops_arg11 (launchContents m c)),
    (h c main_arg12).trans (ops_arg12 (launchContents m c)),
    (h c main_arg13).trans (ops_arg13 (launchContents m c)),
    (h c main_arg14).trans (ops_arg14 (launchContents m c))⟩

end Cert.ReferenceIdeal.RRun

end
-- ==== Proof.RDots.lean ====
/-
  The reference's seven products, each read at one result index.

  Every product contracts ONE axis, so its sum over the contraction's index set is a sum over that axis's coordinate.
  Five are linear layers: rows (b, n, ·) of a rank-3 array against rows (o, ·) of a weight matrix, the batch and agent
  coordinates bystanders. Two are batched over the first axis: queries against keys, and attention weights against
  values. In each the operand indices are read off coordinate by coordinate: the contracted axis carries the summation
  variable, every other axis carries the result index's coordinate at that axis's place among the result's axes.
-/
import proofs.«421273_j77558519431826_3_alg».proof.Proof.Gen.ReferenceIdeal
import Idealize.ShloMosaic.PureOps.Ideal.Laws
import Idealize.ShloMosaic.Lib.ValueIdx

noncomputable section
namespace Cert.ReferenceIdeal.RDots
open Idealize.ShloMosaic Idealize.ShloMosaic.ValueIdx Cert.ReferenceIdeal Cert.ReferenceIdeal.Facts₀

variable {φ₁ φ₂ : FTy}

/-- A linear layer from 256 features to 128: output feature o of row (b, n) is the sum over the input features. -/
theorem lin_256_128 (X : FVec Ideal S2048x64x256 φ₁) (W : FVec Ideal S128x256 φ₂) (b : Fin 2048) (n : Fin 64) (o : Fin 128) :
    Host.dotGeneral dot_S2048x64x256_S128x256_S2048x64x128_2_1_01_0_n_n none X W (ix3 b n o) = ∑ k : Fin 256, X (ix3 b n k) * W (ix2 o k) := by
  show FloatOps.dotGeneral _ none .single X W (ix3 b n o) = _
  rw [Ideal.dotGeneral_apply, ← Equiv.sum_comp (contrEquiv1 dot_S2048x64x256_S128x256_S2048x64x128_2_1_01_0_n_n 256 rfl rfl).symm]
  refine Finset.sum_congr rfl fun c _ => ?_
  have hc := contrEquiv1_symm_val dot_S2048x64x256_S128x256_S2048x64x128_2_1_01_0_n_n 256 rfl rfl c
  have hl : (dot_S2048x64x256_S128x256_S2048x64x128_2_1_01_0_n_n).lhsIdx (ix3 b n o) ((contrEquiv1 _ 256 rfl rfl).symm c) = ix3 b n c := by
    funext ax; apply Fin.ext
    match ax with
    | ⟨0, _⟩ => simp [DotDims.lhsIdx, dot_S2048x64x256_S128x256_S2048x64x128_2_1_01_0_n_n] <;> rfl
    | ⟨1, _⟩ => simp [DotDims.lhsIdx, dot_S2048x64x256_S128x256_S2048x64x128_2_1_01_0_n_n] <;> rfl
    | ⟨2, _⟩ => exact ((dot_S2048x64x256_S128x256_S2048x64x128_2_1_01_0_n_n).lhsIdx_val_of_single rfl (ix3 b n o) _).trans hc
  have hr : (dot_S2048x64x256_S128x256_S2048x64x128_2_1_01_0_n_n).rhsIdx (ix3 b n o) ((contrEquiv1 _ 256 rfl rfl).symm c) = ix2 o c := by
    funext ax; apply Fin.ext
    match ax with
    | ⟨0, _⟩ => simp [DotDims.rhsIdx, dot_S2048x64x256_S128x256_S2048x64x128_2_1_01_0_n_n] <;> rfl
    | ⟨1, _⟩ => exact ((dot_S2048x64x256_S128x256_S2048x64x128_2_1_01_0_n_n).rhsIdx_val_of_single rfl (ix3 b n o) _).trans hc
  rw [hl, hr]

/-- A linear layer from 128 features to 128. -/
theorem lin_128_128 (X : FVec Ideal S2048x64x128 φ₁) (W : FVec Ideal S128x128 φ₂) (b : Fin 2048) (n : Fin 64) (o : Fin 128) :
    Host.dotGeneral dot_S2048x64x128_S128x128_S2048x64x128_2_1_01_0_n_n none X W (ix3 b n o) = ∑ k : Fin 128, X (ix3 b n k) * W (ix2 o k) := by
  show FloatOps.dotGeneral _ none .single X W (ix3 b n o) = _
  rw [Ideal.dotGeneral_apply, ← Equiv.sum_comp (contrEquiv1 dot_S2048x64x128_S128x128_S2048x64x128_2_1_01_0_n_n 128 rfl rfl).symm]
  refine Finset.sum_congr rfl fun c _ => ?_
  have hc := contrEquiv1_symm_val dot_S2048x64x128_S128x128_S2048x64x128_2_1_01_0_n_n 128 rfl rfl c
  have hl : (dot_S2048x64x128_S128x128_S2048x64x128_2_1_01_0_n_n).lhsIdx (ix3 b n o) ((contrEquiv1 _ 128 rfl rfl).symm c) = ix3 b n c := by
    funext ax; apply Fin.ext
    match ax with
    | ⟨0, _⟩ => simp [DotDims.lhsIdx, dot_S2048x64x128_S128x128_S2048x64x128_2_1_01_0_n_n] <;> rfl
    | ⟨1, _⟩ => simp [DotDims.lhsIdx, dot_S2048x64x128_S128x128_S2048x64x128_2_1_01_0_n_n] <;> rfl
    | ⟨2, _⟩ => exact ((dot_S2048x64x128_S128x128_S2048x64x128_2_1_01_0_n_n).lhsIdx_val_of_single rfl (ix3 b n o) _).trans hc
  have hr : (dot_S2048x64x128_S128x128_S2048x64x128_2_1_01_0_n_n).rhsIdx (ix3 b n o) ((contrEquiv1 _ 128 rfl rfl).symm c) = ix2 o c := by
    funext ax; apply Fin.ext
    match ax with
    | ⟨0, _⟩ => simp [DotDims.rhsIdx, dot_S2048x64x128_S128x128_S2048x64x128_2_1_01_0_n_n] <;> rfl
    | ⟨1, _⟩ => exact ((dot_S2048x64x128_S128x128_S2048x64x128_2_1_01_0_n_n).rhsIdx_val_of_single rfl (ix3 b n o) _).trans hc
  rw [hl, hr]

/-- A linear layer from 320 features to 128. -/
theorem lin_320_128 (X : FVec Ideal S2048x64x320 φ₁) (W : FVec Ideal S128x320 φ₂) (b : Fin 2048) (n : Fin 64) (o : Fin 128) :
    Host.dotGeneral dot_S2048x64x320_S128x320_S2048x64x128_2_1_01_0_n_n none X W (ix3 b n o) = ∑ k : Fin 320, X (ix3 b n k) * W (ix2 o k) := by
  show FloatOps.dotGeneral _ none .single X W (ix3 b n o) = _
  rw [Ideal.dotGeneral_apply, ← Equiv.sum_comp (contrEquiv1 dot_S2048x64x320_S128x320_S2048x64x128_2_1_01_0_n_n 320 rfl rfl).symm]
  refine Finset.sum_congr rfl fun c _ => ?_
  have hc := contrEquiv1_symm_val dot_S2048x64x320_S128x320_S2048x64x128_2_1_01_0_n_n 320 rfl rfl c
  have hl : (dot_S2048x64x320_S128x320_S2048x64x128_2_1_01_0_n_n).lhsIdx (ix3 b n o) ((contrEquiv1 _ 320 rfl rfl).symm c) = ix3 b n c := by
    funext ax; apply Fin.ext
    match ax with
    | ⟨0, _⟩ => simp [DotDims.lhsIdx, dot_S2048x64x320_S128x320_S2048x64x128_2_1_01_0_n_n] <;> rfl
    | ⟨1, _⟩ => simp [DotDims.lhsIdx, dot_S2048x64x320_S128x320_S2048x64x128_2_1_01_0_n_n] <;> rfl
    | ⟨2, _⟩ => exact ((dot_S2048x64x320_S128x320_S2048x64x128_2_1_01_0_n_n).lhsIdx_val_of_single rfl (ix3 b n o) _).trans hc
  have hr : (dot_S2048x64x320_S128x320_S2048x64x128_2_1_01_0_n_n).rhsIdx (ix3 b n o) ((contrEquiv1 _ 320 rfl rfl).symm c) = ix2 o c := by
    funext ax; apply Fin.ext
    match ax with
    | ⟨0, _⟩ => simp [DotDims.rhsIdx, dot_S2048x64x320_S128x320_S2048x64x128_2_1_01_0_n_n] <;> rfl
    | ⟨1, _⟩ => exact ((dot_S2048x64x320_S128x320_S2048x64x128_2_1_01_0_n_n).rhsIdx_val_of_single rfl (ix3 b n o) _).trans hc
  rw [hl, hr]

/-- A linear layer from 256 features to 64. -/
theorem lin_256_64 (X : FVec Ideal S2048x64x256 φ₁) (W : FVec Ideal S64x256 φ₂) (b : Fin 2048) (n : Fin 64) (o : Fin 64) :
    Host.dotGeneral dot_S2048x64x256_S64x256_S2048x64x64_2_1_01_0_n_n none X W (ix3 b n o) = ∑ k : Fin 256, X (ix3 b n k) * W (ix2 o k) := by
  show FloatOps.dotGeneral _ none .single X W (ix3 b n o) = _
  rw [Ideal.dotGeneral_apply, ← Equiv.sum_comp (contrEquiv1 dot_S2048x64x256_S64x256_S2048x64x64_2_1_01_0_n_n 256 rfl rfl).symm]
  refine Finset.sum_congr rfl fun c _ => ?_
  have hc := contrEquiv1_symm_val dot_S2048x64x256_S64x256_S2048x64x64_2_1_01_0_n_n 256 rfl rfl c
  have hl : (dot_S2048x64x256_S64x256_S2048x64x64_2_1_01_0_n_n).lhsIdx (ix3 b n o) ((contrEquiv1 _ 256 rfl rfl).symm c) = ix3 b n c := by
    funext ax; apply Fin.ext
    match ax with
    | ⟨0, _⟩ => simp [DotDims.lhsIdx, dot_S2048x64x256_S64x256_S2048x64x64_2_1_01_0_n_n] <;> rfl
    | ⟨1, _⟩ => simp [DotDims.lhsIdx, dot_S2048x64x256_S64x256_S2048x64x64_2_1_01_0_n_n] <;> rfl
    | ⟨2, _⟩ => exact ((dot_S2048x64x256_S64x256_S2048x64x64_2_1_01_0_n_n).lhsIdx_val_of_single rfl (ix3 b n o) _).trans hc
  have hr : (dot_S2048x64x256_S64x256_S2048x64x64_2_1_01_0_n_n).rhsIdx (ix3 b n o) ((contrEquiv1 _ 256 rfl rfl).symm c) = ix2 o c := by
    funext ax; apply Fin.ext
    match ax with
    | ⟨0, _⟩ => simp [DotDims.rhsIdx, dot_S2048x64x256_S64x256_S2048x64x64_2_1_01_0_n_n] <;> rfl
    | ⟨1, _⟩ => exact ((dot_S2048x64x256_S64x256_S2048x64x64_2_1_01_0_n_n).rhsIdx_val_of_single rfl (ix3 b n o) _).trans hc
  rw [hl, hr]

/-- A linear layer from 64 features to one. -/
theorem lin_64_1 (X : FVec Ideal S2048x64x64 φ₁) (W : FVec Ideal S1x64 φ₂) (b : Fin 2048) (n : Fin 64) (u : Fin 1) :
    Host.dotGeneral dot_S2048x64x64_S1x64_S2048x64x1_2_1_01_0_n_n none X W (ix3 b n u) = ∑ k : Fin 64, X (ix3 b n k) * W (ix2 u k) := by
  show FloatOps.dotGeneral _ none .single X W (ix3 b n u) = _
  rw [Ideal.dotGeneral_apply, ← Equiv.sum_comp (contrEquiv1 dot_S2048x64x64_S1x64_S2048x64x1_2_1_01_0_n_n 64 rfl rfl).symm]
  refine Finset.sum_congr rfl fun c _ => ?_
  have hc := contrEquiv1_symm_val dot_S2048x64x64_S1x64_S2048x64x1_2_1_01_0_n_n 64 rfl rfl c
  have hl : (dot_S2048x64x64_S1x64_S2048x64x1_2_1_01_0_n_n).lhsIdx (ix3 b n u) ((contrEquiv1 _ 64 rfl rfl).symm c) = ix3 b n c := by
    funext ax; apply Fin.ext
    match ax with
    | ⟨0, _⟩ => simp [DotDims.lhsIdx, dot_S2048x64x64_S1x64_S2048x64x1_2_1_01_0_n_n] <;> rfl
    | ⟨1, _⟩ => simp [DotDims.lhsIdx, dot_S2048x64x64_S1x64_S2048x64x1_2_1_01_0_n_n] <;> rfl
    | ⟨2, _⟩ => exact ((dot_S2048x64x64_S1x64_S2048x64x1_2_1_01_0_n_n).lhsIdx_val_of_single rfl (ix3 b n u) _).trans hc
  have hr : (dot_S2048x64x64_S1x64_S2048x64x1_2_1_01_0_n_n).rhsIdx (ix3 b n u) ((contrEquiv1 _ 64 rfl rfl).symm c) = ix2 u c := by
    funext ax; apply Fin.ext
    match ax with
    | ⟨0, _⟩ => simp [DotDims.rhsIdx, dot_S2048x64x64_S1x64_S2048x64x1_2_1_01_0_n_n] <;> rfl
    | ⟨1, _⟩ => exact ((dot_S2048x64x64_S1x64_S2048x64x1_2_1_01_0_n_n).rhsIdx_val_of_single rfl (ix3 b n u) _).trans hc
  rw [hl, hr]

/-- The batched product of queries with keys: within batch element b, row n of Q against row j of K, summed over the
    128 features. The batch coordinate is read by both operands and never summed. -/
theorem bmmQK (Q K : FVec Ideal S2048x64x128 φ₁) (b : Fin 2048) (n j : Fin 64) :
    Host.dotGeneral dot_S2048x64x128_S2048x64x128_S2048x64x64_2_2_1_1_0_0 none Q K (ix3 b n j) = ∑ d : Fin 128, Q (ix3 b n d) * K (ix3 b j d) := by
  show FloatOps.dotGeneral _ none .single Q K (ix3 b n j) = _
  rw [Ideal.dotGeneral_apply, ← Equiv.sum_comp (contrEquiv1 dot_S2048x64x128_S2048x64x128_S2048x64x64_2_2_1_1_0_0 128 rfl rfl).symm]
  refine Finset.sum_congr rfl fun c _ => ?_
  have hc := contrEquiv1_symm_val dot_S2048x64x128_S2048x64x128_S2048x64x64_2_2_1_1_0_0 128 rfl rfl c
  have hl : (dot_S2048x64x128_S2048x64x128_S2048x64x64_2_2_1_1_0_0).lhsIdx (ix3 b n j) ((contrEquiv1 _ 128 rfl rfl).symm c) = ix3 b n c := by
    funext ax; apply Fin.ext
    match ax with
    | ⟨0, _⟩ => simp [DotDims.lhsIdx, dot_S2048x64x128_S2048x64x128_S2048x64x64_2_2_1_1_0_0] <;> rfl
    | ⟨1, _⟩ => simp [DotDims.lhsIdx, dot_S2048x64x128_S2048x64x128_S2048x64x64_2_2_1_1_0_0] <;> rfl
    | ⟨2, _⟩ => exact ((dot_S2048x64x128_S2048x64x128_S2048x64x64_2_2_1_1_0_0).lhsIdx_val_of_single rfl (ix3 b n j) _).trans hc
  have hr : (dot_S2048x64x128_S2048x64x128_S2048x64x64_2_2_1_1_0_0).rhsIdx (ix3 b n j) ((contrEquiv1 _ 128 rfl rfl).symm c) = ix3 b j c := by
    funext ax; apply Fin.ext
    match ax with
    | ⟨0, _⟩ => simp [DotDims.rhsIdx, dot_S2048x64x128_S2048x64x128_S2048x64x64_2_2_1_1_0_0] <;> rfl
    | ⟨1, _⟩ => simp [DotDims.rhsIdx, dot_S2048x64x128_S2048x64x128_S2048x64x64_2_2_1_1_0_0] <;> rfl
    | ⟨2, _⟩ => exact ((dot_S2048x64x128_S2048x64x128_S2048x64x64_2_2_1_1_0_0).rhsIdx_val_of_single rfl (ix3 b n j) _).trans hc
  rw [hl, hr]

/-- The batched product of attention weights with values: within batch element b, row n of W against column d of V,
    summed over the 64 agents. -/
theorem bmmWV (W : FVec Ideal S2048x64x64 φ₁) (V : FVec Ideal S2048x64x128 φ₂) (b : Fin 2048) (n : Fin 64) (d : Fin 128) :
    Host.dotGeneral dot_S2048x64x64_S2048x64x128_S2048x64x128_2_1_1_2_0_0 none W V (ix3 b n d) = ∑ j : Fin 64, W (ix3 b n j) * V (ix3 b j d) := by
  show FloatOps.dotGeneral _ none .single W V (ix3 b n d) = _
  rw [Ideal.dotGeneral_apply, ← Equiv.sum_comp (contrEquiv1 dot_S2048x64x64_S2048x64x128_S2048x64x128_2_1_1_2_0_0 64 rfl rfl).symm]
  refine Finset.sum_congr rfl fun c _ => ?_
  have hc := contrEquiv1_symm_val dot_S2048x64x64_S2048x64x128_S2048x64x128_2_1_1_2_0_0 64 rfl rfl c
  have hl : (dot_S2048x64x64_S2048x64x128_S2048x64x128_2_1_1_2_0_0).lhsIdx (ix3 b n d) ((contrEquiv1 _ 64 rfl rfl).symm c) = ix3 b n c := by
    funext ax; apply Fin.ext
    match ax with
    | ⟨0, _⟩ => simp [DotDims.lhsIdx, dot_S2048x64x64_S2048x64x128_S2048x64x128_2_1_1_2_0_0] <;> rfl
    | ⟨1, _⟩ => simp [DotDims.lhsIdx, dot_S2048x64x64_S2048x64x128_S2048x64x128_2_1_1_2_0_0] <;> rfl
    | ⟨2, _⟩ => exact ((dot_S2048x64x64_S2048x64x128_S2048x64x128_2_1_1_2_0_0).lhsIdx_val_of_single rfl (ix3 b n d) _).trans hc
  have hr : (dot_S2048x64x64_S2048x64x128_S2048x64x128_2_1_1_2_0_0).rhsIdx (ix3 b n d) ((contrEquiv1 _ 64 rfl rfl).symm c) = ix3 b c d := by
    funext ax; apply Fin.ext
    match ax with
    | ⟨0, _⟩ => simp [DotDims.rhsIdx, dot_S2048x64x64_S2048x64x128_S2048x64x128_2_1_1_2_0_0] <;> rfl
    | ⟨1, _⟩ => exact ((dot_S2048x64x64_S2048x64x128_S2048x64x128_2_1_1_2_0_0).rhsIdx_val_of_single rfl (ix3 b n d) _).trans hc
    | ⟨2, _⟩ => simp [DotDims.rhsIdx, dot_S2048x64x64_S2048x64x128_S2048x64x128_2_1_1_2_0_0] <;> rfl
  rw [hl, hr]

end Cert.ReferenceIdeal.RDots

end
-- ==== Proof.RLanes.lean ====
/-
  The host program's lane-wise operations, read at one index.

  Each lemma reads one operation (or one short chain of operations) of the host program at an index (b, n, k) of a
  [2048, 64, ·] array: the leaky rectifier is the scalar rectifier of the entry; a bias of 128 features spread over the
  batch and the agents is the feature's entry; the softmax over the last axis is the scalar softmax of the row
  (b, n, ·); the scale array is the scale word's value everywhere; and two arrays laid side by side along the last
  axis read the first array below its extent and the second array past it.
-/
import proofs.«421273_j77558519431826_3_alg».proof.Proof.RStages
import proofs.«421273_j77558519431826_3_alg».proof.Proof.Spec
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReferenceIdeal.RLanes

open Idealize.ShloMosaic Idealize.ShloMosaic.ValueIdx Cert.ReferenceIdeal Cert.ReferenceIdeal.Facts₀

/-! ## The rectifier, the bias and the scale -/

/-- The leaky rectifier of a [2048, 64, 128] array at an index is the scalar rectifier of the entry there: the
    comparison with the zero word, the product with the slope word and the selection all act entry by entry. -/
theorem lreluH_apply (x : FVec Ideal S2048x64x128 .f32) (i : S2048x64x128.Idx) :
    Stages.lreluH x i = Critic.lrelu (x i) := rfl

/-- The same on a [2048, 64, 64] array. -/
theorem lreluH64_apply (x : FVec Ideal S2048x64x64 .f32) (i : S2048x64x64.Idx) :
    Stages.lreluH64 x i = Critic.lrelu (x i) := rfl

/-- The scale array is the scale word's value at every index. -/
theorem scale_apply (i : S2048x64x64.Idx) :
    (broadcastInDim S2048x64x64 ![] bcast_S_S2048x64x64 (constant (F := Ideal) S_ .f32 0x3DB504F3#32)) i
      = Ideal.ofBits .f32 0x3DB504F3#32 := rfl

/-- A bias of 128 features spread to [1, 1, 128] and then to [2048, 64, 128] reads, at (b, n, d), feature d. -/
theorem biasH_apply (v : FVec Ideal S128 .f32) (b : Fin 2048) (n : Fin 64) (d : Fin 128) :
    Stages.biasH v (ix3 b n d) = v (ix1 d) := by
  unfold Stages.biasH
  rw [broadcastInDim_apply _ _ _ (ix3 b n d) (ix3 (0 : Fin 1) (0 : Fin 1) d) (by
    intro a
    match a with
    | ⟨0, _⟩ => rfl
    | ⟨1, _⟩ => rfl
    | ⟨2, _⟩ => rfl)]
  rw [broadcastInDim_apply _ _ _ (ix3 (0 : Fin 1) (0 : Fin 1) d) (ix1 d) (by
    intro a
    match a with
    | ⟨0, _⟩ => rfl)]

/-! ## Two arrays side by side along the last axis -/

/-- States and actions side by side, read below feature 256: the states entry. -/
theorem concat_sa_left (s : FVec Ideal S2048x64x256 .f32) (t : FVec Ideal S2048x64x64 .f32) (b : Fin 2048) (n : Fin 64)
    (i : Fin 256) :
    concatenate S2048x64x320 2 [⟨S2048x64x256, s⟩, ⟨S2048x64x64, t⟩] concatenates_S2048x64x256_S2048x64x64_S2048x64x320_d2
      (ix3 b n (Fin.castAdd 64 i)) = s (ix3 b n i) :=
  concatenate_pair_apply_left (2 : Fin 3) s t concatenates_S2048x64x256_S2048x64x64_S2048x64x320_d2
    (ix3 b n (Fin.castAdd 64 i)) rfl (ix3 b n i) (fun a => by
      match a with
      | ⟨0, _⟩ => rfl
      | ⟨1, _⟩ => rfl
      | ⟨2, _⟩ => rfl)

/-- States and actions side by side, read at feature 256 + i: the actions entry i. -/
theorem concat_sa_right (s : FVec Ideal S2048x64x256 .f32) (t : FVec Ideal S2048x64x64 .f32) (b : Fin 2048) (n : Fin 64)
    (i : Fin 64) :
    concatenate S2048x64x320 2 [⟨S2048x64x256, s⟩, ⟨S2048x64x64, t⟩] concatenates_S2048x64x256_S2048x64x64_S2048x64x320_d2
      (ix3 b n (Fin.natAdd 256 i)) = t (ix3 b n i) :=
  concatenate_pair_apply_right (2 : Fin 3) s t concatenates_S2048x64x256_S2048x64x64_S2048x64x320_d2
    (ix3 b n (Fin.natAdd 256 i)) rfl rfl (ix3 b n i) (fun a ha => by
      match a, ha with
      | ⟨0, _⟩, _ => rfl
      | ⟨1, _⟩, _ => rfl
      | ⟨2, _⟩, ha => exact absurd rfl ha) (by
      show i.val + 256 = 256 + i.val
      omega)

/-- Two [2048, 64, 128] arrays side by side, read below feature 128: the first array's entry. -/
theorem concat_nf_left (s t : FVec Ideal S2048x64x128 .f32) (b : Fin 2048) (n : Fin 64) (i : Fin 128) :
    concatenate S2048x64x256 2 [⟨S2048x64x128, s⟩, ⟨S2048x64x128, t⟩] concatenates_S2048x64x128_S2048x64x128_S2048x64x256_d2
      (ix3 b n (Fin.castAdd 128 i)) = s (ix3 b n i) :=
  concatenate_pair_apply_left (2 : Fin 3) s t concatenates_S2048x64x128_S2048x64x128_S2048x64x256_d2
    (ix3 b n (Fin.castAdd 128 i)) rfl (ix3 b n i) (fun a => by
      match a with
      | ⟨0, _⟩ => rfl
      | ⟨1, _⟩ => rfl
      | ⟨2, _⟩ => rfl)

/-- Two [2048, 64, 128] arrays side by side, read at feature 128 + i: the second array's entry i. -/
theorem concat_nf_right (s t : FVec Ideal S2048x64x128 .f32) (b : Fin 2048) (n : Fin 64) (i : Fin 128) :
    concatenate S2048x64x256 2 [⟨S2048x64x128, s⟩, ⟨S2048x64x128, t⟩] concatenates_S2048x64x128_S2048x64x128_S2048x64x256_d2
      (ix3 b n (Fin.natAdd 128 i)) = t (ix3 b n i) :=
  concatenate_pair_apply_right (2 : Fin 3) s t concatenates_S2048x64x128_S2048x64x128_S2048x64x256_d2
    (ix3 b n (Fin.natAdd 128 i)) rfl rfl (ix3 b n i) (fun a ha => by
      match a, ha with
      | ⟨0, _⟩, _ => rfl
      | ⟨1, _⟩, _ => rfl
      | ⟨2, _⟩, ha => exact absurd rfl ha) (by
      show i.val + 128 = 128 + i.val
      omega)

/-! ## The softmax over the last axis -/

/-- Inserting coordinate k on the last axis of (b, n) gives (b, n, k). -/
theorem lift_ix (h : S2048x64x64.Reduces [2] S2048x64) (b : Fin 2048) (n : Fin 64) (k : Fin 64) :
    h.lift (ix2 b n) k = ix3 b n k := by
  funext c; apply Fin.ext
  match c with
  | ⟨0, _⟩ => rfl
  | ⟨1, _⟩ => rfl
  | ⟨2, _⟩ => rfl

/-- A [2048, 64] array spread to [2048, 64, 1] and then to [2048, 64, 64] reads, at (b, n, j), its entry (b, n). -/
theorem keepdims_apply (v : FVec Ideal S2048x64 .f32) (b : Fin 2048) (n j : Fin 64) :
    broadcastInDim S2048x64x64 ![0, 1, 2] bcast_S2048x64x1_S2048x64x64_0_1_2
      (broadcastInDim S2048x64x1 ![0, 1] bcast_S2048x64_S2048x64x1_0_1 v) (ix3 b n j) = v (ix2 b n) := by
  rw [broadcastInDim_apply _ _ _ (ix3 b n j) (ix3 b n (0 : Fin 1)) (by
    intro a
    match a with
    | ⟨0, _⟩ => rfl
    | ⟨1, _⟩ => rfl
    | ⟨2, _⟩ => rfl)]
  rw [broadcastInDim_apply _ _ _ (ix3 b n (0 : Fin 1)) (ix2 b n) (by
    intro a
    match a with
    | ⟨0, _⟩ => rfl
    | ⟨1, _⟩ => rfl)]

/-- The minus-infinity array is the minus-infinity word's value at every index. -/
theorem ninf_apply (i : S2048x64.Idx) :
    (broadcastInDim S2048x64 ![] bcast_S_S2048x64 (constant (F := Ideal) S_ .f32 0xFF800000#32)) i
      = Ideal.ofBits .f32 0xFF800000#32 := rfl

/-- The maximum over the last axis seeded with the minus-infinity word, at (b, n): the fold of max over the row
    (b, n, ·) from that word's value. -/
theorem hmax_apply (z : FVec Ideal S2048x64x64 .f32) (b : Fin 2048) (n : Fin 64) :
    Host.reduce FloatOps.maximumf z (constant (F := Ideal) S_ .f32 0xFF800000#32) reducesTo_S2048x64x64_S2048x64_d2 h_S_
        (ix2 b n)
      = (Finset.univ : Finset (Fin 64)).fold max (Ideal.ofBits .f32 0xFF800000#32) (fun j' => z (ix3 b n j')) := by
  have h : S2048x64x64.Reduces [2] S2048x64 := by decide
  rw [Host.reduce_eq_fold_single FloatOps.maximumf z _ reducesTo_S2048x64x64_S2048x64_d2 h h_S_]
  have hz : (z ∘ h.lift (ix2 b n)) = fun j' : Fin 64 => z (ix3 b n j') := by
    funext k
    exact congrArg z (lift_ix h b n k)
  rw [hz]
  rfl

/-- The sum over the last axis seeded with the zero word, at (b, n): the sum over the row (b, n, ·), since the zero
    word's value is 0 and 0 + x = x. -/
theorem hsum_apply (e : FVec Ideal S2048x64x64 .f32) (b : Fin 2048) (n : Fin 64) :
    Host.reduceAdd e (constant (F := Ideal) S_ .f32 0x00000000#32) reducesTo_S2048x64x64_S2048x64_d2 h_S_ (ix2 b n)
      = ∑ k : Fin 64, e (ix3 b n k) := by
  have h : S2048x64x64.Reduces [2] S2048x64 := by decide
  rw [hostReduceAdd_apply, Ideal.hostReduceAdd_single reducesTo_S2048x64x64_S2048x64_d2 h]
  rw [constant_apply, Ideal.ofBits_zero_f32, zero_add]
  exact Finset.sum_congr rfl fun k _ => congrArg e (lift_ix h b n k)

/-- The exponential of a difference of arrays, entry by entry. -/
theorem expSub_apply (z m : FVec Ideal S2048x64x64 .f32) (i : S2048x64x64.Idx) :
    Host.exp (subf z m) i = Ideal.exp (z i - m i) := rfl

/-- The row maxima spread back over the rows read, at (b, n, j), the maximum of the row (b, n, ·). -/
theorem rowMaxH_apply (z : FVec Ideal S2048x64x64 .f32) (b : Fin 2048) (n j : Fin 64) :
    Stages.rowMaxH z (ix3 b n j) = Critic.rowMax (fun j' => z (ix3 b n j')) := by
  unfold Stages.rowMaxH Critic.rowMax
  rw [keepdims_apply, maximumf_apply, ninf_apply, hmax_apply]

/-- The exponentials at (b, n, j): the exponential of the entry less its row's maximum. -/
theorem expH_apply (z : FVec Ideal S2048x64x64 .f32) (b : Fin 2048) (n j : Fin 64) :
    Stages.expH z (ix3 b n j) = Ideal.exp (z (ix3 b n j) - Critic.rowMax (fun j' => z (ix3 b n j'))) := by
  unfold Stages.expH
  rw [expSub_apply, rowMaxH_apply]

/-- The softmax over the last axis at (b, n, j) is the scalar softmax of the row (b, n, ·) at j. -/
theorem softmaxH_apply (z : FVec Ideal S2048x64x64 .f32) (b : Fin 2048) (n j : Fin 64) :
    Stages.softmaxH z (ix3 b n j) = Critic.softmax (fun j' => z (ix3 b n j')) j := by
  unfold Stages.softmaxH Critic.softmax
  rw [hostDivf_apply, keepdims_apply, hsum_apply, expH_apply]
  exact congrArg _ (Finset.sum_congr rfl fun k _ => expH_apply z b n k)

end Cert.ReferenceIdeal.RLanes

end
-- ==== Proof.RValueA.lean ====
/-
  The host program's stages that depend on the states alone, read at one index.

  At (b, n, ·) each stage is the one-batch-element critic's layer at batch element b's state rows: the embeddings, the
  first attention matrix, the embeddings mixed by it, the two re-embeddings, and the second attention matrix. A linear
  layer reads as the sum over its input features, a batched product as the sum over the features or over the agents of
  one batch element, a softmax as the scalar softmax of its row; each later layer rewrites the earlier layers' entries
  under its sums.
-/
import proofs.«421273_j77558519431826_3_alg».proof.Proof.RStages
import proofs.«421273_j77558519431826_3_alg».proof.Proof.RLanes
import proofs.«421273_j77558519431826_3_alg».proof.Proof.RDots
import proofs.«421273_j77558519431826_3_alg».proof.Proof.Whole
import Idealize.ShloMosaic.Lib.ValueIdx

noncomputable section

namespace Cert.ReferenceIdeal.RValue

open Idealize.ShloMosaic Idealize.ShloMosaic.ValueIdx Cert.ReferenceIdeal Cert.ReferenceIdeal.Facts₀

variable (a : Critic.Args) (b : Fin 2048)

/-- The scaled logits of embeddings x at (b, n, j): the inner product over the 128 features of agent n's query with
    agent j's key, each a linear image of the agent's embedding, times the scale word's value. -/
theorem logitsH_apply (x : FVec Ideal S2048x64x128 .f32) (Wq Wk : FVec Ideal S128x128 .f32) (n j : Fin 64) :
    Stages.logitsH x Wq Wk (ix3 b n j)
      = (∑ d : Fin 128, (∑ k : Fin 128, x (ix3 b n k) * Wq (ix2 d k)) * (∑ k : Fin 128, x (ix3 b j k) * Wk (ix2 d k)))
          * Ideal.ofBits .f32 0x3DB504F3#32 := by
  unfold Stages.logitsH
  rw [mulf_apply, RLanes.scale_apply, RDots.bmmQK]
  refine congrArg (· * _) (Finset.sum_congr rfl fun d _ => ?_)
  rw [RDots.lin_128_128, RDots.lin_128_128]

/-- The softmax of the scaled logits of embeddings x at (b, n, j) is the attention matrix of batch element b's
    embeddings X, once x at (b, ·, ·) is X. -/
theorem attnH_apply (x : FVec Ideal S2048x64x128 .f32) (X : Fin 64 → Fin 128 → EReal)
    (hx : ∀ (n : Fin 64) (d : Fin 128), x (ix3 b n d) = X n d) (n j : Fin 64) :
    Stages.softmaxH (Stages.logitsH x a.Wq a.Wk) (ix3 b n j) = Critic.attn a.P X n j := by
  rw [RLanes.softmaxH_apply]
  unfold Critic.attn
  refine congrArg (fun f => Critic.softmax f j) (funext fun j' => ?_)
  rw [logitsH_apply]
  refine congrArg (· * _) (Finset.sum_congr rfl fun d _ => ?_)
  unfold Critic.lin
  refine congrArg₂ (· * ·) (Finset.sum_congr rfl fun k _ => ?_) (Finset.sum_congr rfl fun k _ => ?_)
  · rw [hx]; rfl
  · rw [hx]; rfl

/-- A rectified affine layer of 128 features on rows y, at (b, n, o), once y at (b, ·, ·) is Y. -/
theorem affineH_apply (y : FVec Ideal S2048x64x128 .f32) (W : FVec Ideal S128x128 .f32) (v : FVec Ideal S128 .f32)
    (Y : Fin 64 → Fin 128 → EReal) (hy : ∀ (n : Fin 64) (d : Fin 128), y (ix3 b n d) = Y n d) (n : Fin 64) (o : Fin 128) :
    Stages.lreluH (addf
        (Host.dotGeneral (φ₁ := .f32) (φ₂ := .f32) dot_S2048x64x128_S128x128_S2048x64x128_2_1_01_0_n_n none y W)
        (Stages.biasH v)) (ix3 b n o)
      = Critic.lrelu (Critic.lin (fun o' k => W (ix2 o' k)) (Y n) o + v (ix1 o)) := by
  rw [RLanes.lreluH_apply, addf_apply, RDots.lin_128_128, RLanes.biasH_apply]
  unfold Critic.lin
  refine congrArg (fun s => Critic.lrelu (s + _)) (Finset.sum_congr rfl fun k _ => ?_)
  rw [hy]

variable (n j : Fin 64) (d o : Fin 128)

/-- The embeddings at (b, n, d). -/
theorem sePre_apply : Stages.sePre a (ix3 b n d) = Critic.sePre a.P (a.S b) n d := by
  unfold Stages.sePre
  rw [RLanes.lreluH_apply, addf_apply, RDots.lin_256_128, RLanes.biasH_apply]
  rfl

/-- The first attention array at (b, n, j). -/
theorem w1_apply : Stages.w1 a (ix3 b n j) = Critic.w1 a.P (a.S b) n j := by
  unfold Stages.w1
  exact attnH_apply a b (Stages.sePre a) (Critic.sePre a.P (a.S b)) (fun n d => sePre_apply a b n d) n j

/-- The embeddings mixed by the first attention array, at (b, n, d). -/
theorem avPre_apply : Stages.avPre a (ix3 b n d) = Critic.avPre a.P (a.S b) n d := by
  unfold Stages.avPre Critic.avPre
  rw [RDots.bmmWV]
  refine Finset.sum_congr rfl fun j _ => ?_
  rw [w1_apply, sePre_apply]

/-- The re-embedding that feeds the second attention, at (b, n, o). -/
theorem se_apply : Stages.se a (ix3 b n o) = Critic.se a.P (a.S b) n o := by
  unfold Stages.se
  exact affineH_apply b (Stages.avPre a) a.Wse a.bse (Critic.avPre a.P (a.S b)) (fun n d => avPre_apply a b n d) n o

/-- The second attention array at (b, n, j). -/
theorem w2_apply : Stages.w2 a (ix3 b n j) = Critic.w2 a.P (a.S b) n j := by
  unfold Stages.w2
  exact attnH_apply a b (Stages.se a) (Critic.se a.P (a.S b)) (fun n o => se_apply a b n o) n j

/-- The re-embedding that feeds the head, at (b, n, o). -/
theorem seq_apply : Stages.seq a (ix3 b n o) = Critic.seq a.P (a.S b) n o := by
  unfold Stages.seq
  exact affineH_apply b (Stages.avPre a) a.Wsq a.bsq (Critic.avPre a.P (a.S b)) (fun n d => avPre_apply a b n d) n o

end Cert.ReferenceIdeal.RValue

end
-- ==== Proof.RValueB.lean ====
/-
  The host program's later stages, read at one index, are the one-batch-element critic's.

  The observation-action embedding contracts over the 320 features of a state row and an action row laid side by
  side: the sum over 320 splits into the sum over the first 256, where the concatenation reads the state row, plus the
  sum over the last 64, where it reads the action row. The head's hidden layer does the same over 128 + 128 features
  of the two arrays it lays side by side. Every other stage is one product or one rectified affine layer whose operands
  are earlier stages, already identified index by index. The value array has a last axis of extent one, whose only
  coordinate is 0. The three result arrays then agree with the critic's at every index, an index being the triple of
  its coordinates.
-/
import proofs.«421273_j77558519431826_3_alg».proof.Proof.RStages
import proofs.«421273_j77558519431826_3_alg».proof.Proof.RDots
import proofs.«421273_j77558519431826_3_alg».proof.Proof.RLanes
import proofs.«421273_j77558519431826_3_alg».proof.Proof.RValueA
import proofs.«421273_j77558519431826_3_alg».proof.Proof.Whole

noncomputable section

namespace Cert.ReferenceIdeal.RValue
open Idealize.ShloMosaic Idealize.ShloMosaic.ValueIdx Cert.ReferenceIdeal Cert.ReferenceIdeal.Facts₀

variable (a : Critic.Args) (b : Fin 2048) (n : Fin 64)

/-- The observation-action embedding: the 320-feature contraction split at feature 256. -/
theorem oae_apply (o : Fin 128) : Stages.oae a (ix3 b n o) = Critic.oae a.P (a.S b) (a.A b) n o := by
  unfold Stages.oae Critic.oae
  rw [RLanes.lreluH_apply, addf_apply, RLanes.biasH_apply, RDots.lin_320_128, Critic.sum_split 256 64]
  simp only [RLanes.concat_sa_left, RLanes.concat_sa_right]
  rfl

/-- The values the second attention mixes: a linear image of the observation-action embedding. -/
theorem av_apply (d : Fin 128) : Stages.av a (ix3 b n d) = Critic.av a.P (a.S b) (a.A b) n d := by
  unfold Stages.av Critic.av
  rw [RDots.lin_128_128]
  simp only [oae_apply]
  rfl

/-- The values mixed by the second attention array, within one batch element. -/
theorem agg_apply (d : Fin 128) : Stages.agg a (ix3 b n d) = Critic.agg a.P (a.S b) (a.A b) n d := by
  unfold Stages.agg Critic.agg
  rw [RDots.bmmWV]
  simp only [w2_apply, av_apply]

/-- The head's hidden layer: the 256-feature contraction split at feature 128. -/
theorem hid_apply (o : Fin 64) : Stages.hid a (ix3 b n o) = Critic.hid a.P (a.S b) (a.A b) n o := by
  unfold Stages.hid Critic.hid
  rw [RLanes.lreluH64_apply, RDots.lin_256_64, Critic.sum_split 128 128]
  simp only [RLanes.concat_nf_left, RLanes.concat_nf_right, seq_apply, agg_apply]
  rfl

/-- The value array: the last axis has the single coordinate 0. -/
theorem value_apply (u : Fin 1) : Stages.value a (ix3 b n u) = Critic.value a.P (a.S b) (a.A b) n := by
  unfold Stages.value Critic.value
  rw [RDots.lin_64_1, Fin.fin_one_eq_zero u]
  simp only [hid_apply]
  rfl

/-- The value array is the critic's value at every index. -/
theorem value_eq : Stages.value a = Critic.Gval a := by
  funext j
  rw [eq_ix3 j]
  exact value_apply a (j 0) (j 1) (j 2)

/-- The first attention array is the critic's. -/
theorem w1_eq : Stages.w1 a = Critic.Gw1 a := by
  funext j
  rw [eq_ix3 j]
  exact w1_apply a (j 0) (j 1) (j 2)

/-- The second attention array is the critic's. -/
theorem w2_eq : Stages.w2 a = Critic.Gw2 a := by
  funext j
  rw [eq_ix3 j]
  exact w2_apply a (j 0) (j 1) (j 2)

end Cert.ReferenceIdeal.RValue

end
-- ==== Proof.lean ====
/-
  The certificate: the pipelined critic kernel and the jnp reference compute the same three arrays at the ideal values.

  The program is a two-stage attention critic over 2048 batch elements of 64 agents: a rectified embedding of the
  states, a softmax attention over the agents from its queries and keys, a re-embedding of the mixed embeddings that
  feeds a second attention of the same form, values from the states and actions laid side by side, and a head on the
  re-embedding and the mixed values laid side by side. Nothing couples two batch elements, so the result is stated
  once for ONE batch element (`Spec.lean`) and lifted to whole arrays (`Whole.lean`).

  The kernel stages the weights stacked in pairs and slices the products back, splits the two side-by-side
  contractions into sums of two products, and takes the last contraction as a lane sum; at the ideal values each of
  these is an identity of finite sums on the extended reals (a slice of a product is the product with the slice; a sum
  over 256 + 64 or 128 + 128 features is the sum of the two partial sums), the changes of float format are the
  identity, and every float word the two programs carry is the same word on both sides. No finiteness is used.

  The kernel's frame is generated; its three output blocks are read entry by entry as the one-batch-element critic
  (`KPay.lean` over `KDots.lean`, `KLanes.lean`, `KPayHead.lean`), its blocks cover its arrays (`KBlocks.lean`,
  `KValue.lean`). The host program's run is written out stage by stage (`RStages.lean`, `RRun.lean`) and each stage is
  the critic's layer at every index (`RDots.lean`, `RLanes.lean`, `RValueA.lean`, `RValueB.lean`).
-/
import proofs.«421273_j77558519431826_3_alg».proof.Defs
import proofs.«421273_j77558519431826_3_alg».proof.Proof.Gen.Kernel
import proofs.«421273_j77558519431826_3_alg».proof.Proof.Gen.Kernel.Frame
import proofs.«421273_j77558519431826_3_alg».proof.Proof.Gen.KernelIdeal
import proofs.«421273_j77558519431826_3_alg».proof.Proof.Gen.KernelIdeal.Frame
import proofs.«421273_j77558519431826_3_alg».proof.Proof.Gen.ReferenceIdeal
import proofs.«421273_j77558519431826_3_alg».proof.Proof.Gen.Pre_finite_inputs
import proofs.«421273_j77558519431826_3_alg».proof.Proof.KValue
import proofs.«421273_j77558519431826_3_alg».proof.Proof.RRun
import proofs.«421273_j77558519431826_3_alg».proof.Proof.RValueB

noncomputable section

namespace Cert.Proof

open Idealize.ShloMosaic Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The host program's frame: its run with the results dropped. -/
theorem frame_ri : Cert.frame_ReferenceIdeal := fun m ρ _ =>
  (θ_run Cert.ReferenceIdeal.defs _ _).mono (fun _ h c => (h c).2.2.2) (Cert.ReferenceIdeal.RRun.run m ρ)

/-- The ideal pass rewrote nothing: the idealization is the program's own text read at the ideal values. -/
theorem preserves : Cert.preserves_Kernel_KernelIdeal := trivial

/-- Memories that agree on the fifteen arguments give the two programs the same argument arrays. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RRun.argsOf m' c = Cert.KernelIdeal.KValue.argsOf m c := by
  obtain ⟨h0, h1, h2, h3, h4, h5, h6, h7, h8, h9, h10, h11, h12, h13, h14⟩ := h
  unfold Cert.ReferenceIdeal.RRun.argsOf Cert.KernelIdeal.KValue.argsOf
  rw [h0, h1, h2, h3, h4, h5, h6, h7, h8, h9, h10, h11, h12, h13, h14]

/-- At the ideal values both programs end with the value array and the two attention arrays of the one-batch-element
    critic at every batch coordinate of the SAME argument arrays: the kernel's blocks cover its arrays with it, the
    host program's stages are it layer by layer. -/
theorem algebraic : Cert.algebraic_KernelIdeal_ReferenceIdeal := by
  intro m ρ m' ρ' _ hagree
  refine ⟨fun c => Critic.Gval (Cert.KernelIdeal.KValue.argsOf m c), fun c => Critic.Gw1 (Cert.KernelIdeal.KValue.argsOf m c),
    fun c => Critic.Gw2 (Cert.KernelIdeal.KValue.argsOf m c), Cert.KernelIdeal.KValue.run m ρ, ?_⟩
  refine (θ_run Cert.ReferenceIdeal.defs _ _).mono (fun _ h c => ?_) (Cert.ReferenceIdeal.RRun.run m' ρ')
  obtain ⟨h59, h20, h42, hrest⟩ := h c
  have ha := args_agree m m' c (hagree c)
  refine ⟨h59.trans ?_, h20.trans ?_, h42.trans ?_, hrest⟩
  · rw [Cert.ReferenceIdeal.RValue.value_eq, ha]
  · rw [Cert.ReferenceIdeal.RValue.w1_eq, ha]
  · rw [Cert.ReferenceIdeal.RValue.w2_eq, ha]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
